-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S4x3x1080x1920 : Shape := ⟨4, ![4, 3, 1080, 1920]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S4x3x1080x1920 : S_.BroadcastsInDim S4x3x1080x1920 (![] : Fin 0 → Fin S4x3x1080x1920.rank)
  reducesTo_S4x3x1080x1920_S_d0_1_2_3 : S4x3x1080x1920.ReducesTo [0, 1, 2, 3] S_

variable [Facts]

def fn {F : FTy → Type} [FloatOps F] (main_arg0 : FVec F S3x33x33x33 .f32) (main_arg1 : FVec F S4x3x1080x1920 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S4x3x1080x1920 .f32 := Host.absf main_arg1
  let main_cst_0 : FVec F S_ .f32 := constant S_ .f32 0x7F800000#32
  let main_v5 : FVec F S4x3x1080x1920 .f32 := broadcastInDim S4x3x1080x1920 ![] bcast_S_S4x3x1080x1920 main_cst_0
  let main_v6 : IVec S4x3x1080x1920 1 := cmpf .olt main_v4 main_v5
  let main_c_1 : IVec S_ 1 := constantI S_ 1 1#1
  let main_v7 : IVec S_ 1 := (fun x v => Host.reduce IntOp.andi x v reducesTo_S4x3x1080x1920_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S4x3x1080x1920 : Shape := ⟨4, ![4, 3, 1080, 1920]⟩
abbrev S1x3x8x1920 : Shape := ⟨4, ![1, 3, 8, 1920]⟩
abbrev S3x33x33x8x128 : Shape := ⟨5, ![3, 33, 33, 8, 128]⟩
abbrev S3267x33 : Shape := ⟨2, ![3267, 33]⟩
abbrev S33x8x128 : Shape := ⟨3, ![33, 8, 128]⟩
abbrev S1x3x8x128 : Shape := ⟨4, ![1, 3, 8, 128]⟩
abbrev S3x8x128 : Shape := ⟨3, ![3, 8, 128]⟩
abbrev S1x8x128 : Shape := ⟨3, ![1, 8, 128]⟩
abbrev S8x128 : Shape := ⟨2, ![8, 128]⟩
abbrev S33x1024 : Shape := ⟨2, ![33, 1024]⟩
abbrev S3267x1024 : Shape := ⟨2, ![3267, 1024]⟩
abbrev S1x1x33x8x128 : Shape := ⟨5, ![1, 1, 33, 8, 128]⟩
abbrev S3x33x8x128 : Shape := ⟨4, ![3, 33, 8, 128]⟩
abbrev S1x33x8x128 : Shape := ⟨4, ![1, 33, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S3x33x33x33, .f32⟩
  | .hbm, ⟨1, _⟩ => ⟨S4x3x1080x1920, .f32⟩
  | .hbm, ⟨2, _⟩ => ⟨S4x3x1080x1920, .f32⟩
  | .local _ .vmem, ⟨0, _⟩ => ⟨S3x33x33x33, .f32⟩
  | .local _ .vmem, ⟨1, _⟩ => ⟨S1x3x8x1920, .f32⟩
  | .local _ .vmem, ⟨2, _⟩ => ⟨S1x3x8x1920, .f32⟩
  | .local _ .vmem, ⟨3, _⟩ => ⟨S1x3x8x1920, .f32⟩
  | .local _ .vmem, ⟨4, _⟩ => ⟨S1x3x8x1920, .f32⟩
  | .local _ .vmem, ⟨5, _⟩ => ⟨S3x33x33x8x128, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 135], ![false, false]⟩

@[reducible] def k0_t1_loop : Scf.Loop 32 :=
  let c0_i32 : BitVec 32 := 0#32
  let c15_i32 : BitVec 32 := 15#32
  let v3 : BitVec 32 := Scalar.addi c0_i32 c15_i32
  let c1_i32 : BitVec 32 := 1#32
  ⟨c0_i32, v3, c1_i32⟩
def k0_mult1 (k0_t1 : Fin k0_t1_loop.trips) : BitVec 32 :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c128_i32 : BitVec 32 := 128#32
  let v6 : BitVec 32 := Scalar.muli v5 c128_i32
  v6
def k0_off1 (k0_t1 : Fin k0_t1_loop.trips) : Fin 4 → Nat :=
  let c0_6 : Index := 0#32
  let c0_7 : Index := 0#32
  let c0_8 : Index := 0#32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c128_i32 : BitVec 32 := 128#32
  let v6 : BitVec 32 := Scalar.muli v5 c128_i32
  let v7 : BitVec 32 := v6
  let v8 : Index := Scalar.indexCast v7
  ![0, 0, 0, v8.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S3x33x33x33 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3x8x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S3x33x33x33_S3x33x33x33_0_0_0_0 : ∀ a, (![0, 0, 0, 0] : Fin 4 → Nat) a + S3x33x33x33.size a ≤ S3x33x33x33.size a
  h_S3x33x33x33 : 0 < S3x33x33x33.numel
  shapeCasts_S3x33x33x33_S3267x33 : S3x33x33x33.ShapeCasts S3267x33
  iota_S33x8x128_d0_w32 : S33x8x128.Iotas .tc 32 [0]
  h_S1x3x8x128 : 0 < S1x3x8x128.numel
  shapeCasts_S1x3x8x128_S3x8x128 : S1x3x8x128.ShapeCasts S3x8x128
  slices_S3x8x128_o0_0_0_S1x8x128 : S3x8x128.Slices ![0, 0, 0] S1x8x128
  shapeCasts_S1x8x128_S8x128 : S1x8x128.ShapeCasts S8x128
  slices_S3x8x128_o1_0_0_S1x8x128 : S3x8x128.Slices ![1, 0, 0] S1x8x128
  slices_S3x8x128_o2_0_0_S1x8x128 : S3x8x128.Slices ![2, 0, 0] S1x8x128
  shapeCasts_S8x128_S1x8x128 : S8x128.ShapeCasts S1x8x128
  broadcasts_S1x8x128_S33x8x128 : S1x8x128.Broadcasts S33x8x128
  shapeCasts_S1x8x128_S1x8x128 : S1x8x128.ShapeCasts S1x8x128
  shapeCasts_S33x8x128_S33x1024 : S33x8x128.ShapeCasts S33x1024
  shapeCasts_S3267x1024_S3x33x33x8x128 : S3267x1024.ShapeCasts S3x33x33x8x128
  inb_S3x33x33x8x128_S3x33x33x8x128_0_0_0_0_0 : ∀ a, (![0, 0, 0, 0, 0] : Fin 5 → Nat) a + S3x33x33x8x128.size a ≤ S3x33x33x8x128.size a
  h_S3x33x33x8x128 : 0 < S3x33x33x8x128.numel
  shapeCasts_S3x33x33x8x128_S3x33x33x8x128 : S3x33x33x8x128.ShapeCasts S3x33x33x8x128
  shapeCasts_S33x8x128_S1x1x33x8x128 : S33x8x128.ShapeCasts S1x1x33x8x128
  broadcasts_S1x1x33x8x128_S3x33x33x8x128 : S1x1x33x8x128.Broadcasts S3x33x33x8x128
  reduces_S3x33x33x8x128_S3x33x8x128 : S3x33x33x8x128.Reduces [2] S3x33x8x128
  shapeCasts_S33x8x128_S1x33x8x128 : S33x8x128.ShapeCasts S1x33x8x128
  broadcasts_S1x33x8x128_S3x33x8x128 : S1x33x8x128.Broadcasts S3x33x8x128
  reduces_S3x33x8x128_S3x8x128 : S3x33x8x128.Reduces [1] S3x8x128
  shapeCasts_S3x8x128_S1x3x8x128 : S3x8x128.ShapeCasts S1x3x8x128
  dot_S3267x33_S33x1024_S3267x1024_1_0_0_1_n_n_wf : DotDims.WF S3267x33 S33x1024 S3267x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x3x8x128.size a ≤ S1x3x8x1920.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x33x33x33.size a ≤ S3x33x33x33.size a
  hwx0_0 : ∀ i : grid0.Coords, EltTy.bits .f32 = 32 ∨ (Rect.block (s := S3x33x33x33) S3x33x33x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8x1920.size a ≤ S4x3x1080x1920.size a
  hwx0_1 : ∀ i : grid0.Coords, EltTy.bits .f32 = 32 ∨ (Rect.block (s := S4x3x1080x1920) S1x3x8x1920.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x1920.size a ≤ S4x3x1080x1920.size a
  hwx0_2 : ∀ i : grid0.Coords, EltTy.bits .f32 = 32 ∨ (Rect.block (s := S4x3x1080x1920) S1x3x8x1920.size (cc0_transform_2 i) (hinb0_2 i)).WholeWords (EltTy.packing .f32)

variable [Facts₀]

def dot_S3267x33_S33x1024_S3267x1024_1_0_0_1_n_n : DotDims S3267x33 S33x1024 S3267x1024 where
  lhsContracting := [1]
  rhsContracting := [0]
  lhsNonContracting := [0]
  rhsNonContracting := [1]
  lhsBatch := []
  rhsBatch := []
  wf := dot_S3267x33_S33x1024_S3267x1024_1_0_0_1_n_n_wf

abbrev win0_0 : Pipeline.Window sig grid0 :=
  Pipeline.Window.ofSpec (Memref.whole main_arg0) S3x33x33x33.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8x1920.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x8x1920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S4x3x1080x1920 : Shape := ⟨4, ![4, 3, 1080, 1920]⟩
abbrev S_ : Shape := ⟨0, ![]⟩
abbrev S4x1x1080x1920 : Shape := ⟨4, ![4, 1, 1080, 1920]⟩
abbrev S4x1080x1920 : Shape := ⟨3, ![4, 1080, 1920]⟩
abbrev S3x35937 : Shape := ⟨2, ![3, 35937]⟩
abbrev S4x1080x1920x1 : Shape := ⟨4, ![4, 1080, 1920, 1]⟩
abbrev S1 : Shape := ⟨1, ![1]⟩
abbrev S1x1x1x1 : Shape := ⟨4, ![1, 1, 1, 1]⟩
abbrev S3x4x1080x1920 : Shape := ⟨4, ![3, 4, 1080, 1920]⟩
abbrev S1x4x1080x1920 : Shape := ⟨4, ![1, 4, 1080, 1920]⟩

abbrev nBuf : Space → Nat
  | .hbm => 391
  | .vmem => 0
  | .smem => 0
  | _ => 0

abbrev hbmTy0_0 (i : Nat) : BufTy := match i % 128 with
  | 0 => ⟨S3x33x33x33, .f32⟩
  | 1 => ⟨S4x3x1080x1920, .f32⟩
  | 2 => ⟨S_, .f32⟩
  | 3 => ⟨S4x3x1080x1920, .f32⟩
  | 4 => ⟨S4x3x1080x1920, .f32⟩
  | 5 => ⟨S_, .f32⟩
  | 6 => ⟨S_, .f32⟩
  | 7 => ⟨S_, .f32⟩
  | 8 => ⟨S4x3x1080x1920, .f32⟩
  | 9 => ⟨S4x3x1080x1920, .f32⟩
  | 10 => ⟨S_, .f32⟩
  | 11 => ⟨S4x3x1080x1920, .f32⟩
  | 12 => ⟨S4x3x1080x1920, .f32⟩
  | 13 => ⟨S4x1x1080x1920, .f32⟩
  | 14 => ⟨S4x1080x1920, .f32⟩
  | 15 => ⟨S4x1x1080x1920, .f32⟩
  | 16 => ⟨S4x1080x1920, .f32⟩
  | 17 => ⟨S4x1x1080x1920, .f32⟩
  | 18 => ⟨S4x1080x1920, .f32⟩
  | 19 => ⟨S4x1080x1920, .f32⟩
  | 20 => ⟨S4x1080x1920, .f32⟩
  | 21 => ⟨S4x1080x1920, .i32⟩
  | 22 => ⟨S_, .i32⟩
  | 23 => ⟨S_, .i32⟩
  | 24 => ⟨S_, .i32⟩
  | 25 => ⟨S4x1080x1920, .i32⟩
  | 26 => ⟨S4x1080x1920, .i32⟩
  | 27 => ⟨S_, .i32⟩
  | 28 => ⟨S4x1080x1920, .i32⟩
  | 29 => ⟨S4x1080x1920, .i32⟩
  | 30 => ⟨S_, .i32⟩
  | 31 => ⟨S4x1080x1920, .i32⟩
  | 32 => ⟨S4x1080x1920, .i32⟩
  | 33 => ⟨S_, .i32⟩
  | 34 => ⟨S_, .i32⟩
  | 35 => ⟨S_, .i32⟩
  | 36 => ⟨S4x1080x1920, .i32⟩
  | 37 => ⟨S4x1080x1920, .i32⟩
  | 38 => ⟨S_, .i32⟩
  | 39 => ⟨S4x1080x1920, .i32⟩
  | 40 => ⟨S4x1080x1920, .i32⟩
  | 41 => ⟨S4x1080x1920, .f32⟩
  | 42 => ⟨S4x1080x1920, .f32⟩
  | 43 => ⟨S4x1080x1920, .i32⟩
  | 44 => ⟨S_, .i32⟩
  | 45 => ⟨S_, .i32⟩
  | 46 => ⟨S_, .i32⟩
  | 47 => ⟨S4x1080x1920, .i32⟩
  | 48 => ⟨S4x1080x1920, .i32⟩
  | 49 => ⟨S_, .i32⟩
  | 50 => ⟨S4x1080x1920, .i32⟩
  | 51 => ⟨S4x1080x1920, .i32⟩
  | 52 => ⟨S_, .i32⟩
  | 53 => ⟨S4x1080x1920, .i32⟩
  | 54 => ⟨S4x1080x1920, .i32⟩
  | 55 => ⟨S_, .i32⟩
  | 56 => ⟨S_, .i32⟩
  | 57 => ⟨S_, .i32⟩
  | 58 => ⟨S4x1080x1920, .i32⟩
  | 59 => ⟨S4x1080x1920, .i32⟩
  | 60 => ⟨S_, .i32⟩
  | 61 => ⟨S4x1080x1920, .i32⟩
  | 62 => ⟨S4x1080x1920, .i32⟩
  | 63 => ⟨S4x1080x1920, .f32⟩
  | 64 => ⟨S4x1080x1920, .f32⟩
  | 65 => ⟨S4x1080x1920, .i32⟩
  | 66 => ⟨S_, .i32⟩
  | 67 => ⟨S_, .i32⟩
  | 68 => ⟨S_, .i32⟩
  | 69 => ⟨S4x1080x1920, .i32⟩
  | 70 => ⟨S4x1080x1920, .i32⟩
  | 71 => ⟨S_, .i32⟩
  | 72 => ⟨S4x1080x1920, .i32⟩
  | 73 => ⟨S4x1080x1920, .i32⟩
  | 74 => ⟨S_, .i32⟩
  | 75 => ⟨S4x1080x1920, .i32⟩
  | 76 => ⟨S4x1080x1920, .i32⟩
  | 77 => ⟨S_, .i32⟩
  | 78 => ⟨S_, .i32⟩
  | 79 => ⟨S_, .i32⟩
  | 80 => ⟨S4x1080x1920, .i32⟩
  | 81 => ⟨S4x1080x1920, .i32⟩
  | 82 => ⟨S_, .i32⟩
  | 83 => ⟨S4x1080x1920, .i32⟩
  | 84 => ⟨S4x1080x1920, .i32⟩
  | 85 => ⟨S3x35937, .f32⟩
  | 86 => ⟨S_, .f32⟩
  | 87 => ⟨S4x1080x1920, .f32⟩
  | 88 => ⟨S4x1080x1920, .f32⟩
  | 89 => ⟨S_, .f32⟩
  | 90 => ⟨S4x1080x1920, .f32⟩
  | 91 => ⟨S4x1080x1920, .f32⟩
  | 92 => ⟨S_, .f32⟩
  | 93 => ⟨S4x1080x1920, .f32⟩
  | 94 => ⟨S4x1080x1920, .f32⟩
  | 95 => ⟨S_, .i32⟩
  | 96 => ⟨S4x1080x1920, .i32⟩
  | 97 => ⟨S4x1080x1920, .i32⟩
  | 98 => ⟨S4x1080x1920, .i32⟩
  | 99 => ⟨S_, .i32⟩
  | 100 => ⟨S4x1080x1920, .i32⟩
  | 101 => ⟨S4x1080x1920, .i32⟩
  | 102 => ⟨S4x1080x1920, .i32⟩
  | 103 => ⟨S_, .i32⟩
  | 104 => ⟨S4x1080x1920, .i32⟩
  | 105 => ⟨S4x1080x1920, .i1⟩
  | 106 => ⟨S_, .i32⟩
  | 107 => ⟨S4x1080x1920, .i32⟩
  | 108 => ⟨S4x1080x1920, .i32⟩
  | 109 => ⟨S4x1080x1920, .i32⟩
  | 110 => ⟨S4x1080x1920x1, .i32⟩
  | 111 => ⟨S1, .i32⟩
  | 112 => ⟨S_, .i32⟩
  | 113 => ⟨S4x1080x1920x1, .i32⟩
  | 114 => ⟨S4x1080x1920x1, .i1⟩
  | 115 => ⟨S1x1x1x1, .i32⟩
  | 116 => ⟨S4x1080x1920x1, .i32⟩
  | 117 => ⟨S4x1080x1920x1, .i1⟩
  | 118 => ⟨S4x1080x1920x1, .i1⟩
  | 119 => ⟨S_, .i1⟩
  | 120 => ⟨S4x1080x1920, .i1⟩
  | 121 => ⟨S3x4x1080x1920, .f32⟩
  | 122 => ⟨S3x4x1080x1920, .i1⟩
  | 123 => ⟨S_, .f32⟩
  | 124 => ⟨S3x4x1080x1920, .f32⟩
  | 125 => ⟨S3x4x1080x1920, .f32⟩
  | 126 => ⟨S4x1080x1920, .f32⟩
  | 127 => ⟨S4x1080x1920, .f32⟩
  | _ => ⟨S3x33x33x33, .f32⟩

abbrev hbmTy0_1 (i : Nat) : BufTy := match i % 128 with
  | 0 => ⟨S1x4x1080x1920, .f32⟩
  | 1 => ⟨S3x4x1080x1920, .f32⟩
  | 2 => ⟨S3x4x1080x1920, .f32⟩
  | 3 => ⟨S_, .i32⟩
  | 4 => ⟨S4x1080x1920, .i32⟩
  | 5 => ⟨S4x1080x1920, .i32⟩
  | 6 => ⟨S4x1080x1920, .i32⟩
  | 7 => ⟨S_, .i32⟩
  | 8 => ⟨S4x1080x1920, .i32⟩
  | 9 => ⟨S4x1080x1920, .i32⟩
  | 10 => ⟨S4x1080x1920, .i32⟩
  | 11 => ⟨S_, .i32⟩
  | 12 => ⟨S4x1080x1920, .i32⟩
  | 13 => ⟨S4x1080x1920, .i1⟩
  | 14 => ⟨S_, .i32⟩
  | 15 => ⟨S4x1080x1920, .i32⟩
  | 16 => ⟨S4x1080x1920, .i32⟩
  | 17 => ⟨S4x1080x1920, .i32⟩
  | 18 => ⟨S4x1080x1920x1, .i32⟩
  | 19 => ⟨S1, .i32⟩
  | 20 => ⟨S_, .i32⟩
  | 21 => ⟨S4x1080x1920x1, .i32⟩
  | 22 => ⟨S4x1080x1920x1, .i1⟩
  | 23 => ⟨S1x1x1x1, .i32⟩
  | 24 => ⟨S4x1080x1920x1, .i32⟩
  | 25 => ⟨S4x1080x1920x1, .i1⟩
  | 26 => ⟨S4x1080x1920x1, .i1⟩
  | 27 => ⟨S_, .i1⟩
  | 28 => ⟨S4x1080x1920, .i1⟩
  | 29 => ⟨S3x4x1080x1920, .f32⟩
  | 30 => ⟨S3x4x1080x1920, .i1⟩
  | 31 => ⟨S_, .f32⟩
  | 32 => ⟨S3x4x1080x1920, .f32⟩
  | 33 => ⟨S3x4x1080x1920, .f32⟩
  | 34 => ⟨S4x1080x1920, .f32⟩
  | 35 => ⟨S4x1080x1920, .f32⟩
  | 36 => ⟨S1x4x1080x1920, .f32⟩
  | 37 => ⟨S3x4x1080x1920, .f32⟩
  | 38 => ⟨S3x4x1080x1920, .f32⟩
  | 39 => ⟨S3x4x1080x1920, .f32⟩
  | 40 => ⟨S_, .i32⟩
  | 41 => ⟨S4x1080x1920, .i32⟩
  | 42 => ⟨S4x1080x1920, .i32⟩
  | 43 => ⟨S4x1080x1920, .i32⟩
  | 44 => ⟨S_, .i32⟩
  | 45 => ⟨S4x1080x1920, .i32⟩
  | 46 => ⟨S4x1080x1920, .i32⟩
  | 47 => ⟨S4x1080x1920, .i32⟩
  | 48 => ⟨S_, .i32⟩
  | 49 => ⟨S4x1080x1920, .i32⟩
  | 50 => ⟨S4x1080x1920, .i1⟩
  | 51 => ⟨S_, .i32⟩
  | 52 => ⟨S4x1080x1920, .i32⟩
  | 53 => ⟨S4x1080x1920, .i32⟩
  | 54 => ⟨S4x1080x1920, .i32⟩
  | 55 => ⟨S4x1080x1920x1, .i32⟩
  | 56 => ⟨S1, .i32⟩
  | 57 => ⟨S_, .i32⟩
  | 58 => ⟨S4x1080x1920x1, .i32⟩
  | 59 => ⟨S4x1080x1920x1, .i1⟩
  | 60 => ⟨S1x1x1x1, .i32⟩
  | 61 => ⟨S4x1080x1920x1, .i32⟩
  | 62 => ⟨S4x1080x1920x1, .i1⟩
  | 63 => ⟨S4x1080x1920x1, .i1⟩
  | 64 => ⟨S_, .i1⟩
  | 65 => ⟨S4x1080x1920, .i1⟩
  | 66 => ⟨S3x4x1080x1920, .f32⟩
  | 67 => ⟨S3x4x1080x1920, .i1⟩
  | 68 => ⟨S_, .f32⟩
  | 69 => ⟨S3x4x1080x1920, .f32⟩
  | 70 => ⟨S3x4x1080x1920, .f32⟩
  | 71 => ⟨S4x1080x1920, .f32⟩
  | 72 => ⟨S4x1080x1920, .f32⟩
  | 73 => ⟨S1x4x1080x1920, .f32⟩
  | 74 => ⟨S3x4x1080x1920, .f32⟩
  | 75 => ⟨S3x4x1080x1920, .f32⟩
  | 76 => ⟨S3x4x1080x1920, .f32⟩
  | 77 => ⟨S_, .i32⟩
  | 78 => ⟨S4x1080x1920, .i32⟩
  | 79 => ⟨S4x1080x1920, .i32⟩
  | 80 => ⟨S4x1080x1920, .i32⟩
  | 81 => ⟨S_, .i32⟩
  | 82 => ⟨S4x1080x1920, .i32⟩
  | 83 => ⟨S4x1080x1920, .i32⟩
  | 84 => ⟨S4x1080x1920, .i32⟩
  | 85 => ⟨S_, .i32⟩
  | 86 => ⟨S4x1080x1920, .i32⟩
  | 87 => ⟨S4x1080x1920, .i1⟩
  | 88 => ⟨S_, .i32⟩
  | 89 => ⟨S4x1080x1920, .i32⟩
  | 90 => ⟨S4x1080x1920, .i32⟩
  | 91 => ⟨S4x1080x1920, .i32⟩
  | 92 => ⟨S4x1080x1920x1, .i32⟩
  | 93 => ⟨S1, .i32⟩
  | 94 => ⟨S_, .i32⟩
  | 95 => ⟨S4x1080x1920x1, .i32⟩
  | 96 => ⟨S4x1080x1920x1, .i1⟩
  | 97 => ⟨S1x1x1x1, .i32⟩
  | 98 => ⟨S4x1080x1920x1, .i32⟩
  | 99 => ⟨S4x1080x1920x1, .i1⟩
  | 100 => ⟨S4x1080x1920x1, .i1⟩
  | 101 => ⟨S_, .i1⟩
  | 102 => ⟨S4x1080x1920, .i1⟩
  | 103 => ⟨S3x4x1080x1920, .f32⟩
  | 104 => ⟨S3x4x1080x1920, .i1⟩
  | 105 => ⟨S_, .f32⟩
  | 106 => ⟨S3x4x1080x1920, .f32⟩
  | 107 => ⟨S3x4x1080x1920, .f32⟩
  | 108 => ⟨S4x1080x1920, .f32⟩
  | 109 => ⟨S4x1080x1920, .f32⟩
  | 110 => ⟨S1x4x1080x1920, .f32⟩
  | 111 => ⟨S3x4x1080x1920, .f32⟩
  | 112 => ⟨S3x4x1080x1920, .f32⟩
  | 113 => ⟨S3x4x1080x1920, .f32⟩
  | 114 => ⟨S_, .i32⟩
  | 115 => ⟨S4x1080x1920, .i32⟩
  | 116 => ⟨S4x1080x1920, .i32⟩
  | 117 => ⟨S4x1080x1920, .i32⟩
  | 118 => ⟨S_, .i32⟩
  | 119 => ⟨S4x1080x1920, .i32⟩
  | 120 => ⟨S4x1080x1920, .i32⟩
  | 121 => ⟨S4x1080x1920, .i32⟩
  | 122 => ⟨S_, .i32⟩
  | 123 => ⟨S4x1080x1920, .i32⟩
  | 124 => ⟨S4x1080x1920, .i1⟩
  | 125 => ⟨S_, .i32⟩
  | 126 => ⟨S4x1080x1920, .i32⟩
  | 127 => ⟨S4x1080x1920, .i32⟩
  | _ => ⟨S3x33x33x33, .f32⟩

abbrev hbmTy0_2 (i : Nat) : BufTy := match i % 128 with
  | 0 => ⟨S4x1080x1920, .i32⟩
  | 1 => ⟨S4x1080x1920x1, .i32⟩
  | 2 => ⟨S1, .i32⟩
  | 3 => ⟨S_, .i32⟩
  | 4 => ⟨S4x1080x1920x1, .i32⟩
  | 5 => ⟨S4x1080x1920x1, .i1⟩
  | 6 => ⟨S1x1x1x1, .i32⟩
  | 7 => ⟨S4x1080x1920x1, .i32⟩
  | 8 => ⟨S4x1080x1920x1, .i1⟩
  | 9 => ⟨S4x1080x1920x1, .i1⟩
  | 10 => ⟨S_, .i1⟩
  | 11 => ⟨S4x1080x1920, .i1⟩
  | 12 => ⟨S3x4x1080x1920, .f32⟩
  | 13 => ⟨S3x4x1080x1920, .i1⟩
  | 14 => ⟨S_, .f32⟩
  | 15 => ⟨S3x4x1080x1920, .f32⟩
  | 16 => ⟨S3x4x1080x1920, .f32⟩
  | 17 => ⟨S4x1080x1920, .f32⟩
  | 18 => ⟨S4x1080x1920, .f32⟩
  | 19 => ⟨S1x4x1080x1920, .f32⟩
  | 20 => ⟨S3x4x1080x1920, .f32⟩
  | 21 => ⟨S3x4x1080x1920, .f32⟩
  | 22 => ⟨S3x4x1080x1920, .f32⟩
  | 23 => ⟨S_, .i32⟩
  | 24 => ⟨S4x1080x1920, .i32⟩
  | 25 => ⟨S4x1080x1920, .i32⟩
  | 26 => ⟨S4x1080x1920, .i32⟩
  | 27 => ⟨S_, .i32⟩
  | 28 => ⟨S4x1080x1920, .i32⟩
  | 29 => ⟨S4x1080x1920, .i32⟩
  | 30 => ⟨S4x1080x1920, .i32⟩
  | 31 => ⟨S_, .i32⟩
  | 32 => ⟨S4x1080x1920, .i32⟩
  | 33 => ⟨S4x1080x1920, .i1⟩
  | 34 => ⟨S_, .i32⟩
  | 35 => ⟨S4x1080x1920, .i32⟩
  | 36 => ⟨S4x1080x1920, .i32⟩
  | 37 => ⟨S4x1080x1920, .i32⟩
  | 38 => ⟨S4x1080x1920x1, .i32⟩
  | 39 => ⟨S1, .i32⟩
  | 40 => ⟨S_, .i32⟩
  | 41 => ⟨S4x1080x1920x1, .i32⟩
  | 42 => ⟨S4x1080x1920x1, .i1⟩
  | 43 => ⟨S1x1x1x1, .i32⟩
  | 44 => ⟨S4x1080x1920x1, .i32⟩
  | 45 => ⟨S4x1080x1920x1, .i1⟩
  | 46 => ⟨S4x1080x1920x1, .i1⟩
  | 47 => ⟨S_, .i1⟩
  | 48 => ⟨S4x1080x1920, .i1⟩
  | 49 => ⟨S3x4x1080x1920, .f32⟩
  | 50 => ⟨S3x4x1080x1920, .i1⟩
  | 51 => ⟨S_, .f32⟩
  | 52 => ⟨S3x4x1080x1920, .f32⟩
  | 53 => ⟨S3x4x1080x1920, .f32⟩
  | 54 => ⟨S4x1080x1920, .f32⟩
  | 55 => ⟨S4x1080x1920, .f32⟩
  | 56 => ⟨S1x4x1080x1920, .f32⟩
  | 57 => ⟨S3x4x1080x1920, .f32⟩
  | 58 => ⟨S3x4x1080x1920, .f32⟩
  | 59 => ⟨S3x4x1080x1920, .f32⟩
  | 60 => ⟨S_, .i32⟩
  | 61 => ⟨S4x1080x1920, .i32⟩
  | 62 => ⟨S4x1080x1920, .i32⟩
  | 63 => ⟨S4x1080x1920, .i32⟩
  | 64 => ⟨S_, .i32⟩
  | 65 => ⟨S4x1080x1920, .i32⟩
  | 66 => ⟨S4x1080x1920, .i32⟩
  | 67 => ⟨S4x1080x1920, .i32⟩
  | 68 => ⟨S_, .i32⟩
  | 69 => ⟨S4x1080x1920, .i32⟩
  | 70 => ⟨S4x1080x1920, .i1⟩
  | 71 => ⟨S_, .i32⟩
  | 72 => ⟨S4x1080x1920, .i32⟩
  | 73 => ⟨S4x1080x1920, .i32⟩
  | 74 => ⟨S4x1080x1920, .i32⟩
  | 75 => ⟨S4x1080x1920x1, .i32⟩
  | 76 => ⟨S1, .i32⟩
  | 77 => ⟨S_, .i32⟩
  | 78 => ⟨S4x1080x1920x1, .i32⟩
  | 79 => ⟨S4x1080x1920x1, .i1⟩
  | 80 => ⟨S1x1x1x1, .i32⟩
  | 81 => ⟨S4x1080x1920x1, .i32⟩
  | 82 => ⟨S4x1080x1920x1, .i1⟩
  | 83 => ⟨S4x1080x1920x1, .i1⟩
  | 84 => ⟨S_, .i1⟩
  | 85 => ⟨S4x1080x1920, .i1⟩
  | 86 => ⟨S3x4x1080x1920, .f32⟩
  | 87 => ⟨S3x4x1080x1920, .i1⟩
  | 88 => ⟨S_, .f32⟩
  | 89 => ⟨S3x4x1080x1920, .f32⟩
  | 90 => ⟨S3x4x1080x1920, .f32⟩
  | 91 => ⟨S4x1080x1920, .f32⟩
  | 92 => ⟨S4x1080x1920, .f32⟩
  | 93 => ⟨S1x4x1080x1920, .f32⟩
  | 94 => ⟨S3x4x1080x1920, .f32⟩
  | 95 => ⟨S3x4x1080x1920, .f32⟩
  | 96 => ⟨S3x4x1080x1920, .f32⟩
  | 97 => ⟨S_, .i32⟩
  | 98 => ⟨S4x1080x1920, .i32⟩
  | 99 => ⟨S4x1080x1920, .i32⟩
  | 100 => ⟨S4x1080x1920, .i32⟩
  | 101 => ⟨S_, .i32⟩
  | 102 => ⟨S4x1080x1920, .i32⟩
  | 103 => ⟨S4x1080x1920, .i32⟩
  | 104 => ⟨S4x1080x1920, .i32⟩
  | 105 => ⟨S_, .i32⟩
  | 106 => ⟨S4x1080x1920, .i32⟩
  | 107 => ⟨S4x1080x1920, .i1⟩
  | 108 => ⟨S_, .i32⟩
  | 109 => ⟨S4x1080x1920, .i32⟩
  | 110 => ⟨S4x1080x1920, .i32⟩
  | 111 => ⟨S4x1080x1920, .i32⟩
  | 112 => ⟨S4x1080x1920x1, .i32⟩
  | 113 => ⟨S1, .i32⟩
  | 114 => ⟨S_, .i32⟩
  | 115 => ⟨S4x1080x1920x1, .i32⟩
  | 116 => ⟨S4x1080x1920x1, .i1⟩
  | 117 => ⟨S1x1x1x1, .i32⟩
  | 118 => ⟨S4x1080x1920x1, .i32⟩
  | 119 => ⟨S4x1080x1920x1, .i1⟩
  | 120 => ⟨S4x1080x1920x1, .i1⟩
  | 121 => ⟨S_, .i1⟩
  | 122 => ⟨S4x1080x1920, .i1⟩
  | 123 => ⟨S3x4x1080x1920, .f32⟩
  | 124 => ⟨S3x4x1080x1920, .i1⟩
  | 125 => ⟨S_, .f32⟩
  | 126 => ⟨S3x4x1080x1920, .f32⟩
  | 127 => ⟨S3x4x1080x1920, .f32⟩
  | _ => ⟨S3x33x33x33, .f32⟩

abbrev hbmTy0_3 (i : Nat) : BufTy := match i % 128 with
  | 0 => ⟨S4x1080x1920, .f32⟩
  | 1 => ⟨S4x1080x1920, .f32⟩
  | 2 => ⟨S1x4x1080x1920, .f32⟩
  | 3 => ⟨S3x4x1080x1920, .f32⟩
  | 4 => ⟨S3x4x1080x1920, .f32⟩
  | 5 => ⟨S3x4x1080x1920, .f32⟩
  | 6 => ⟨S4x3x1080x1920, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_c_7 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v19 : Ref sig .tc := ⟨.hbm, 51, rfl⟩
abbrev main_c_8 : Ref sig .tc := ⟨.hbm, 52, rfl⟩
abbrev main_v20 : Ref sig .tc := ⟨.hbm, 53, rfl⟩
abbrev main_v21 : Ref sig .tc := ⟨.hbm, 54, rfl⟩
abbrev main_c_9 : Ref sig .tc := ⟨.hbm, 55, rfl⟩
abbrev main_c_10 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_11 : Ref sig .tc := ⟨.hbm, 66, rfl⟩
abbrev main_c_12 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v26 : Ref sig .tc := ⟨.hbm, 73, rfl⟩
abbrev main_c_13 : Ref sig .tc := ⟨.hbm, 74, rfl⟩
abbrev main_v27 : Ref sig .tc := ⟨.hbm, 75, rfl⟩
abbrev main_v28 : Ref sig .tc := ⟨.hbm, 76, rfl⟩
abbrev main_c_14 : Ref sig .tc := ⟨.hbm, 77, rfl⟩
abbrev main_c_15 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v29 : Ref sig .tc := ⟨.hbm, 84, rfl⟩
abbrev main_v30 : Ref sig .tc := ⟨.hbm, 85, rfl⟩
abbrev main_cst_16 : Ref sig .tc := ⟨.hbm, 86, rfl⟩
abbrev main_v31 : Ref sig .tc := ⟨.hbm, 87, rfl⟩
abbrev main_v32 : Ref sig .tc := ⟨.hbm, 88, rfl⟩
abbrev main_cst_17 : Ref sig .tc := ⟨.hbm, 89, rfl⟩
abbrev main_v33 : Ref sig .tc := ⟨.hbm, 90, rfl⟩
abbrev main_v34 : Ref sig .tc := ⟨.hbm, 91, rfl⟩
abbrev main_cst_18 : Ref sig .tc := ⟨.hbm, 92, rfl⟩
abbrev main_v35 : Ref sig .tc := ⟨.hbm, 93, rfl⟩
abbrev main_v36 : Ref sig .tc := ⟨.hbm, 94, rfl⟩
abbrev main_c_19 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_c_20 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_call7_cst : Ref sig .tc := ⟨.hbm, 123, rfl⟩
abbrev main_call7_v15 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_c_21 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_c_22 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_call8_c : Ref sig .tc := ⟨.hbm, 139, rfl⟩
abbrev main_call8_v0 : Ref sig .tc := ⟨.hbm, 140, rfl⟩
abbrev main_call8_v1 : Ref sig .tc := ⟨.hbm, 141, rfl⟩
abbrev main_call8_c_0 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_call8_c_1 : Ref sig .tc := ⟨.hbm, 147, rfl⟩
abbrev main_call8_c_2 : Ref sig .tc := ⟨.hbm, 148, rfl⟩
abbrev main_call8_v6 : Ref sig .tc := ⟨.hbm, 149, rfl⟩
abbrev main_call8_v7 : Ref sig .tc := ⟨.hbm, 150, rfl⟩
abbrev main_call8_v8 : Ref sig .tc := ⟨.hbm, 151, rfl⟩
abbrev main_call8_v9 : Ref sig .tc := ⟨.hbm, 152, rfl⟩
abbrev main_call8_v10 : Ref sig .tc := ⟨.hbm, 153, rfl⟩
abbrev main_call8_v11 : Ref sig .tc := ⟨.hbm, 154, rfl⟩
abbrev main_call8_c_3 : Ref sig .tc := ⟨.hbm, 155, rfl⟩
abbrev main_call8_v12 : Ref sig .tc := ⟨.hbm, 156, rfl⟩
abbrev main_call8_v13 : Ref sig .tc := ⟨.hbm, 157, rfl⟩
abbrev main_call8_v14 : Ref sig .tc := ⟨.hbm, 158, rfl⟩
abbrev main_call8_cst : Ref sig .tc := ⟨.hbm, 159, rfl⟩
abbrev main_call8_v15 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_c_23 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_c_24 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_call9_c : Ref sig .tc := ⟨.hbm, 176, rfl⟩
abbrev main_call9_v0 : Ref sig .tc := ⟨.hbm, 177, rfl⟩
abbrev main_call9_v1 : Ref sig .tc := ⟨.hbm, 178, rfl⟩
abbrev main_call9_c_0 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_call9_v5 : Ref sig .tc := ⟨.hbm, 183, rfl⟩
abbrev main_call9_c_1 : Ref sig .tc := ⟨.hbm, 184, rfl⟩
abbrev main_call9_c_2 : Ref sig .tc := ⟨.hbm, 185, rfl⟩
abbrev main_call9_v6 : Ref sig .tc := ⟨.hbm, 186, rfl⟩
abbrev main_call9_v7 : Ref sig .tc := ⟨.hbm, 187, rfl⟩
abbrev main_call9_v8 : Ref sig .tc := ⟨.hbm, 188, rfl⟩
abbrev main_call9_v9 : Ref sig .tc := ⟨.hbm, 189, rfl⟩
abbrev main_call9_v10 : Ref sig .tc := ⟨.hbm, 190, rfl⟩
abbrev main_call9_v11 : Ref sig .tc := ⟨.hbm, 191, rfl⟩
abbrev main_call9_c_3 : Ref sig .tc := ⟨.hbm, 192, rfl⟩
abbrev main_call9_v12 : Ref sig .tc := ⟨.hbm, 193, rfl⟩
abbrev main_call9_v13 : Ref sig .tc := ⟨.hbm, 194, rfl⟩
abbrev main_call9_v14 : Ref sig .tc := ⟨.hbm, 195, rfl⟩
abbrev main_call9_cst : Ref sig .tc := ⟨.hbm, 196, rfl⟩
abbrev main_call9_v15 : Ref sig .tc := ⟨.hbm, 197, rfl⟩
abbrev main_v68 : Ref sig .tc := ⟨.hbm, 198, rfl⟩
abbrev main_v69 : Ref sig .tc := ⟨.hbm, 199, rfl⟩
abbrev main_v70 : Ref sig .tc := ⟨.hbm, 200, rfl⟩
abbrev main_v71 : Ref sig .tc := ⟨.hbm, 201, rfl⟩
abbrev main_v72 : Ref sig .tc := ⟨.hbm, 202, rfl⟩
abbrev main_v73 : Ref sig .tc := ⟨.hbm, 203, rfl⟩
abbrev main_v74 : Ref sig .tc := ⟨.hbm, 204, rfl⟩
abbrev main_c_25 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_c_26 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_call10_c : Ref sig .tc := ⟨.hbm, 213, rfl⟩
abbrev main_call10_v0 : Ref sig .tc := ⟨.hbm, 214, rfl⟩
abbrev main_call10_v1 : Ref sig .tc := ⟨.hbm, 215, rfl⟩
abbrev main_call10_c_0 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_call10_v5 : Ref sig .tc := ⟨.hbm, 220, rfl⟩
abbrev main_call10_c_1 : Ref sig .tc := ⟨.hbm, 221, rfl⟩
abbrev main_call10_c_2 : Ref sig .tc := ⟨.hbm, 222, rfl⟩
abbrev main_call10_v6 : Ref sig .tc := ⟨.hbm, 223, rfl⟩
abbrev main_call10_v7 : Ref sig .tc := ⟨.hbm, 224, rfl⟩
abbrev main_call10_v8 : Ref sig .tc := ⟨.hbm, 225, rfl⟩
abbrev main_call10_v9 : Ref sig .tc := ⟨.hbm, 226, rfl⟩
abbrev main_call10_v10 : Ref sig .tc := ⟨.hbm, 227, rfl⟩
abbrev main_call10_v11 : Ref sig .tc := ⟨.hbm, 228, rfl⟩
abbrev main_call10_c_3 : Ref sig .tc := ⟨.hbm, 229, rfl⟩
abbrev main_call10_v12 : Ref sig .tc := ⟨.hbm, 230, rfl⟩
abbrev main_call10_v13 : Ref sig .tc := ⟨.hbm, 231, rfl⟩
abbrev main_call10_v14 : Ref sig .tc := ⟨.hbm, 232, rfl⟩
abbrev main_call10_cst : Ref sig .tc := ⟨.hbm, 233, rfl⟩
abbrev main_call10_v15 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_v86 : Ref sig .tc := ⟨.hbm, 240, rfl⟩
abbrev main_v87 : Ref sig .tc := ⟨.hbm, 241, rfl⟩
abbrev main_c_27 : Ref sig .tc := ⟨.hbm, 242, rfl⟩
abbrev main_v88 : Ref sig .tc := ⟨.hbm, 243, rfl⟩
abbrev main_v89 : Ref sig .tc := ⟨.hbm, 244, rfl⟩
abbrev main_v90 : Ref sig .tc := ⟨.hbm, 245, rfl⟩
abbrev main_c_28 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_call11_c : Ref sig .tc := ⟨.hbm, 250, rfl⟩
abbrev main_call11_v0 : Ref sig .tc := ⟨.hbm, 251, rfl⟩
abbrev main_call11_v1 : Ref sig .tc := ⟨.hbm, 252, rfl⟩
abbrev main_call11_c_0 : Ref sig .tc := ⟨.hbm, 253, rfl⟩
abbrev main_call11_v2 : Ref sig .tc := ⟨.hbm, 254, rfl⟩
abbrev main_call11_v3 : Ref sig .tc := ⟨.hbm, 255, rfl⟩
abbrev main_call11_v4 : Ref sig .tc := ⟨.hbm, 256, rfl⟩
abbrev main_call11_v5 : Ref sig .tc := ⟨.hbm, 257, rfl⟩
abbrev main_call11_c_1 : Ref sig .tc := ⟨.hbm, 258, rfl⟩
abbrev main_call11_c_2 : Ref sig .tc := ⟨.hbm, 259, rfl⟩
abbrev main_call11_v6 : Ref sig .tc := ⟨.hbm, 260, rfl⟩
abbrev main_call11_v7 : Ref sig .tc := ⟨.hbm, 261, rfl⟩
abbrev main_call11_v8 : Ref sig .tc := ⟨.hbm, 262, rfl⟩
abbrev main_call11_v9 : Ref sig .tc := ⟨.hbm, 263, rfl⟩
abbrev main_call11_v10 : Ref sig .tc := ⟨.hbm, 264, rfl⟩
abbrev main_call11_v11 : Ref sig .tc := ⟨.hbm, 265, rfl⟩
abbrev main_call11_c_3 : Ref sig .tc := ⟨.hbm, 266, rfl⟩
abbrev main_call11_v12 : Ref sig .tc := ⟨.hbm, 267, rfl⟩
abbrev main_call11_v13 : Ref sig .tc := ⟨.hbm, 268, rfl⟩
abbrev main_call11_v14 : Ref sig .tc := ⟨.hbm, 269, rfl⟩
abbrev main_call11_cst : Ref sig .tc := ⟨.hbm, 270, rfl⟩
abbrev main_call11_v15 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_c_29 : Ref sig .tc := ⟨.hbm, 279, rfl⟩
abbrev main_v101 : Ref sig .tc := ⟨.hbm, 280, rfl⟩
abbrev main_v102 : Ref sig .tc := ⟨.hbm, 281, rfl⟩
abbrev main_v103 : Ref sig .tc := ⟨.hbm, 282, rfl⟩
abbrev main_c_30 : Ref sig .tc := ⟨.hbm, 283, rfl⟩
abbrev main_v104 : Ref sig .tc := ⟨.hbm, 284, rfl⟩
abbrev main_v105 : Ref sig .tc := ⟨.hbm, 285, rfl⟩
abbrev main_v106 : Ref sig .tc := ⟨.hbm, 286, rfl⟩
abbrev main_call12_c : Ref sig .tc := ⟨.hbm, 287, rfl⟩
abbrev main_call12_v0 : Ref sig .tc := ⟨.hbm, 288, rfl⟩
abbrev main_call12_v1 : Ref sig .tc := ⟨.hbm, 289, rfl⟩
abbrev main_call12_c_0 : Ref sig .tc := ⟨.hbm, 290, rfl⟩
abbrev main_call12_v2 : Ref sig .tc := ⟨.hbm, 291, rfl⟩
abbrev main_call12_v3 : Ref sig .tc := ⟨.hbm, 292, rfl⟩
abbrev main_call12_v4 : Ref sig .tc := ⟨.hbm, 293, rfl⟩
abbrev main_call12_v5 : Ref sig .tc := ⟨.hbm, 294, rfl⟩
abbrev main_call12_c_1 : Ref sig .tc := ⟨.hbm, 295, rfl⟩
abbrev main_call12_c_2 : Ref sig .tc := ⟨.hbm, 296, rfl⟩
abbrev main_call12_v6 : Ref sig .tc := ⟨.hbm, 297, rfl⟩
abbrev main_call12_v7 : Ref sig .tc := ⟨.hbm, 298, rfl⟩
abbrev main_call12_v8 : Ref sig .tc := ⟨.hbm, 299, rfl⟩
abbrev main_call12_v9 : Ref sig .tc := ⟨.hbm, 300, rfl⟩
abbrev main_call12_v10 : Ref sig .tc := ⟨.hbm, 301, rfl⟩
abbrev main_call12_v11 : Ref sig .tc := ⟨.hbm, 302, rfl⟩
abbrev main_call12_c_3 : Ref sig .tc := ⟨.hbm, 303, rfl⟩
abbrev main_call12_v12 : Ref sig .tc := ⟨.hbm, 304, rfl⟩
abbrev main_call12_v13 : Ref sig .tc := ⟨.hbm, 305, rfl⟩
abbrev main_call12_v14 : Ref sig .tc := ⟨.hbm, 306, rfl⟩
abbrev main_call12_cst : Ref sig .tc := ⟨.hbm, 307, rfl⟩
abbrev main_call12_v15 : Ref sig .tc := ⟨.hbm, 308, rfl⟩
abbrev main_v107 : Ref sig .tc := ⟨.hbm, 309, rfl⟩
abbrev main_v108 : Ref sig .tc := ⟨.hbm, 310, rfl⟩
abbrev main_v109 : Ref sig .tc := ⟨.hbm, 311, rfl⟩
abbrev main_v110 : Ref sig .tc := ⟨.hbm, 312, rfl⟩
abbrev main_v111 : Ref sig .tc := ⟨.hbm, 313, rfl⟩
abbrev main_v112 : Ref sig .tc := ⟨.hbm, 314, rfl⟩
abbrev main_v113 : Ref sig .tc := ⟨.hbm, 315, rfl⟩
abbrev main_c_31 : Ref sig .tc := ⟨.hbm, 316, rfl⟩
abbrev main_v114 : Ref sig .tc := ⟨.hbm, 317, rfl⟩
abbrev main_v115 : Ref sig .tc := ⟨.hbm, 318, rfl⟩
abbrev main_v116 : Ref sig .tc := ⟨.hbm, 319, rfl⟩
abbrev main_c_32 : Ref sig .tc := ⟨.hbm, 320, rfl⟩
abbrev main_v117 : Ref sig .tc := ⟨.hbm, 321, rfl⟩
abbrev main_v118 : Ref sig .tc := ⟨.hbm, 322, rfl⟩
abbrev main_v119 : Ref sig .tc := ⟨.hbm, 323, rfl⟩
abbrev main_call13_c : Ref sig .tc := ⟨.hbm, 324, rfl⟩
abbrev main_call13_v0 : Ref sig .tc := ⟨.hbm, 325, rfl⟩
abbrev main_call13_v1 : Ref sig .tc := ⟨.hbm, 326, rfl⟩
abbrev main_call13_c_0 : Ref sig .tc := ⟨.hbm, 327, rfl⟩
abbrev main_call13_v2 : Ref sig .tc := ⟨.hbm, 328, rfl⟩
abbrev main_call13_v3 : Ref sig .tc := ⟨.hbm, 329, rfl⟩
abbrev main_call13_v4 : Ref sig .tc := ⟨.hbm, 330, rfl⟩
abbrev main_call13_v5 : Ref sig .tc := ⟨.hbm, 331, rfl⟩
abbrev main_call13_c_1 : Ref sig .tc := ⟨.hbm, 332, rfl⟩
abbrev main_call13_c_2 : Ref sig .tc := ⟨.hbm, 333, rfl⟩
abbrev main_call13_v6 : Ref sig .tc := ⟨.hbm, 334, rfl⟩
abbrev main_call13_v7 : Ref sig .tc := ⟨.hbm, 335, rfl⟩
abbrev main_call13_v8 : Ref sig .tc := ⟨.hbm, 336, rfl⟩
abbrev main_call13_v9 : Ref sig .tc := ⟨.hbm, 337, rfl⟩
abbrev main_call13_v10 : Ref sig .tc := ⟨.hbm, 338, rfl⟩
abbrev main_call13_v11 : Ref sig .tc := ⟨.hbm, 339, rfl⟩
abbrev main_call13_c_3 : Ref sig .tc := ⟨.hbm, 340, rfl⟩
abbrev main_call13_v12 : Ref sig .tc := ⟨.hbm, 341, rfl⟩
abbrev main_call13_v13 : Ref sig .tc := ⟨.hbm, 342, rfl⟩
abbrev main_call13_v14 : Ref sig .tc := ⟨.hbm, 343, rfl⟩
abbrev main_call13_cst : Ref sig .tc := ⟨.hbm, 344, rfl⟩
abbrev main_call13_v15 : Ref sig .tc := ⟨.hbm, 345, rfl⟩
abbrev main_v120 : Ref sig .tc := ⟨.hbm, 346, rfl⟩
abbrev main_v121 : Ref sig .tc := ⟨.hbm, 347, rfl⟩
abbrev main_v122 : Ref sig .tc := ⟨.hbm, 348, rfl⟩
abbrev main_v123 : Ref sig .tc := ⟨.hbm, 349, rfl⟩
abbrev main_v124 : Ref sig .tc := ⟨.hbm, 350, rfl⟩
abbrev main_v125 : Ref sig .tc := ⟨.hbm, 351, rfl⟩
abbrev main_v126 : Ref sig .tc := ⟨.hbm, 352, rfl⟩
abbrev main_c_33 : Ref sig .tc := ⟨.hbm, 353, rfl⟩
abbrev main_v127 : Ref sig .tc := ⟨.hbm, 354, rfl⟩
abbrev main_v128 : Ref sig .tc := ⟨.hbm, 355, rfl⟩
abbrev main_v129 : Ref sig .tc := ⟨.hbm, 356, rfl⟩
abbrev main_c_34 : Ref sig .tc := ⟨.hbm, 357, rfl⟩
abbrev main_v130 : Ref sig .tc := ⟨.hbm, 358, rfl⟩
abbrev main_v131 : Ref sig .tc := ⟨.hbm, 359, rfl⟩
abbrev main_v132 : Ref sig .tc := ⟨.hbm, 360, rfl⟩
abbrev main_call14_c : Ref sig .tc := ⟨.hbm, 361, rfl⟩
abbrev main_call14_v0 : Ref sig .tc := ⟨.hbm, 362, rfl⟩
abbrev main_call14_v1 : Ref sig .tc := ⟨.hbm, 363, rfl⟩
abbrev main_call14_c_0 : Ref sig .tc := ⟨.hbm, 364, rfl⟩
abbrev main_call14_v2 : Ref sig .tc := ⟨.hbm, 365, rfl⟩
abbrev main_call14_v3 : Ref sig .tc := ⟨.hbm, 366, rfl⟩
abbrev main_call14_v4 : Ref sig .tc := ⟨.hbm, 367, rfl⟩
abbrev main_call14_v5 : Ref sig .tc := ⟨.hbm, 368, rfl⟩
abbrev main_call14_c_1 : Ref sig .tc := ⟨.hbm, 369, rfl⟩
abbrev main_call14_c_2 : Ref sig .tc := ⟨.hbm, 370, rfl⟩
abbrev main_call14_v6 : Ref sig .tc := ⟨.hbm, 371, rfl⟩
abbrev main_call14_v7 : Ref sig .tc := ⟨.hbm, 372, rfl⟩
abbrev main_call14_v8 : Ref sig .tc := ⟨.hbm, 373, rfl⟩
abbrev main_call14_v9 : Ref sig .tc := ⟨.hbm, 374, rfl⟩
abbrev main_call14_v10 : Ref sig .tc := ⟨.hbm, 375, rfl⟩
abbrev main_call14_v11 : Ref sig .tc := ⟨.hbm, 376, rfl⟩
abbrev main_call14_c_3 : Ref sig .tc := ⟨.hbm, 377, rfl⟩
abbrev main_call14_v12 : Ref sig .tc := ⟨.hbm, 378, rfl⟩
abbrev main_call14_v13 : Ref sig .tc := ⟨.hbm, 379, rfl⟩
abbrev main_call14_v14 : Ref sig .tc := ⟨.hbm, 380, rfl⟩
abbrev main_call14_cst : Ref sig .tc := ⟨.hbm, 381, rfl⟩
abbrev main_call14_v15 : Ref sig .tc := ⟨.hbm, 382, rfl⟩
abbrev main_v133 : Ref sig .tc := ⟨.hbm, 383, rfl⟩
abbrev main_v134 : Ref sig .tc := ⟨.hbm, 384, rfl⟩
abbrev main_v135 : Ref sig .tc := ⟨.hbm, 385, rfl⟩
abbrev main_v136 : Ref sig .tc := ⟨.hbm, 386, rfl⟩
abbrev main_v137 : Ref sig .tc := ⟨.hbm, 387, rfl⟩
abbrev main_v138 : Ref sig .tc := ⟨.hbm, 388, rfl⟩
abbrev main_v139 : Ref sig .tc := ⟨.hbm, 389, rfl⟩
abbrev main_v140 : Ref sig .tc := ⟨.hbm, 390, rfl⟩

abbrev nD : Nat := 1
abbrev τ : Topo := Topo.v7x

variable {F : FTy → Type} [FloatOps F]

class Facts₀ : Prop where
  bcast_S_S4x3x1080x1920 : S_.BroadcastsInDim S4x3x1080x1920 (![] : Fin 0 → Fin S4x3x1080x1920.rank)
  slices_S4x3x1080x1920_S4x1x1080x1920_0_0_0_0 : S4x3x1080x1920.Slices ![0, 0, 0, 0] S4x1x1080x1920
  shapeCasts_S4x1x1080x1920_S4x1080x1920 : S4x1x1080x1920.ShapeCasts S4x1080x1920
  slices_S4x3x1080x1920_S4x1x1080x1920_0_1_0_0 : S4x3x1080x1920.Slices ![0, 1, 0, 0] S4x1x1080x1920
  slices_S4x3x1080x1920_S4x1x1080x1920_0_2_0_0 : S4x3x1080x1920.Slices ![0, 2, 0, 0] S4x1x1080x1920
  bcast_S_S4x1080x1920 : S_.BroadcastsInDim S4x1080x1920 (![] : Fin 0 → Fin S4x1080x1920.rank)
  shapeCasts_S3x33x33x33_S3x35937 : S3x33x33x33.ShapeCasts S3x35937
  bcast_S4x1080x1920_S4x1080x1920x1_0_1_2 : S4x1080x1920.BroadcastsInDim S4x1080x1920x1 (![0, 1, 2] : Fin 3 → Fin S4x1080x1920x1.rank)
  bcast_S_S4x1080x1920x1 : S_.BroadcastsInDim S4x1080x1920x1 (![] : Fin 0 → Fin S4x1080x1920x1.rank)
  bcast_S1_S1x1x1x1_3 : S1.BroadcastsInDim S1x1x1x1 (![3] : Fin 1 → Fin S1x1x1x1.rank)
  bcast_S1x1x1x1_S4x1080x1920x1_0_1_2_3 : S1x1x1x1.BroadcastsInDim S4x1080x1920x1 (![0, 1, 2, 3] : Fin 4 → Fin S4x1080x1920x1.rank)
  reducesTo_S4x1080x1920x1_S4x1080x1920_d3 : S4x1080x1920x1.ReducesTo [3] S4x1080x1920
  h_S_ : 0 < S_.numel
  bcast_S4x1080x1920_S3x4x1080x1920_1_2_3 : S4x1080x1920.BroadcastsInDim S3x4x1080x1920 (![1, 2, 3] : Fin 3 → Fin S3x4x1080x1920.rank)
  bcast_S_S3x4x1080x1920 : S_.BroadcastsInDim S3x4x1080x1920 (![] : Fin 0 → Fin S3x4x1080x1920.rank)
  bcast_S4x1080x1920_S1x4x1080x1920_1_2_3 : S4x1080x1920.BroadcastsInDim S1x4x1080x1920 (![1, 2, 3] : Fin 3 → Fin S1x4x1080x1920.rank)
  bcast_S1x4x1080x1920_S3x4x1080x1920_0_1_2_3 : S1x4x1080x1920.BroadcastsInDim S3x4x1080x1920 (![0, 1, 2, 3] : Fin 4 → Fin S3x4x1080x1920.rank)
  transposes_S3x4x1080x1920_S4x3x1080x1920_1_0_2_3 : S3x4x1080x1920.Transposes [1, 0, 2, 3] S4x3x1080x1920
  gather_S3x35937_S4x1080x1920x1_S3x4x1080x1920_0_1_n_n_1_3_31_wf : GatherDims.WF S3x35937 S4x1080x1920x1 S3x4x1080x1920 [0] [1] [] [1] [] 3 ![3, 1]

variable [Facts₀]

def gather_S3x35937_S4x1080x1920x1_S3x4x1080x1920_0_1_n_n_1_3_31 : GatherDims S3x35937 S4x1080x1920x1 S3x4x1080x1920 where
  offsetDims := [0]
  collapsedSliceDims := [1]
  operandBatchingDims := []
  startIndicesBatchingDims := []
  startIndexMap := [1]
  indexVectorDim := 3
  sliceSizes := ![3, 1]
  wf := gather_S3x35937_S4x1080x1920x1_S3x4x1080x1920_0_1_n_n_1_3_31_wf

class Facts : Prop extends Facts₀ where

variable [Facts]
-- ==== Proof.BTrip.lean ====
/-
  What the kernel's body leaves in its output block.

  The body loads the whole 33 × 33 × 33 colour table and makes fifteen trips. Trip `k` takes the 128 columns
  128·k … 128·k + 127 of the image block (`chunk`), computes the interpolated chunk from the table and those columns
  (`tripVal`: the three weight vectors, the table contracted with them axis by axis) and stores it at the same 128
  columns of the output block (`piece`). The scratch buffer the contraction goes through is overwritten whole before
  it is read back, so a trip's piece depends on nothing it finds in the buffers it writes (`trip_piece`). Hence the
  list the loop leaves is the fifteen pieces, last first (`pieces`, `pb_fst`, `pb_run`); their rectangles tile the
  block (`cover`), and written over any contents they read back, at column 128·k + l, as chunk `k`'s interpolated
  value at column `l` (`read_pieces`, `out0_apply`).
-/
import proofs.«419257_j71296457114367_4_alg».proof.Proof.Gen.Kernel.Frame.Runs
import Idealize.ShloMosaic.Lib.Pipeline.Value
import Idealize.ShloMosaic.Lib.ValueIdx

set_option maxRecDepth 16384

noncomputable section

namespace Cert.Kernel.BTrip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-- The interpolated chunk as the body computes it from the table and a 128-column chunk of the image block,
    over any vector `v2` of node numbers: the three per-axis weight vectors, the table contracted with the
    x weights (a matrix product), then with the y and the z weights (two sums). -/
def tripValG (v2 : IVec S33x8x128 32) (lut : Vec F S3x33x33x33 .f32) (v9 : Vec F S1x3x8x128 .f32) : FVec F S1x3x8x128 .f32 :=
  k0_pay2 (k0_pay23 v2 (k0_pay12 v9) (k0_pay16 (k0_pay6 v9)) (k0_pay17 (k0_pay6 v9)) (k0_pay18 (k0_pay6 v9))
      (k0_pay20 v2 (k0_pay12 v9) (k0_pay13 v9)) (k0_pay21 v2 (k0_pay14 v9) 0#32)
      (k0_pay22 (k0_pay1 lut) (k0_pay19 v2 (k0_pay8 v9) (k0_pay9 v9) (k0_pay10 v9))))

/-- The same with the node numbers 0 … 32 along the first axis, as the body has them. -/
def tripVal (lut : Vec F S3x33x33x33 .f32) (v9 : Vec F S1x3x8x128 .f32) : FVec F S1x3x8x128 .f32 :=
  k0_pay2 (k0_pay23 (iota .tc S33x8x128 32 [0] iota_S33x8x128_d0_w32) (k0_pay12 v9) (k0_pay16 (k0_pay6 v9)) (k0_pay17 (k0_pay6 v9)) (k0_pay18 (k0_pay6 v9))
      (k0_pay20 (iota .tc S33x8x128 32 [0] iota_S33x8x128_d0_w32) (k0_pay12 v9) (k0_pay13 v9)) (k0_pay21 (iota .tc S33x8x128 32 [0] iota_S33x8x128_d0_w32) (k0_pay14 v9) 0#32)
      (k0_pay22 (k0_pay1 lut) (k0_pay19 (iota .tc S33x8x128 32 [0] iota_S33x8x128_d0_w32) (k0_pay8 v9) (k0_pay9 v9) (k0_pay10 v9))))

theorem tripVal_eq (lut : Vec F S3x33x33x33 .f32) (v9 : Vec F S1x3x8x128 .f32) :
    tripVal lut v9 = tripValG (iota .tc S33x8x128 32 [0] iota_S33x8x128_d0_w32) lut v9 := rfl

/-- The zero offsets of the scratch buffer's whole rectangle. -/
theorem hz5 : (![0, 0, 0, 0, 0] : Fin 5 → ℕ) = fun _ => 0 := by
  funext a; fin_cases a <;> rfl

/-- The zero offsets of the table's whole rectangle. -/
theorem hz4 : (![0, 0, 0, 0] : Fin 4 → ℕ) = fun _ => 0 := by
  funext a; fin_cases a <;> rfl

/-- Trip `k` leaves ONE piece in the output block: at the trip's 128 columns, the interpolated chunk of what it
    loads from the image block at the same columns. The scratch is overwritten whole before it is read back, so the
    piece does not depend on what the trip finds in the two buffers it writes. -/
theorem trip_piece (𝒱 : Variants) (c : Dev nD) (bd : Option 𝒱.V) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole) (v0 : Vec F S3x33x33x33 .f32) (v2 : IVec S33x8x128 32) (X : BufTy.Contents (Elt F) arg3.view.ty) (k : Fin k0_t1_loop.trips)
    (f4 : BufTy.Contents (Elt F) arg4.view.ty) (f5 : BufTy.Contents (Elt F) arg5.view.ty) :
    (trip_k0_t1 (F := F) 𝒱 c bd i arg2 harg2 arg3 harg3 arg4 harg4 arg5 harg5 v0 v2 X k).1 f4 f5
      = [(⟨Rect.unit (s := S1x3x8x1920) (k0_off1 k) S1x3x8x128.size (k0_off1_inb k),
          tripValG v2 v0 (View.readAt (Elt F) arg3.view (Rect.unit (s := S1x3x8x1920) (k0_off1 k) S1x3x8x128.size (k0_off1_inb k)).toLoadRect X)⟩ : View.Piece (Elt F) S1x3x8x1920 .f32)] := by
  unfold trip_k0_t1
  dsimp only
  sl_unfold_run_names
  rw [View.readCov_unit_zero (S := S3x33x33x8x128) _ hz5]
  rfl

/-! ## The pieces the body leaves in its output block -/

/-- The 128 columns of the image block that trip `k` works on: the block read through the trip's rectangle. -/
def chunk (x1 : Vec F S1x3x8x1920 .f32) (k : Fin k0_t1_loop.trips) : Vec F S1x3x8x128 .f32 :=
  View.ld (Val := Elt F) x1 (Rect.unit (s := S1x3x8x1920) (k0_off1 k) S1x3x8x128.size (k0_off1_inb k))

/-- What trip `k` stores: at its 128 columns, the interpolated chunk. -/
def piece (x0 : Vec F S3x33x33x33 .f32) (x1 : Vec F S1x3x8x1920 .f32) (k : Fin k0_t1_loop.trips) : View.Piece (Elt F) S1x3x8x1920 .f32 :=
  ⟨Rect.unit (s := S1x3x8x1920) (k0_off1 k) S1x3x8x128.size (k0_off1_inb k), tripVal x0 (chunk x1 k)⟩

/-- The pieces of the trips before `n`, last first. -/
def pieces (x0 : Vec F S3x33x33x33 .f32) (x1 : Vec F S1x3x8x1920 .f32) : ℕ → List (View.Piece (Elt F) S1x3x8x1920 .f32)
  | 0 => []
  | n + 1 => if h : n < k0_t1_loop.trips then piece x0 x1 ⟨n, h⟩ :: pieces x0 x1 n else pieces x0 x1 n

/-- The loop makes 15 trips. -/
theorem trips_eq : k0_t1_loop.trips = 15 := by decide

/-- Column `l` of chunk `k` is a column of the block. -/
theorem col_lt (k : Fin k0_t1_loop.trips) (l : Fin 128) : 128 * k.val + l.val < 1920 := by
  have hk : k.val < 15 := Nat.lt_of_lt_of_le k.isLt k0_t1_abs.2.1
  have := l.isLt
  omega

/-- Trip `k`'s rectangle puts its index (0, ch, r, l) at the block's (0, ch, r, 128·k + l). -/
theorem rect_idx (k : Fin k0_t1_loop.trips) (ch : Fin 3) (r : Fin 8) (l : Fin 128) :
    (Rect.unit (s := S1x3x8x1920) (k0_off1 k) S1x3x8x128.size (k0_off1_inb k)).idx (ix4 0 ch r l)
      = ix4 0 ch r ⟨128 * k.val + l.val, col_lt k l⟩ := by
  funext a
  apply Fin.ext
  show k0_off1 k a + 1 * ((ix4 (0 : Fin 1) ch r l) a).val = _
  rw [k0_off1_eq]
  match a with
  | ⟨0, _⟩ => simp
  | ⟨1, _⟩ => simp
  | ⟨2, _⟩ => simp
  | ⟨3, _⟩ => simp

/-- The chunk at an index: the block 128·k columns further. -/
theorem chunk_apply (x1 : Vec F S1x3x8x1920 .f32) (k : Fin k0_t1_loop.trips) (ch : Fin 3) (r : Fin 8) (l : Fin 128) :
    chunk x1 k (ix4 0 ch r l) = x1 (ix4 0 ch r ⟨128 * k.val + l.val, col_lt k l⟩) :=
  congrArg x1 (rect_idx k ch r l)

/-! ## The pieces over any vector of node numbers, and the generated recursion's list -/

/-- `piece` over any vector `v2` of node numbers. -/
def pieceG (v2 : IVec S33x8x128 32) (x0 : Vec F S3x33x33x33 .f32) (x1 : Vec F S1x3x8x1920 .f32) (k : Fin k0_t1_loop.trips) : View.Piece (Elt F) S1x3x8x1920 .f32 :=
  ⟨Rect.unit (s := S1x3x8x1920) (k0_off1 k) S1x3x8x128.size (k0_off1_inb k), tripValG v2 x0 (chunk x1 k)⟩

/-- `pieces` over any vector `v2` of node numbers. -/
def piecesG (v2 : IVec S33x8x128 32) (x0 : Vec F S3x33x33x33 .f32) (x1 : Vec F S1x3x8x1920 .f32) : ℕ → List (View.Piece (Elt F) S1x3x8x1920 .f32)
  | 0 => []
  | n + 1 => if h : n < k0_t1_loop.trips then pieceG v2 x0 x1 ⟨n, h⟩ :: piecesG v2 x0 x1 n else piecesG v2 x0 x1 n

/-- At the body's node numbers these are `pieces`. -/
theorem piecesG_iota (x0 : Vec F S3x33x33x33 .f32) (x1 : Vec F S1x3x8x1920 .f32) :
    ∀ n, piecesG (iota .tc S33x8x128 32 [0] iota_S33x8x128_d0_w32) x0 x1 n = pieces x0 x1 n
  | 0 => rfl
  | n + 1 => by
    rw [piecesG, pieces, piecesG_iota x0 x1 n]
    rfl

/-- The output's list of the generated recursion over the trips is the explicit one: trip by trip, each trip's one piece
    (`trip_piece`) in front of the pieces of the trips before it. -/
theorem pb_fst (𝒱 : Variants) (c : Dev nD) (bd : Option 𝒱.V) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole) (v0 : Vec F S3x33x33x33 .f32) (v2 : IVec S33x8x128 32) (X : BufTy.Contents (Elt F) arg3.view.ty)
    (G4 : BufTy.Contents (Elt F) arg4.view.ty) (G5 : BufTy.Contents (Elt F) arg5.view.ty) :
    ∀ n, n ≤ k0_t1_loop.trips →
      (pb_k0_t1 (F := F) 𝒱 c bd i arg2 harg2 arg3 harg3 arg4 harg4 arg5 harg5 v0 v2 X G4 G5 n).1
        = piecesG v2 v0 (arg3.view.read (Elt F) X) n
  | 0, _ => rfl
  | n + 1, hn => by
    have h : n < k0_t1_loop.trips := hn
    refine (congrArg Prod.fst (pb_k0_t1_succ (F := F) 𝒱 c bd i arg2 harg2 arg3 harg3 arg4 harg4 arg5 harg5 v0 v2 X G4 G5 ⟨n, h⟩)).trans ?_
    simp only [tripL_k0_t1, trip_piece]
    rw [pb_fst 𝒱 c bd i arg2 harg2 arg3 harg3 arg4 harg4 arg5 harg5 v0 v2 X G4 G5 n (Nat.le_of_lt h), piecesG, dif_pos h]
    rfl

/-- The same at the contents the body finds: the table loaded whole is the table, the image block under its buffer the
    block, the node numbers the body's. -/
theorem pb_run (c : Dev nD) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole)
    (x0 : Vec F S3x33x33x33 .f32) (x1 : Vec F S1x3x8x1920 .f32)
    (G4 : BufTy.Contents (Elt F) arg4.view.ty) (G5 : BufTy.Contents (Elt F) arg5.view.ty) :
    (pb_k0_t1 (F := F) Variants.none c none i arg2 harg2 arg3 harg3 arg4 harg4 arg5 harg5
        (View.readAt (Elt F) arg2.view (Rect.unit (s := S3x33x33x33) ![0, 0, 0, 0] S3x33x33x33.size inb_S3x33x33x33_S3x33x33x33_0_0_0_0).toLoadRect (harg2.unread x0))
        (iota .tc S33x8x128 32 [0] iota_S33x8x128_d0_w32) (harg3.unread x1) G4 G5 k0_t1_loop.trips).1
      = pieces x0 x1 k0_t1_loop.trips := by
  rw [pb_fst _ _ _ _ _ _ _ _ _ _ _ _ _ _ _ _ _ _ (Nat.le_refl _), View.readAt_eq_ld, harg2.read_unread, harg3.read_unread,
    View.ld_unit_zero (S := S3x33x33x33) hz4, piecesG_iota]

/-! ## The pieces read back as one function -/

/-- A trip before `n` has its piece among the pieces of the trips before `n`. -/
theorem piece_mem (x0 : Vec F S3x33x33x33 .f32) (x1 : Vec F S1x3x8x1920 .f32) (k : Fin k0_t1_loop.trips) :
    ∀ n, k.val < n → piece x0 x1 k ∈ pieces x0 x1 n
  | 0, h => absurd h (Nat.not_lt_zero _)
  | n + 1, h => by
    rw [pieces]
    by_cases hn : n < k0_t1_loop.trips
    · rw [dif_pos hn]
      rcases Nat.lt_succ_iff_lt_or_eq.mp h with h' | h'
      · exact List.mem_cons_of_mem _ (piece_mem x0 x1 k n h')
      · obtain rfl : k = ⟨n, hn⟩ := Fin.ext h'
        exact List.mem_cons_self
    · rw [dif_neg hn]
      exact piece_mem x0 x1 k n (Nat.lt_of_lt_of_le k.isLt (Nat.le_of_not_lt hn))

/-- Every piece of the list is some trip's. -/
theorem exists_of_mem_pieces (x0 : Vec F S3x33x33x33 .f32) (x1 : Vec F S1x3x8x1920 .f32) (q : View.Piece (Elt F) S1x3x8x1920 .f32) :
    ∀ n, q ∈ pieces x0 x1 n → ∃ k : Fin k0_t1_loop.trips, q = piece x0 x1 k
  | 0, h => absurd h List.not_mem_nil
  | n + 1, h => by
    rw [pieces] at h
    by_cases hn : n < k0_t1_loop.trips
    · rw [dif_pos hn] at h
      rcases List.mem_cons.mp h with rfl | h'
      · exact ⟨⟨n, hn⟩, rfl⟩
      · exact exists_of_mem_pieces x0 x1 q n h'
    · rw [dif_neg hn] at h
      exact exists_of_mem_pieces x0 x1 q n h

/-- An index of the block is in trip `k`'s rectangle when its column is among the trip's 128. -/
theorem mem_piece_set (x0 : Vec F S3x33x33x33 .f32) (x1 : Vec F S1x3x8x1920 .f32) (k : Fin k0_t1_loop.trips) (y : S1x3x8x1920.Idx) :
    y ∈ (piece x0 x1 k).1.set ↔ 128 * k.val ≤ (y 3).val ∧ (y 3).val < 128 * k.val + 128 := by
  show y ∈ (Rect.unit (s := S1x3x8x1920) (k0_off1 k) S1x3x8x128.size (k0_off1_inb k)).set ↔ _
  rw [Rect.mem_set_unit, k0_off1_eq]
  constructor
  · intro h
    have h3 := h 3
    simpa using h3
  · intro h a
    match a with
    | ⟨0, _⟩ => have := (y 0).isLt; simpa using this
    | ⟨1, _⟩ => have := (y 1).isLt; simpa using this
    | ⟨2, _⟩ => have := (y 2).isLt; simpa using this
    | ⟨3, _⟩ => simpa using h

/-- Every index of the block is in some trip's rectangle. -/
theorem cover (x0 : Vec F S3x33x33x33 .f32) (x1 : Vec F S1x3x8x1920 .f32) (y : S1x3x8x1920.Idx) :
    ∃ pc ∈ pieces x0 x1 k0_t1_loop.trips, y ∈ pc.1.set := by
  have hy : (y 3).val < 1920 := (y 3).isLt
  have hk : (y 3).val / 128 < k0_t1_loop.trips := by rw [trips_eq]; omega
  refine ⟨piece x0 x1 ⟨(y 3).val / 128, hk⟩, piece_mem x0 x1 _ _ hk, ?_⟩
  rw [mem_piece_set]
  show 128 * ((y 3).val / 128) ≤ (y 3).val ∧ (y 3).val < 128 * ((y 3).val / 128) + 128
  omega

/-- Through any view and over any contents, the fifteen pieces written read back, at column 128·k + l, as the
    interpolated chunk `k` at column `l`: that column is in trip `k`'s rectangle and in no other trip's. -/
theorem read_pieces {sg : RefSig} {κ : Kind} {sp : Space} (v : View sg κ sp S1x3x8x1920 .f32) (f : v.ty.Contents (Elt F))
    (x0 : Vec F S3x33x33x33 .f32) (x1 : Vec F S1x3x8x1920 .f32) (k : Fin k0_t1_loop.trips) (ch : Fin 3) (r : Fin 8) (l : Fin 128) :
    v.read (Elt F) (v.writes (Elt F) f (pieces x0 x1 k0_t1_loop.trips)) (ix4 0 ch r ⟨128 * k.val + l.val, col_lt k l⟩)
      = tripVal x0 (chunk x1 k) (ix4 0 ch r l) := by
  rw [← rect_idx k ch r l]
  refine View.read_writes_of_unique v f (piece x0 x1 k) (ix4 0 ch r l) _ (piece_mem x0 x1 k _ k.isLt) ?_
  intro q hq hmem
  obtain ⟨k', rfl⟩ := exists_of_mem_pieces x0 x1 q _ hq
  rw [mem_piece_set] at hmem
  have e : (((piece x0 x1 k).1.emb (ix4 0 ch r l)) 3).val = 128 * k.val + l.val := by
    show ((Rect.unit (s := S1x3x8x1920) (k0_off1 k) S1x3x8x128.size (k0_off1_inb k)).idx (ix4 0 ch r l) 3).val = _
    rw [rect_idx]
  rw [e] at hmem
  have := l.isLt
  obtain rfl : k' = k := Fin.ext (by omega)
  rfl

/-- What the fifteen pieces leave in the output's staging buffer, at column 128·k + l. -/
theorem out0_apply (x0 : Vec F S3x33x33x33 .f32) (x1 : Vec F S1x3x8x1920 .f32) (k : Fin k0_t1_loop.trips) (ch : Fin 3) (r : Fin 8) (l : Fin 128) :
    VO0_2.read (Elt F) (VO0_2.writes (Elt F) VO0_2.junk (pieces x0 x1 k0_t1_loop.trips))
        (ix4 0 ch r ⟨128 * k.val + l.val, col_lt k l⟩)
      = tripVal x0 (chunk x1 k) (ix4 0 ch r l) :=
  read_pieces VO0_2 VO0_2.junk x0 x1 k ch r l

end Cert.Kernel.BTrip

end
-- ==== Proof.KTrip.lean ====
/-
  What the kernel's body leaves in its output block.

  The body loads the whole 33 × 33 × 33 colour table and makes fifteen trips. Trip `k` takes the 128 columns
  128·k … 128·k + 127 of the image block (`chunk`), computes the interpolated chunk from the table and those columns
  (`tripVal`: the three weight vectors, the table contracted with them axis by axis) and stores it at the same 128
  columns of the output block (`piece`). The scratch buffer the contraction goes through is overwritten whole before
  it is read back, so a trip's piece depends on nothing it finds in the buffers it writes (`trip_piece`). Hence the
  list the loop leaves is the fifteen pieces, last first (`pieces`, `pb_fst`, `pb_run`); their rectangles tile the
  block (`cover`), and written over any contents they read back, at column 128·k + l, as chunk `k`'s interpolated
  value at column `l` (`read_pieces`, `out0_apply`).
-/
import proofs.«419257_j71296457114367_4_alg».proof.Proof.Gen.KernelIdeal.Frame.Runs
import Idealize.ShloMosaic.Lib.Pipeline.Value
import Idealize.ShloMosaic.Lib.ValueIdx

set_option maxRecDepth 16384

noncomputable section

namespace Cert.KernelIdeal.KTrip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The interpolated chunk as the body computes it from the table and a 128-column chunk of the image block,
    over any vector `v2` of node numbers: the three per-axis weight vectors, the table contracted with the
    x weights (a matrix product), then with the y and the z weights (two sums). -/
def tripValG (v2 : IVec S33x8x128 32) (lut : Vec F S3x33x33x33 .f32) (v9 : Vec F S1x3x8x128 .f32) : FVec F S1x3x8x128 .f32 :=
  k0_pay2 (k0_pay23 v2 (k0_pay12 v9) (k0_pay16 (k0_pay6 v9)) (k0_pay17 (k0_pay6 v9)) (k0_pay18 (k0_pay6 v9))
      (k0_pay20 v2 (k0_pay12 v9) (k0_pay13 v9)) (k0_pay21 v2 (k0_pay14 v9) 0#32)
      (k0_pay22 (k0_pay1 lut) (k0_pay19 v2 (k0_pay8 v9) (k0_pay9 v9) (k0_pay10 v9))))

/-- The same with the node numbers 0 … 32 along the first axis, as the body has them. -/
def tripVal (lut : Vec F S3x33x33x33 .f32) (v9 : Vec F S1x3x8x128 .f32) : FVec F S1x3x8x128 .f32 :=
  k0_pay2 (k0_pay23 (iota .tc S33x8x128 32 [0] iota_S33x8x128_d0_w32) (k0_pay12 v9) (k0_pay16 (k0_pay6 v9)) (k0_pay17 (k0_pay6 v9)) (k0_pay18 (k0_pay6 v9))
      (k0_pay20 (iota .tc S33x8x128 32 [0] iota_S33x8x128_d0_w32) (k0_pay12 v9) (k0_pay13 v9)) (k0_pay21 (iota .tc S33x8x128 32 [0] iota_S33x8x128_d0_w32) (k0_pay14 v9) 0#32)
      (k0_pay22 (k0_pay1 lut) (k0_pay19 (iota .tc S33x8x128 32 [0] iota_S33x8x128_d0_w32) (k0_pay8 v9) (k0_pay9 v9) (k0_pay10 v9))))

theorem tripVal_eq (lut : Vec F S3x33x33x33 .f32) (v9 : Vec F S1x3x8x128 .f32) :
    tripVal lut v9 = tripValG (iota .tc S33x8x128 32 [0] iota_S33x8x128_d0_w32) lut v9 := rfl

/-- The zero offsets of the scratch buffer's whole rectangle. -/
theorem hz5 : (![0, 0, 0, 0, 0] : Fin 5 → ℕ) = fun _ => 0 := by
  funext a; fin_cases a <;> rfl

/-- The zero offsets of the table's whole rectangle. -/
theorem hz4 : (![0, 0, 0, 0] : Fin 4 → ℕ) = fun _ => 0 := by
  funext a; fin_cases a <;> rfl

/-- Trip `k` leaves ONE piece in the output block: at the trip's 128 columns, the interpolated chunk of what it
    loads from the image block at the same columns. The scratch is overwritten whole before it is read back, so the
    piece does not depend on what the trip finds in the two buffers it writes. -/
theorem trip_piece (𝒱 : Variants) (c : Dev nD) (bd : Option 𝒱.V) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole) (v0 : Vec F S3x33x33x33 .f32) (v2 : IVec S33x8x128 32) (X : BufTy.Contents (Elt F) arg3.view.ty) (k : Fin k0_t1_loop.trips)
    (f4 : BufTy.Contents (Elt F) arg4.view.ty) (f5 : BufTy.Contents (Elt F) arg5.view.ty) :
    (trip_k0_t1 (F := F) 𝒱 c bd i arg2 harg2 arg3 harg3 arg4 harg4 arg5 harg5 v0 v2 X k).1 f4 f5
      = [(⟨Rect.unit (s := S1x3x8x1920) (k0_off1 k) S1x3x8x128.size (k0_off1_inb k),
          tripValG v2 v0 (View.readAt (Elt F) arg3.view (Rect.unit (s := S1x3x8x1920) (k0_off1 k) S1x3x8x128.size (k0_off1_inb k)).toLoadRect X)⟩ : View.Piece (Elt F) S1x3x8x1920 .f32)] := by
  unfold trip_k0_t1
  dsimp only
  sl_unfold_run_names
  rw [View.readCov_unit_zero (S := S3x33x33x8x128) _ hz5]
  rfl

/-! ## The pieces the body leaves in its output block -/

/-- The 128 columns of the image block that trip `k` works on: the block read through the trip's rectangle. -/
def chunk (x1 : Vec F S1x3x8x1920 .f32) (k : Fin k0_t1_loop.trips) : Vec F S1x3x8x128 .f32 :=
  View.ld (Val := Elt F) x1 (Rect.unit (s := S1x3x8x1920) (k0_off1 k) S1x3x8x128.size (k0_off1_inb k))

/-- What trip `k` stores: at its 128 columns, the interpolated chunk. -/
def piece (x0 : Vec F S3x33x33x33 .f32) (x1 : Vec F S1x3x8x1920 .f32) (k : Fin k0_t1_loop.trips) : View.Piece (Elt F) S1x3x8x1920 .f32 :=
  ⟨Rect.unit (s := S1x3x8x1920) (k0_off1 k) S1x3x8x128.size (k0_off1_inb k), tripVal x0 (chunk x1 k)⟩

/-- The pieces of the trips before `n`, last first. -/
def pieces (x0 : Vec F S3x33x33x33 .f32) (x1 : Vec F S1x3x8x1920 .f32) : ℕ → List (View.Piece (Elt F) S1x3x8x1920 .f32)
  | 0 => []
  | n + 1 => if h : n < k0_t1_loop.trips then piece x0 x1 ⟨n, h⟩ :: pieces x0 x1 n else pieces x0 x1 n

/-- The loop makes 15 trips. -/
theorem trips_eq : k0_t1_loop.trips = 15 := by decide

/-- Column `l` of chunk `k` is a column of the block. -/
theorem col_lt (k : Fin k0_t1_loop.trips) (l : Fin 128) : 128 * k.val + l.val < 1920 := by
  have hk : k.val < 15 := Nat.lt_of_lt_of_le k.isLt k0_t1_abs.2.1
  have := l.isLt
  omega

/-- Trip `k`'s rectangle puts its index (0, ch, r, l) at the block's (0, ch, r, 128·k + l). -/
theorem rect_idx (k : Fin k0_t1_loop.trips) (ch : Fin 3) (r : Fin 8) (l : Fin 128) :
    (Rect.unit (s := S1x3x8x1920) (k0_off1 k) S1x3x8x128.size (k0_off1_inb k)).idx (ix4 0 ch r l)
      = ix4 0 ch r ⟨128 * k.val + l.val, col_lt k l⟩ := by
  funext a
  apply Fin.ext
  show k0_off1 k a + 1 * ((ix4 (0 : Fin 1) ch r l) a).val = _
  rw [k0_off1_eq]
  match a with
  | ⟨0, _⟩ => simp
  | ⟨1, _⟩ => simp
  | ⟨2, _⟩ => simp
  | ⟨3, _⟩ => simp

/-- The chunk at an index: the block 128·k columns further. -/
theorem chunk_apply (x1 : Vec F S1x3x8x1920 .f32) (k : Fin k0_t1_loop.trips) (ch : Fin 3) (r : Fin 8) (l : Fin 128) :
    chunk x1 k (ix4 0 ch r l) = x1 (ix4 0 ch r ⟨128 * k.val + l.val, col_lt k l⟩) :=
  congrArg x1 (rect_idx k ch r l)

/-! ## The pieces over any vector of node numbers, and the generated recursion's list -/

/-- `piece` over any vector `v2` of node numbers. -/
def pieceG (v2 : IVec S33x8x128 32) (x0 : Vec F S3x33x33x33 .f32) (x1 : Vec F S1x3x8x1920 .f32) (k : Fin k0_t1_loop.trips) : View.Piece (Elt F) S1x3x8x1920 .f32 :=
  ⟨Rect.unit (s := S1x3x8x1920) (k0_off1 k) S1x3x8x128.size (k0_off1_inb k), tripValG v2 x0 (chunk x1 k)⟩

/-- `pieces` over any vector `v2` of node numbers. -/
def piecesG (v2 : IVec S33x8x128 32) (x0 : Vec F S3x33x33x33 .f32) (x1 : Vec F S1x3x8x1920 .f32) : ℕ → List (View.Piece (Elt F) S1x3x8x1920 .f32)
  | 0 => []
  | n + 1 => if h : n < k0_t1_loop.trips then pieceG v2 x0 x1 ⟨n, h⟩ :: piecesG v2 x0 x1 n else piecesG v2 x0 x1 n

/-- At the body's node numbers these are `pieces`. -/
theorem piecesG_iota (x0 : Vec F S3x33x33x33 .f32) (x1 : Vec F S1x3x8x1920 .f32) :
    ∀ n, piecesG (iota .tc S33x8x128 32 [0] iota_S33x8x128_d0_w32) x0 x1 n = pieces x0 x1 n
  | 0 => rfl
  | n + 1 => by
    rw [piecesG, pieces, piecesG_iota x0 x1 n]
    rfl

/-- The output's list of the generated recursion over the trips is the explicit one: trip by trip, each trip's one piece
    (`trip_piece`) in front of the pieces of the trips before it. -/
theorem pb_fst (𝒱 : Variants) (c : Dev nD) (bd : Option 𝒱.V) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole) (v0 : Vec F S3x33x33x33 .f32) (v2 : IVec S33x8x128 32) (X : BufTy.Contents (Elt F) arg3.view.ty)
    (G4 : BufTy.Contents (Elt F) arg4.view.ty) (G5 : BufTy.Contents (Elt F) arg5.view.ty) :
    ∀ n, n ≤ k0_t1_loop.trips →
      (pb_k0_t1 (F := F) 𝒱 c bd i arg2 harg2 arg3 harg3 arg4 harg4 arg5 harg5 v0 v2 X G4 G5 n).1
        = piecesG v2 v0 (arg3.view.read (Elt F) X) n
  | 0, _ => rfl
  | n + 1, hn => by
    have h : n < k0_t1_loop.trips := hn
    refine (congrArg Prod.fst (pb_k0_t1_succ (F := F) 𝒱 c bd i arg2 harg2 arg3 harg3 arg4 harg4 arg5 harg5 v0 v2 X G4 G5 ⟨n, h⟩)).trans ?_
    simp only [tripL_k0_t1, trip_piece]
    rw [pb_fst 𝒱 c bd i arg2 harg2 arg3 harg3 arg4 harg4 arg5 harg5 v0 v2 X G4 G5 n (Nat.le_of_lt h), piecesG, dif_pos h]
    rfl

/-- The same at the contents the body finds: the table loaded whole is the table, the image block under its buffer the
    block, the node numbers the body's. -/
theorem pb_run (c : Dev nD) (i : grid0.Coords) (arg2 : Memref sig .tc .vmem S3x33x33x33 .f32) (harg2 : arg2.IsWhole) (arg3 : Memref sig .tc .vmem S1x3x8x1920 .f32) (harg3 : arg3.IsWhole) (arg4 : Memref sig .tc .vmem S1x3x8x1920 .f32) (harg4 : arg4.IsWhole) (arg5 : Memref sig .tc .vmem S3x33x33x8x128 .f32) (harg5 : arg5.IsWhole)
    (x0 : Vec F S3x33x33x33 .f32) (x1 : Vec F S1x3x8x1920 .f32)
    (G4 : BufTy.Contents (Elt F) arg4.view.ty) (G5 : BufTy.Contents (Elt F) arg5.view.ty) :
    (pb_k0_t1 (F := F) Variants.none c none i arg2 harg2 arg3 harg3 arg4 harg4 arg5 harg5
        (View.readAt (Elt F) arg2.view (Rect.unit (s := S3x33x33x33) ![0, 0, 0, 0] S3x33x33x33.size inb_S3x33x33x33_S3x33x33x33_0_0_0_0).toLoadRect (harg2.unread x0))
        (iota .tc S33x8x128 32 [0] iota_S33x8x128_d0_w32) (harg3.unread x1) G4 G5 k0_t1_loop.trips).1
      = pieces x0 x1 k0_t1_loop.trips := by
  rw [pb_fst _ _ _ _ _ _ _ _ _ _ _ _ _ _ _ _ _ _ (Nat.le_refl _), View.readAt_eq_ld, harg2.read_unread, harg3.read_unread,
    View.ld_unit_zero (S := S3x33x33x33) hz4, piecesG_iota]

/-! ## The pieces read back as one function -/

/-- A trip before `n` has its piece among the pieces of the trips before `n`. -/
theorem piece_mem (x0 : Vec F S3x33x33x33 .f32) (x1 : Vec F S1x3x8x1920 .f32) (k : Fin k0_t1_loop.trips) :
    ∀ n, k.val < n → piece x0 x1 k ∈ pieces x0 x1 n
  | 0, h => absurd h (Nat.not_lt_zero _)
  | n + 1, h => by
    rw [pieces]
    by_cases hn : n < k0_t1_loop.trips
    · rw [dif_pos hn]
      rcases Nat.lt_succ_iff_lt_or_eq.mp h with h' | h'
      · exact List.mem_cons_of_mem _ (piece_mem x0 x1 k n h')
      · obtain rfl : k = ⟨n, hn⟩ := Fin.ext h'
        exact List.mem_cons_self
    · rw [dif_neg hn]
      exact piece_mem x0 x1 k n (Nat.lt_of_lt_of_le k.isLt (Nat.le_of_not_lt hn))

/-- Every piece of the list is some trip's. -/
theorem exists_of_mem_pieces (x0 : Vec F S3x33x33x33 .f32) (x1 : Vec F S1x3x8x1920 .f32) (q : View.Piece (Elt F) S1x3x8x1920 .f32) :
    ∀ n, q ∈ pieces x0 x1 n → ∃ k : Fin k0_t1_loop.trips, q = piece x0 x1 k
  | 0, h => absurd h List.not_mem_nil
  | n + 1, h => by
    rw [pieces] at h
    by_cases hn : n < k0_t1_loop.trips
    · rw [dif_pos hn] at h
      rcases List.mem_cons.mp h with rfl | h'
      · exact ⟨⟨n, hn⟩, rfl⟩
      · exact exists_of_mem_pieces x0 x1 q n h'
    · rw [dif_neg hn] at h
      exact exists_of_mem_pieces x0 x1 q n h

/-- An index of the block is in trip `k`'s rectangle when its column is among the trip's 128. -/
theorem mem_piece_set (x0 : Vec F S3x33x33x33 .f32) (x1 : Vec F S1x3x8x1920 .f32) (k : Fin k0_t1_loop.trips) (y : S1x3x8x1920.Idx) :
    y ∈ (piece x0 x1 k).1.set ↔ 128 * k.val ≤ (y 3).val ∧ (y 3).val < 128 * k.val + 128 := by
  show y ∈ (Rect.unit (s := S1x3x8x1920) (k0_off1 k) S1x3x8x128.size (k0_off1_inb k)).set ↔ _
  rw [Rect.mem_set_unit, k0_off1_eq]
  constructor
  · intro h
    have h3 := h 3
    simpa using h3
  · intro h a
    match a with
    | ⟨0, _⟩ => have := (y 0).isLt; simpa using this
    | ⟨1, _⟩ => have := (y 1).isLt; simpa using this
    | ⟨2, _⟩ => have := (y 2).isLt; simpa using this
    | ⟨3, _⟩ => simpa using h

/-- Every index of the block is in some trip's rectangle. -/
theorem cover (x0 : Vec F S3x33x33x33 .f32) (x1 : Vec F S1x3x8x1920 .f32) (y : S1x3x8x1920.Idx) :
    ∃ pc ∈ pieces x0 x1 k0_t1_loop.trips, y ∈ pc.1.set := by
  have hy : (y 3).val < 1920 := (y 3).isLt
  have hk : (y 3).val / 128 < k0_t1_loop.trips := by rw [trips_eq]; omega
  refine ⟨piece x0 x1 ⟨(y 3).val / 128, hk⟩, piece_mem x0 x1 _ _ hk, ?_⟩
  rw [mem_piece_set]
  show 128 * ((y 3).val / 128) ≤ (y 3).val ∧ (y 3).val < 128 * ((y 3).val / 128) + 128
  omega

/-- Through any view and over any contents, the fifteen pieces written read back, at column 128·k + l, as the
    interpolated chunk `k` at column `l`: that column is in trip `k`'s rectangle and in no other trip's. -/
theorem read_pieces {sg : RefSig} {κ : Kind} {sp : Space} (v : View sg κ sp S1x3x8x1920 .f32) (f : v.ty.Contents (Elt F))
    (x0 : Vec F S3x33x33x33 .f32) (x1 : Vec F S1x3x8x1920 .f32) (k : Fin k0_t1_loop.trips) (ch : Fin 3) (r : Fin 8) (l : Fin 128) :
    v.read (Elt F) (v.writes (Elt F) f (pieces x0 x1 k0_t1_loop.trips)) (ix4 0 ch r ⟨128 * k.val + l.val, col_lt k l⟩)
      = tripVal x0 (chunk x1 k) (ix4 0 ch r l) := by
  rw [← rect_idx k ch r l]
  refine View.read_writes_of_unique v f (piece x0 x1 k) (ix4 0 ch r l) _ (piece_mem x0 x1 k _ k.isLt) ?_
  intro q hq hmem
  obtain ⟨k', rfl⟩ := exists_of_mem_pieces x0 x1 q _ hq
  rw [mem_piece_set] at hmem
  have e : (((piece x0 x1 k).1.emb (ix4 0 ch r l)) 3).val = 128 * k.val + l.val := by
    show ((Rect.unit (s := S1x3x8x1920) (k0_off1 k) S1x3x8x128.size (k0_off1_inb k)).idx (ix4 0 ch r l) 3).val = _
    rw [rect_idx]
  rw [e] at hmem
  have := l.isLt
  obtain rfl : k' = k := Fin.ext (by omega)
  rfl

/-- What the fifteen pieces leave in the output's staging buffer, at column 128·k + l. -/
theorem out0_apply (x0 : Vec F S3x33x33x33 .f32) (x1 : Vec F S1x3x8x1920 .f32) (k : Fin k0_t1_loop.trips) (ch : Fin 3) (r : Fin 8) (l : Fin 128) :
    VO0_2.read (Elt F) (VO0_2.writes (Elt F) VO0_2.junk (pieces x0 x1 k0_t1_loop.trips))
        (ix4 0 ch r ⟨128 * k.val + l.val, col_lt k l⟩)
      = tripVal x0 (chunk x1 k) (ix4 0 ch r l) :=
  read_pieces VO0_2 VO0_2.junk x0 x1 k ch r l

end Cert.KernelIdeal.KTrip

end
-- ==== Proof.Trilinear.lean ====
/-
  Trilinear interpolation in a 33 × 33 × 33 colour table, pixel by pixel, on the extended reals.

  A pixel has three colour values `ax ay az`; each is scaled by 32 and clamped to [0, 32] (`coord`),
  giving a position `p` on one axis of the table. `cellLo p` is the node at or below `p` (the floor,
  clamped to 0 … 32 as a 32-bit integer), `cellHi p` the next node (clamped again, so that at the upper
  border both nodes coincide), `cellFrac p = p - ⌊p⌋` the distance from the lower node. The weight an
  axis gives node `k` is `1 - cellFrac p` if `k` is the lower node plus `cellFrac p` if `k` is the upper.

  Two ways to write the interpolated value of channel `c`:
  * `kval`: the table contracted with the three weight vectors, axis by axis (x innermost, then y, then z);
  * `rval`: the eight corner entries, each times the product of its three weights.
  `Gk` and `Gr` are these at every index of an image of shape [4, 3, 1080, 1920].
-/
import Idealize.ShloMosaic.PureOps.Ideal
import Idealize.ShloMosaic.Lib.ValueIdx

noncomputable section

namespace Cert.Trilinear

open Idealize.ShloMosaic Idealize.ShloMosaic.ValueIdx

/-- The colour table's shape and the image's. -/
abbrev SLut : Shape := ⟨4, ![3, 33, 33, 33]⟩
abbrev SImg : Shape := ⟨4, ![4, 3, 1080, 1920]⟩

/-- The three float constants: 32, 0 and 1 by their patterns. -/
abbrev c32 : Ideal .f32 := FloatOps.ofBits .f32 0x42000000#32
abbrev c0 : Ideal .f32 := FloatOps.ofBits .f32 0x00000000#32
abbrev c1 : Ideal .f32 := FloatOps.ofBits .f32 0x3F800000#32

/-- A colour value's position on a table axis: 32 · a, clamped to [0, 32]. -/
def coord (a : Ideal .f32) : Ideal .f32 := FloatOps.minimumf c32 (FloatOps.maximumf c0 (FloatOps.mulf a c32))

/-- The distance of a position from the node below it. -/
def cellFrac (p : Ideal .f32) : Ideal .f32 := FloatOps.subf p (FloatOps.floor p)

/-- The node at or below a position, clamped to 0 … 32. -/
def cellLo (p : Ideal .f32) : BitVec 32 := IntOp.minsi 32#32 (IntOp.maxsi 0#32 (FloatOps.fptosi 32 (FloatOps.floor p)))

/-- The node after `cellLo`, clamped to 0 … 32. -/
def cellHi (p : Ideal .f32) : BitVec 32 := IntOp.minsi 32#32 (IntOp.maxsi 0#32 (IntOp.addi (cellLo p) 1#32))

/-- The weight of the lower node. -/
def wLo (p : Ideal .f32) : Ideal .f32 := FloatOps.subf c1 (cellFrac p)

/-- The weight an axis position gives node `k`. -/
def weight (p : Ideal .f32) (k : BitVec 32) : Ideal .f32 :=
  FloatOps.addf (Scalar.select (IntOp.cmpi .eq k (cellLo p)) (wLo p) c0)
    (Scalar.select (IntOp.cmpi .eq k (cellHi p)) (cellFrac p) c0)

/-- The table contracted with the three weight vectors: x first, then y, then z. -/
def kval (lut : SLut.Idx → Ideal .f32) (ax ay az : Ideal .f32) (c : Fin 3) : Ideal .f32 :=
  ∑ z : Fin 33, (∑ y : Fin 33, (∑ x : Fin 33, lut (ix4 c z y x) * weight (coord ax) (BitVec.ofNat 32 x.val))
    * weight (coord ay) (BitVec.ofNat 32 y.val)) * weight (coord az) (BitVec.ofNat 32 z.val)

/-- A 32-bit integer as a node of an axis (reduced mod 33; the clamped nodes are below 33 already). -/
def node (v : BitVec 32) : Fin 33 := ⟨v.toNat % 33, Nat.mod_lt _ (by decide)⟩

/-- The table's entry of channel `c` at three nodes. -/
def lutAt (lut : SLut.Idx → Ideal .f32) (c : Fin 3) (z y x : BitVec 32) : Ideal .f32 :=
  lut (ix4 c (node z) (node y) (node x))

/-- The eight corners, each times its three weights, summed from the left in the order
    (z, y, x) = (lo, lo, lo), (lo, lo, hi), (lo, hi, lo), (lo, hi, hi), (hi, lo, lo), … -/
def rval (lut : SLut.Idx → Ideal .f32) (ax ay az : Ideal .f32) (c : Fin 3) : Ideal .f32 :=
  lutAt lut c (cellLo (coord az)) (cellLo (coord ay)) (cellLo (coord ax)) * ((wLo (coord az) * wLo (coord ay)) * wLo (coord ax))
  + lutAt lut c (cellLo (coord az)) (cellLo (coord ay)) (cellHi (coord ax)) * ((wLo (coord az) * wLo (coord ay)) * cellFrac (coord ax))
  + lutAt lut c (cellLo (coord az)) (cellHi (coord ay)) (cellLo (coord ax)) * ((wLo (coord az) * cellFrac (coord ay)) * wLo (coord ax))
  + lutAt lut c (cellLo (coord az)) (cellHi (coord ay)) (cellHi (coord ax)) * ((wLo (coord az) * cellFrac (coord ay)) * cellFrac (coord ax))
  + lutAt lut c (cellHi (coord az)) (cellLo (coord ay)) (cellLo (coord ax)) * ((cellFrac (coord az) * wLo (coord ay)) * wLo (coord ax))
  + lutAt lut c (cellHi (coord az)) (cellLo (coord ay)) (cellHi (coord ax)) * ((cellFrac (coord az) * wLo (coord ay)) * cellFrac (coord ax))
  + lutAt lut c (cellHi (coord az)) (cellHi (coord ay)) (cellLo (coord ax)) * ((cellFrac (coord az) * cellFrac (coord ay)) * wLo (coord ax))
  + lutAt lut c (cellHi (coord az)) (cellHi (coord ay)) (cellHi (coord ax)) * ((cellFrac (coord az) * cellFrac (coord ay)) * cellFrac (coord ax))

/-- The three colour values of the pixel that index `i` of the image belongs to. -/
def pixX (img : SImg.Idx → Ideal .f32) (i : SImg.Idx) : Ideal .f32 := img (ix4 (i 0) 0 (i 2) (i 3))
def pixY (img : SImg.Idx → Ideal .f32) (i : SImg.Idx) : Ideal .f32 := img (ix4 (i 0) 1 (i 2) (i 3))
def pixZ (img : SImg.Idx → Ideal .f32) (i : SImg.Idx) : Ideal .f32 := img (ix4 (i 0) 2 (i 2) (i 3))

/-- The interpolated image, by contraction. -/
def Gk (lut : SLut.Idx → Ideal .f32) (img : SImg.Idx → Ideal .f32) : SImg.Idx → Ideal .f32 :=
  fun i => kval lut (pixX img i) (pixY img i) (pixZ img i) (i 1)

/-- The interpolated image, by the eight corners. -/
def Gr (lut : SLut.Idx → Ideal .f32) (img : SImg.Idx → Ideal .f32) : SImg.Idx → Ideal .f32 :=
  fun i => rval lut (pixX img i) (pixY img i) (pixZ img i) (i 1)

end Cert.Trilinear

end
-- ==== Proof.KPayload.lean ====
/-
  The kernel's loop body read at one entry of what it stores.

  One trip of the inner loop takes a chunk of the image block (3 channels × 8 rows × 128 columns) and the whole
  33 × 33 × 33 colour table. From the chunk it forms, per pixel, the three clamped table coordinates, their lower and
  upper nodes and the distance from the lower node; from those, per axis, a weight vector over the 33 nodes that is
  `1 - f` at the lower node plus `f` at the upper one. The table, laid out as a 3267 × 33 matrix, is multiplied with
  the x weights (a sum over x); the result is multiplied by the y weights and summed over y, then by the z weights
  and summed over z. Read at channel `c` of pixel `(r, l)`, that is `Trilinear.kval` of the table and the pixel's
  three colour values.

  The steps: the front end at a pixel (`pay3_apply` … `pay18_apply`), the weight vectors at a node
  (`pay19_apply`, `pay20_apply`, `pay21_apply`, `wx_apply`, `wy_apply`, `wz_apply`), the matrix product at an entry
  (`mm_apply`, `pay22_apply`), the two sums (`sumY_apply`, `sumZ_apply`, `pay23_apply`), and the whole chain
  (`tripVal`, `tripVal_apply`).
-/
import proofs.«419257_j71296457114367_4_alg».proof.Proof.Gen.KernelIdeal.Skeleton
import proofs.«419257_j71296457114367_4_alg».proof.Proof.Trilinear
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx
open Cert.KernelIdeal Cert.KernelIdeal.Gen
open Cert.Trilinear (coord cellFrac cellLo cellHi wLo weight kval c0 c1 c32)

/-! ## The front end at a pixel -/

/-- The chunk's clamped table coordinates: channel `ch` of pixel `(r, l)` is `coord` of the chunk's entry. -/
theorem pay3_apply (v9 : Vec Ideal S1x3x8x128 .f32) (ch : Fin 3) (r : Fin 8) (l : Fin 128) :
    k0_pay3 v9 (ix3 ch r l) = coord (v9 (ix4 0 ch r l)) := by
  unfold k0_pay3 coord
  exact congrArg (fun a => FloatOps.minimumf Cert.Trilinear.c32 (FloatOps.maximumf Cert.Trilinear.c0 (FloatOps.mulf a Cert.Trilinear.c32)))
    (shapeCast_1abc_abc_apply v9 _ ch r l)

/-- Channel 0's coordinates (the x axis of the table). -/
theorem pay4_apply (v9 : Vec Ideal S1x3x8x128 .f32) (r : Fin 8) (l : Fin 128) :
    k0_pay4 v9 (ix2 r l) = coord (v9 (ix4 0 0 r l)) := by
  unfold k0_pay4
  refine (shapeCast_1ab_ab_apply _ _ r l).trans ?_
  refine (extractStridedSlice_apply _ _ _ _ (ix3 (0 : Fin 3) r l) (fun ax => ?_)).trans (pay3_apply v9 0 r l)
  match ax with
  | ⟨0, _⟩ => rfl
  | ⟨1, _⟩ => exact (Nat.zero_add _).symm
  | ⟨2, _⟩ => exact (Nat.zero_add _).symm

/-- Channel 1's coordinates (the y axis). -/
theorem pay5_apply (v9 : Vec Ideal S1x3x8x128 .f32) (r : Fin 8) (l : Fin 128) :
    k0_pay5 v9 (ix2 r l) = coord (v9 (ix4 0 1 r l)) := by
  unfold k0_pay5
  refine (shapeCast_1ab_ab_apply _ _ r l).trans ?_
  refine (extractStridedSlice_apply _ _ _ _ (ix3 (1 : Fin 3) r l) (fun ax => ?_)).trans (pay3_apply v9 1 r l)
  match ax with
  | ⟨0, _⟩ => rfl
  | ⟨1, _⟩ => exact (Nat.zero_add _).symm
  | ⟨2, _⟩ => exact (Nat.zero_add _).symm

/-- Channel 2's coordinates (the z axis). -/
theorem pay6_apply (v9 : Vec Ideal S1x3x8x128 .f32) (r : Fin 8) (l : Fin 128) :
    k0_pay6 v9 (ix2 r l) = coord (v9 (ix4 0 2 r l)) := by
  unfold k0_pay6
  refine (shapeCast_1ab_ab_apply _ _ r l).trans ?_
  refine (extractStridedSlice_apply _ _ _ _ (ix3 (2 : Fin 3) r l) (fun ax => ?_)).trans (pay3_apply v9 2 r l)
  match ax with
  | ⟨0, _⟩ => rfl
  | ⟨1, _⟩ => exact (Nat.zero_add _).symm
  | ⟨2, _⟩ => exact (Nat.zero_add _).symm

/-- The x axis: distance from the lower node, the lower node, the upper node. -/
theorem pay8_apply (v9 : Vec Ideal S1x3x8x128 .f32) (r : Fin 8) (l : Fin 128) :
    k0_pay8 v9 (ix2 r l) = cellFrac (coord (v9 (ix4 0 0 r l))) := by
  rw [← pay4_apply v9 r l]; rfl

theorem pay9_apply (v9 : Vec Ideal S1x3x8x128 .f32) (r : Fin 8) (l : Fin 128) :
    k0_pay9 v9 (ix2 r l) = cellLo (coord (v9 (ix4 0 0 r l))) := by
  rw [← pay4_apply v9 r l]; rfl

theorem pay10_apply (v9 : Vec Ideal S1x3x8x128 .f32) (r : Fin 8) (l : Fin 128) :
    k0_pay10 v9 (ix2 r l) = cellHi (coord (v9 (ix4 0 0 r l))) := by
  rw [← pay4_apply v9 r l]; rfl

/-- The y axis: distance from the lower node, the lower node, and the node after it before the clamp. -/
theorem pay12_apply (v9 : Vec Ideal S1x3x8x128 .f32) (r : Fin 8) (l : Fin 128) :
    k0_pay12 v9 (ix2 r l) = cellFrac (coord (v9 (ix4 0 1 r l))) := by
  rw [← pay5_apply v9 r l]; rfl

theorem pay13_apply (v9 : Vec Ideal S1x3x8x128 .f32) (r : Fin 8) (l : Fin 128) :
    k0_pay13 v9 (ix2 r l) = cellLo (coord (v9 (ix4 0 1 r l))) := by
  rw [← pay5_apply v9 r l]; rfl

theorem pay14_apply (v9 : Vec Ideal S1x3x8x128 .f32) (r : Fin 8) (l : Fin 128) :
    k0_pay14 v9 (ix2 r l) = IntOp.addi (cellLo (coord (v9 (ix4 0 1 r l)))) 1#32 := by
  rw [← pay5_apply v9 r l]; rfl

/-- The z axis, from the channel-2 coordinates. -/
theorem pay16_apply (v22 : FVec Ideal S8x128 .f32) (r : Fin 8) (l : Fin 128) :
    k0_pay16 v22 (ix2 r l) = cellFrac (v22 (ix2 r l)) := rfl

theorem pay17_apply (v22 : FVec Ideal S8x128 .f32) (r : Fin 8) (l : Fin 128) :
    k0_pay17 v22 (ix2 r l) = cellLo (v22 (ix2 r l)) := rfl

theorem pay18_apply (v22 : FVec Ideal S8x128 .f32) (r : Fin 8) (l : Fin 128) :
    k0_pay18 v22 (ix2 r l) = cellHi (v22 (ix2 r l)) := rfl

/-! ## The three weight vectors -/

/-- The node number along the table axis: entry `(k, r, l)` of the counting vector is `k`. -/
theorem iota_at (k : Fin 33) (r : Fin 8) (l : Fin 128) :
    iota .tc S33x8x128 32 [0] Gen.iota_S33x8x128_d0_w32 (ix3 k r l) = BitVec.ofNat 32 k.val :=
  iota_single_apply .tc S33x8x128 32 0 Gen.iota_S33x8x128_d0_w32 (ix3 k r l)

/-- A per-pixel quantity spread over the 33 nodes reads the pixel's value at every node. -/
theorem spread_apply {α : Type} (v : S8x128.Idx → α) (h1 : S8x128.ShapeCasts S1x8x128) (h2 : S1x8x128.Broadcasts S33x8x128)
    (k : Fin 33) (r : Fin 8) (l : Fin 128) :
    broadcastTo S33x8x128 (shapeCast S1x8x128 v h1) h2 (ix3 k r l) = v (ix2 r l) := by
  refine (broadcastTo_apply _ h2 (ix3 k r l) (ix3 (0 : Fin 1) r l) (fun a => ?_)).trans (shapeCast_ab_1ab_apply v h1 0 r l)
  match a with
  | ⟨0, _⟩ => rfl
  | ⟨1, _⟩ => rfl
  | ⟨2, _⟩ => rfl

/-- The same through one more cast to the same shape. -/
theorem spread2_apply {α : Type} (v : S8x128.Idx → α) (h1 : S8x128.ShapeCasts S1x8x128) (h1' : S1x8x128.ShapeCasts S1x8x128)
    (h2 : S1x8x128.Broadcasts S33x8x128) (k : Fin 33) (r : Fin 8) (l : Fin 128) :
    broadcastTo S33x8x128 (shapeCast S1x8x128 (shapeCast S1x8x128 v h1) h1') h2 (ix3 k r l) = v (ix2 r l) := by
  rw [shapeCast_self]
  exact spread_apply v h1 h2 k r l

/-- A one-hot blend: weight `1 - f` at node `lo` plus weight `f` at node `hi`, read at node `k` of pixel `(r, l)`. -/
theorem pay19_apply (v2 : IVec S33x8x128 32) (v24 : FVec Ideal S8x128 .f32) (v29 v35 : IVec S8x128 32)
    (k : Fin 33) (r : Fin 8) (l : Fin 128) :
    k0_pay19 v2 v24 v29 v35 (ix3 k r l)
      = FloatOps.addf (Scalar.select (IntOp.cmpi .eq (v2 (ix3 k r l)) (v29 (ix2 r l))) (FloatOps.subf c1 (v24 (ix2 r l))) c0)
          (Scalar.select (IntOp.cmpi .eq (v2 (ix3 k r l)) (v35 (ix2 r l))) (v24 (ix2 r l)) c0) := by
  unfold k0_pay19
  simp only [addf, select, cmpi, spread_apply, spread2_apply]
  rfl

/-- The lower half of a one-hot blend. -/
theorem pay20_apply (v2 : IVec S33x8x128 32) (v37 : FVec Ideal S8x128 .f32) (v42 : IVec S8x128 32)
    (k : Fin 33) (r : Fin 8) (l : Fin 128) :
    k0_pay20 v2 v37 v42 (ix3 k r l)
      = Scalar.select (IntOp.cmpi .eq (v2 (ix3 k r l)) (v42 (ix2 r l))) (FloatOps.subf c1 (v37 (ix2 r l))) c0 := by
  unfold k0_pay20
  simp only [select, cmpi, spread_apply, spread2_apply]
  rfl

/-- The upper node's test, the node clamped to 0 … 32 first. -/
theorem pay21_apply (v2 : IVec S33x8x128 32) (v44 : IVec S8x128 32) (c : BitVec 32)
    (k : Fin 33) (r : Fin 8) (l : Fin 128) :
    k0_pay21 v2 v44 c (ix3 k r l)
      = IntOp.cmpi .eq (v2 (ix3 k r l)) (IntOp.minsi 32#32 (IntOp.maxsi c (v44 (ix2 r l)))) := by
  unfold k0_pay21
  simp only [cmpi, spread_apply]
  rfl

/-- The x-axis weight vector at node `k` of pixel `(r, l)`. -/
theorem wx_apply (v9 : Vec Ideal S1x3x8x128 .f32) (k : Fin 33) (r : Fin 8) (l : Fin 128) :
    k0_pay19 (iota .tc S33x8x128 32 [0] Gen.iota_S33x8x128_d0_w32) (k0_pay8 v9) (k0_pay9 v9) (k0_pay10 v9) (ix3 k r l)
      = weight (coord (v9 (ix4 0 0 r l))) (BitVec.ofNat 32 k.val) := by
  rw [pay19_apply, iota_at, pay8_apply, pay9_apply, pay10_apply]
  rfl

/-! ## The table's x axis contracted with the x weights -/

/-- Where the product reads its left factor: the row is the result's row … -/
theorem lhs_mm_0 (i : S3267x1024.Idx) (q : dot_S3267x33_S33x1024_S3267x1024_1_0_0_1_n_n.contr.Idx) :
    (dot_S3267x33_S33x1024_S3267x1024_1_0_0_1_n_n.lhsIdx i q 0).val = (i 0).val := by
  unfold DotDims.lhsIdx
  rw [dif_neg (show ¬(0 : Fin S3267x33.rank) ∈ dot_S3267x33_S33x1024_S3267x1024_1_0_0_1_n_n.lhsBatch by decide),
    dif_pos (show (0 : Fin S3267x33.rank) ∈ dot_S3267x33_S33x1024_S3267x1024_1_0_0_1_n_n.lhsNonContracting by decide)]
  rfl

/-- … and the column is the summed position. -/
theorem lhs_mm_1 (i : S3267x1024.Idx) (q : dot_S3267x33_S33x1024_S3267x1024_1_0_0_1_n_n.contr.Idx) :
    (dot_S3267x33_S33x1024_S3267x1024_1_0_0_1_n_n.lhsIdx i q 1).val = (q ⟨0, by decide⟩).val :=
  dot_S3267x33_S33x1024_S3267x1024_1_0_0_1_n_n.lhsIdx_val_of_single rfl i q

/-- Where it reads its right factor: the row is the summed position … -/
theorem rhs_mm_0 (i : S3267x1024.Idx) (q : dot_S3267x33_S33x1024_S3267x1024_1_0_0_1_n_n.contr.Idx) :
    (dot_S3267x33_S33x1024_S3267x1024_1_0_0_1_n_n.rhsIdx i q 0).val = (q ⟨0, by decide⟩).val :=
  dot_S3267x33_S33x1024_S3267x1024_1_0_0_1_n_n.rhsIdx_val_of_single rfl i q

/-- … and the column is the result's column. -/
theorem rhs_mm_1 (i : S3267x1024.Idx) (q : dot_S3267x33_S33x1024_S3267x1024_1_0_0_1_n_n.contr.Idx) :
    (dot_S3267x33_S33x1024_S3267x1024_1_0_0_1_n_n.rhsIdx i q 1).val = (i 1).val := by
  unfold DotDims.rhsIdx
  rw [dif_neg (show ¬(1 : Fin S33x1024.rank) ∈ dot_S3267x33_S33x1024_S3267x1024_1_0_0_1_n_n.rhsBatch by decide),
    dif_pos (show (1 : Fin S33x1024.rank) ∈ dot_S3267x33_S33x1024_S3267x1024_1_0_0_1_n_n.rhsNonContracting by decide)]
  rfl

/-- The matrix product from zero, at row `p` and column `q`: the sum over the 33 shared positions. -/
theorem mm_apply (A : FVec Ideal S3267x33 .f32) (B : FVec Ideal S33x1024 .f32) (p : Fin 3267) (q : Fin 1024) :
    matmul dot_S3267x33_S33x1024_S3267x1024_1_0_0_1_n_n none A B (constant (F := Ideal) S3267x1024 .f32 0x00000000#32) (ix2 p q)
      = ∑ x : Fin 33, A (ix2 p x) * B (ix2 x q) := by
  simp only [matmul]
  rw [Ideal.matmul_constant_zero_apply,
    ← Equiv.sum_comp (contrEquiv1 dot_S3267x33_S33x1024_S3267x1024_1_0_0_1_n_n 33 rfl rfl).symm]
  refine Finset.sum_congr rfl fun k _ => ?_
  have hk := contrEquiv1_symm_val dot_S3267x33_S33x1024_S3267x1024_1_0_0_1_n_n 33 rfl rfl k
  have el : dot_S3267x33_S33x1024_S3267x1024_1_0_0_1_n_n.lhsIdx (ix2 p q)
      ((contrEquiv1 dot_S3267x33_S33x1024_S3267x1024_1_0_0_1_n_n 33 rfl rfl).symm k) = ix2 p k := funext fun a => Fin.ext (by
    match a with
    | ⟨0, _⟩ => exact lhs_mm_0 _ _
    | ⟨1, _⟩ => exact (lhs_mm_1 _ _).trans hk)
  have er : dot_S3267x33_S33x1024_S3267x1024_1_0_0_1_n_n.rhsIdx (ix2 p q)
      ((contrEquiv1 dot_S3267x33_S33x1024_S3267x1024_1_0_0_1_n_n 33 rfl rfl).symm k) = ix2 k q := funext fun a => Fin.ext (by
    match a with
    | ⟨0, _⟩ => exact (rhs_mm_0 _ _).trans hk
    | ⟨1, _⟩ => exact rhs_mm_1 _ _)
  rw [el, er]

/-- The table laid out as a matrix: row `(c·33 + z)·33 + y`, column `x`. -/
theorem pay1_apply (lut : Vec Ideal S3x33x33x33 .f32) (c : Fin 3) (z y x : Fin 33) (p : Fin 3267)
    (hp : p.val = (c.val * 33 + z.val) * 33 + y.val) :
    k0_pay1 lut (ix2 p x) = lut (ix4 c z y x) := by
  unfold k0_pay1
  refine shapeCast_apply lut _ (ix2 p x) (ix4 c z y x) ?_
  rw [Shape.rowMajor_val_four, Shape.rowMajor_val_two]
  show ((c.val * 33 + z.val) * 33 + y.val) * 33 + x.val = p.val * 33 + x.val
  rw [hp]

/-- The x weights laid out as a matrix: row `x`, column `r·128 + l`. -/
theorem wflat_apply (v80 : FVec Ideal S33x8x128 .f32) (h : S33x8x128.ShapeCasts S33x1024) (x : Fin 33) (r : Fin 8) (l : Fin 128)
    (q : Fin 1024) (hq : q.val = r.val * 128 + l.val) :
    shapeCast S33x1024 v80 h (ix2 x q) = v80 (ix3 x r l) := by
  refine shapeCast_apply v80 h (ix2 x q) (ix3 x r l) ?_
  rw [Shape.rowMajor_val_three, Shape.rowMajor_val_two]
  show (x.val * 8 + r.val) * 128 + l.val = x.val * 1024 + q.val
  omega

/-- The contraction at `(c, z, y)` of pixel `(r, l)`: the table's row there against the x weights. -/
theorem pay22_apply (lut : Vec Ideal S3x33x33x33 .f32) (v80 : FVec Ideal S33x8x128 .f32)
    (c : Fin 3) (z y : Fin 33) (r : Fin 8) (l : Fin 128) :
    k0_pay22 (k0_pay1 lut) v80 (ix5 c z y r l) = ∑ x : Fin 33, lut (ix4 c z y x) * v80 (ix3 x r l) := by
  have hc := c.isLt
  have hz := z.isLt
  have hy := y.isLt
  have hr := r.isLt
  have hl := l.isLt
  unfold k0_pay22
  rw [shapeCast_self]
  refine (shapeCast_apply _ _ (ix5 c z y r l)
    (ix2 (⟨(c.val * 33 + z.val) * 33 + y.val, by omega⟩ : Fin 3267) (⟨r.val * 128 + l.val, by omega⟩ : Fin 1024)) ?_).trans ?_
  · rw [Shape.rowMajor_val_five, Shape.rowMajor_val_two]
    show ((c.val * 33 + z.val) * 33 + y.val) * 1024 + (r.val * 128 + l.val)
      = ((((c.val * 33 + z.val) * 33 + y.val) * 8 + r.val) * 128 + l.val)
    omega
  · refine (mm_apply _ _ _ _).trans (Finset.sum_congr rfl fun x _ => ?_)
    rw [pay1_apply lut c z y x _ rfl, wflat_apply v80 _ x r l _ rfl]

/-! ## The y and z axes: multiply by the weights and sum -/

/-- The y weights spread over channels and z nodes read the weight of node `y` at the pixel. -/
theorem spreadY_apply (v : FVec Ideal S33x8x128 .f32) (h1 : S33x8x128.ShapeCasts S1x1x33x8x128)
    (h2 : S1x1x33x8x128.Broadcasts S3x33x33x8x128) (c : Fin 3) (z y : Fin 33) (r : Fin 8) (l : Fin 128) :
    broadcastTo S3x33x33x8x128 (shapeCast S1x1x33x8x128 v h1) h2 (ix5 c z y r l) = v (ix3 y r l) := by
  refine (broadcastTo_apply _ h2 (ix5 c z y r l) (ix5 (0 : Fin 1) (0 : Fin 1) y r l) (fun a => ?_)).trans ?_
  · match a with
    | ⟨0, _⟩ => rfl
    | ⟨1, _⟩ => rfl
    | ⟨2, _⟩ => rfl
    | ⟨3, _⟩ => rfl
    | ⟨4, _⟩ => rfl
  · refine shapeCast_apply v h1 _ (ix3 y r l) ?_
    rw [Shape.rowMajor_val_five, Shape.rowMajor_val_three]
    show (y.val * 8 + r.val) * 128 + l.val = ((((0 * 1 + 0) * 33 + y.val) * 8 + r.val) * 128 + l.val)
    omega

/-- The z weights spread over channels read the weight of node `z` at the pixel. -/
theorem spreadZ_apply (v : FVec Ideal S33x8x128 .f32) (h1 : S33x8x128.ShapeCasts S1x33x8x128)
    (h2 : S1x33x8x128.Broadcasts S3x33x8x128) (c : Fin 3) (z : Fin 33) (r : Fin 8) (l : Fin 128) :
    broadcastTo S3x33x8x128 (shapeCast S1x33x8x128 v h1) h2 (ix4 c z r l) = v (ix3 z r l) := by
  refine (broadcastTo_apply _ h2 (ix4 c z r l) (ix4 (0 : Fin 1) z r l) (fun a => ?_)).trans
    (shapeCast_abc_1abc_apply v h1 0 z r l)
  match a with
  | ⟨0, _⟩ => rfl
  | ⟨1, _⟩ => rfl
  | ⟨2, _⟩ => rfl
  | ⟨3, _⟩ => rfl

/-- The sum over the y axis (axis 2 of five) at `(c, z, r, l)`. -/
theorem sumY_apply (src : FVec Ideal S3x33x33x8x128 .f32) (h : S3x33x33x8x128.Reduces [2] S3x33x8x128)
    (hφ : FKind.Formats .f32) (hacc : (0x00000000#32 : BitVec FTy.f32.bits) = FKind.add.neutral .f32 hφ)
    (c : Fin 3) (z : Fin 33) (r : Fin 8) (l : Fin 128) :
    multiReduction (F := Ideal) .add [2] S3x33x8x128 src 0x00000000#32 h hφ hacc (ix4 c z r l)
      = ∑ y : Fin 33, src (ix5 c z y r l) := by
  refine (Ideal.multiReduction_add_single src _ h hφ hacc (ix4 c z r l)).trans ?_
  show ∑ y : Fin 33, src (h.lift (ix4 c z r l) y) = _
  refine Finset.sum_congr rfl fun y _ => congrArg src (funext fun a => Fin.ext ?_)
  match a with
  | ⟨0, _⟩ => rfl
  | ⟨1, _⟩ => rfl
  | ⟨2, _⟩ => rfl
  | ⟨3, _⟩ => rfl
  | ⟨4, _⟩ => rfl

/-- The sum over the z axis (axis 1 of four) at `(c, r, l)`. -/
theorem sumZ_apply (src : FVec Ideal S3x33x8x128 .f32) (h : S3x33x8x128.Reduces [1] S3x8x128)
    (hφ : FKind.Formats .f32) (hacc : (0x00000000#32 : BitVec FTy.f32.bits) = FKind.add.neutral .f32 hφ)
    (c : Fin 3) (r : Fin 8) (l : Fin 128) :
    multiReduction (F := Ideal) .add [1] S3x8x128 src 0x00000000#32 h hφ hacc (ix3 c r l)
      = ∑ z : Fin 33, src (ix4 c z r l) := by
  refine (Ideal.multiReduction_add_single src _ h hφ hacc (ix3 c r l)).trans ?_
  show ∑ z : Fin 33, src (h.lift (ix3 c r l) z) = _
  refine Finset.sum_congr rfl fun z _ => congrArg src (funext fun a => Fin.ext ?_)
  match a with
  | ⟨0, _⟩ => rfl
  | ⟨1, _⟩ => rfl
  | ⟨2, _⟩ => rfl
  | ⟨3, _⟩ => rfl

/-- The last stage at channel `c` of pixel `(r, l)`: the contracted table times the y weights (the lower half `v90`
    plus the upper half selected by `v93`), summed over y, times the z weights, summed over z. -/
theorem pay23_apply (v2 : IVec S33x8x128 32) (v37 v50 : FVec Ideal S8x128 .f32) (v55 v61 : IVec S8x128 32)
    (v90 : FVec Ideal S33x8x128 .f32) (v93 : IVec S33x8x128 1) (v125 : Vec Ideal S3x33x33x8x128 .f32)
    (c : Fin 3) (r : Fin 8) (l : Fin 128) :
    k0_pay23 v2 v37 v50 v55 v61 v90 v93 v125 (ix3 c r l)
      = ∑ z : Fin 33, (∑ y : Fin 33, v125 (ix5 c z y r l)
            * FloatOps.addf (v90 (ix3 y r l)) (Scalar.select (v93 (ix3 y r l)) (v37 (ix2 r l)) c0))
          * FloatOps.addf (Scalar.select (IntOp.cmpi .eq (v2 (ix3 z r l)) (v55 (ix2 r l))) (FloatOps.subf c1 (v50 (ix2 r l))) c0)
              (Scalar.select (IntOp.cmpi .eq (v2 (ix3 z r l)) (v61 (ix2 r l))) (v50 (ix2 r l)) c0) := by
  unfold k0_pay23
  refine (sumZ_apply _ _ _ _ c r l).trans (Finset.sum_congr rfl fun z _ => ?_)
  refine (mulf_apply _ _ _).trans ?_
  refine congrArg₂ (· * ·) ((sumY_apply _ _ _ _ c z r l).trans (Finset.sum_congr rfl fun y _ => ?_)) ?_
  · refine (mulf_apply _ _ _).trans (congrArg (v125 (ix5 c z y r l) * ·) ?_)
    refine (spreadY_apply _ _ _ c z y r l).trans ?_
    simp only [addf, select, spread2_apply]
    rfl
  · refine (spreadZ_apply _ _ _ c z r l).trans ?_
    simp only [addf, select, cmpi, spread_apply, spread2_apply]
    rfl

/-! ## One trip's stored value -/

/-- The y-axis weight vector at node `k` of pixel `(r, l)`: the lower half plus the upper half, whose node is clamped
    where it is compared. -/
theorem wy_apply (v9 : Vec Ideal S1x3x8x128 .f32) (k : Fin 33) (r : Fin 8) (l : Fin 128) :
    FloatOps.addf
        (k0_pay20 (iota .tc S33x8x128 32 [0] Gen.iota_S33x8x128_d0_w32) (k0_pay12 v9) (k0_pay13 v9) (ix3 k r l))
        (Scalar.select (k0_pay21 (iota .tc S33x8x128 32 [0] Gen.iota_S33x8x128_d0_w32) (k0_pay14 v9) 0#32 (ix3 k r l))
          (k0_pay12 v9 (ix2 r l)) c0)
      = weight (coord (v9 (ix4 0 1 r l))) (BitVec.ofNat 32 k.val) := by
  rw [pay20_apply, pay21_apply, iota_at, pay12_apply, pay13_apply, pay14_apply]
  rfl

/-- The z-axis weight vector at node `k` of pixel `(r, l)`. -/
theorem wz_apply (v9 : Vec Ideal S1x3x8x128 .f32) (k : Fin 33) (r : Fin 8) (l : Fin 128) :
    FloatOps.addf
        (Scalar.select (IntOp.cmpi .eq (iota .tc S33x8x128 32 [0] Gen.iota_S33x8x128_d0_w32 (ix3 k r l))
          (k0_pay17 (k0_pay6 v9) (ix2 r l))) (FloatOps.subf c1 (k0_pay16 (k0_pay6 v9) (ix2 r l))) c0)
        (Scalar.select (IntOp.cmpi .eq (iota .tc S33x8x128 32 [0] Gen.iota_S33x8x128_d0_w32 (ix3 k r l))
          (k0_pay18 (k0_pay6 v9) (ix2 r l))) (k0_pay16 (k0_pay6 v9) (ix2 r l)) c0)
      = weight (coord (v9 (ix4 0 2 r l))) (BitVec.ofNat 32 k.val) := by
  rw [iota_at, pay16_apply, pay17_apply, pay18_apply, pay6_apply]
  rfl

/-- What one trip stores: the payload chain of the loop body, as a function of the table and the trip's chunk of the image block. -/
def tripVal {F : FTy → Type} [FloatOps F] (lut : Vec F S3x33x33x33 .f32) (v9 : Vec F S1x3x8x128 .f32) : FVec F S1x3x8x128 .f32 :=
  k0_pay2 (k0_pay23 (iota .tc S33x8x128 32 [0] Gen.iota_S33x8x128_d0_w32) (k0_pay12 v9) (k0_pay16 (k0_pay6 v9)) (k0_pay17 (k0_pay6 v9)) (k0_pay18 (k0_pay6 v9))
    (k0_pay20 (iota .tc S33x8x128 32 [0] Gen.iota_S33x8x128_d0_w32) (k0_pay12 v9) (k0_pay13 v9)) (k0_pay21 (iota .tc S33x8x128 32 [0] Gen.iota_S33x8x128_d0_w32) (k0_pay14 v9) 0#32)
    (k0_pay22 (k0_pay1 lut) (k0_pay19 (iota .tc S33x8x128 32 [0] Gen.iota_S33x8x128_d0_w32) (k0_pay8 v9) (k0_pay9 v9) (k0_pay10 v9))))

/-- One trip stores, at channel `c` of pixel `(r, l)` of its chunk, the table contracted with the pixel's three weight vectors. -/
theorem tripVal_apply (lut : Vec Ideal S3x33x33x33 .f32) (v9 : Vec Ideal S1x3x8x128 .f32) (c : Fin 3) (r : Fin 8) (l : Fin 128) :
    tripVal lut v9 (ValueIdx.ix4 0 c r l)
      = Cert.Trilinear.kval lut (v9 (ValueIdx.ix4 0 0 r l)) (v9 (ValueIdx.ix4 0 1 r l)) (v9 (ValueIdx.ix4 0 2 r l)) c := by
  unfold tripVal k0_pay2
  refine (shapeCast_abc_1abc_apply _ _ 0 c r l).trans ?_
  refine (pay23_apply _ _ _ _ _ _ _ _ c r l).trans ?_
  unfold Cert.Trilinear.kval
  refine Finset.sum_congr rfl fun z _ => congrArg₂ (· * ·)
    (Finset.sum_congr rfl fun y _ => congrArg₂ (· * ·) ?_ (wy_apply v9 y r l)) (wz_apply v9 z r l)
  exact (pay22_apply lut _ c z y r l).trans
    (Finset.sum_congr rfl fun x _ => congrArg (lut (ix4 c z y x) * ·) (wx_apply v9 x r l))

end Cert.KernelIdeal.KPay
end
-- ==== Proof.KBlockValue.lean ====
/-
  What the kernel's body leaves in its output block, read through the block.

  At grid point t = 135·b + q the table's staged block is the whole table and the image's staged block is rows
  8q … 8q+7 of the three channels of image b. The body's fifteen stores leave, at (0, ch, r, 128·k + l) of the output
  block, the table contracted with the three weight vectors of the pixel whose colour values are the image block's
  entries (0, 0 / 1 / 2, r, 128·k + l). That pixel is (b, 8q + r, 128k + l) of the image, and (0, ch, r, 128k + l) of
  the block is index (b, ch, 8q + r, 128k + l) of the result array: the block holds Trilinear.Gk of the two arrays,
  read through the block.
-/
import proofs.«419257_j71296457114367_4_alg».proof.Proof.KTrip
import proofs.«419257_j71296457114367_4_alg».proof.Proof.KPayload
import proofs.«419257_j71296457114367_4_alg».proof.Proof.Trilinear
import Idealize.ShloMosaic.Lib.Pipeline.Value
import Idealize.ShloMosaic.Lib.ValueIdx

set_option maxRecDepth 16384

noncomputable section

namespace Cert.KernelIdeal.KBlockValue

open Cert.KernelIdeal Cert.KernelIdeal.Gen Cert.KernelIdeal.KTrip
open Idealize.ShloMosaic Idealize.ShloMosaic.TcCoe Idealize.SL.Sem Idealize.ShloMosaic.ValueIdx

variable (m : (ℓ : Loc nD τ sig) → Buf (Elt Ideal) ℓ)

/-- The three index maps in closed form over the grid: the table's block never moves, the image's and the
    result's are (t / 135, 0, t % 135, 0). -/
theorem idx_closed : ∀ t : Fin cfg0.N,
    win0_0.index t = ![0, 0, 0, 0] ∧ win0_1.index t = ![t.val / 135, 0, t.val % 135, 0]
      ∧ win0_2.index t = ![t.val / 135, 0, t.val % 135, 0] :=
  (by decide +kernel : ∀ t : Fin grid0.N, _)

/-- The table's staged block is the table. -/
theorem lut_block (c : Dev nD) (t : Fin cfg0.N) : (iblk m c 0 t : Vec Ideal S3x33x33x33 .f32) = V m c main_arg0 := by
  funext y
  show V m c main_arg0 (((cfg0.win 0).blk t).view.emb y) = V m c main_arg0 y
  congr 1
  funext a; apply Fin.ext
  have e := (idx_closed t).1
  match a with
  | ⟨0, _⟩ => show win0_0.index t (0 : Fin 4) * 3 + 1 * (y 0).val = (y 0).val; rw [e]; simp
  | ⟨1, _⟩ => show win0_0.index t (1 : Fin 4) * 33 + 1 * (y 1).val = (y 1).val; rw [e]; simp
  | ⟨2, _⟩ => show win0_0.index t (2 : Fin 4) * 33 + 1 * (y 2).val = (y 2).val; rw [e]; simp
  | ⟨3, _⟩ => show win0_0.index t (3 : Fin 4) * 33 + 1 * (y 3).val = (y 3).val; rw [e]; simp

/-- An entry of the image's staged block is the image's entry at the block's offset. -/
theorem img_block (c : Dev nD) (t : Fin cfg0.N) (ch : Fin 3) (r : Fin 8) (w : Fin 1920) :
    (iblk m c 1 t : Vec Ideal S1x3x8x1920 .f32) (ix4 0 ch r w)
      = V m c main_arg1 (ix4 ⟨t.val / 135, by have := t.isLt; have h : cfg0.N = 540 := (by decide); omega⟩ ch ⟨(t.val % 135) * 8 + r.val, by omega⟩ w) := by
  show V m c main_arg1 (((cfg0.win 1).blk t).view.emb (ix4 0 ch r w)) = _
  congr 1
  funext a; apply Fin.ext
  have e := (idx_closed t).2.1
  match a with
  | ⟨0, _⟩ => show win0_1.index t (0 : Fin 4) * 1 + 1 * ((ix4 (0 : Fin 1) ch r w) 0).val = t.val / 135; rw [e]; simp [ix4]
  | ⟨1, _⟩ => show win0_1.index t (1 : Fin 4) * 3 + 1 * ((ix4 (0 : Fin 1) ch r w) 1).val = ch.val; rw [e]; simp [ix4]
  | ⟨2, _⟩ => show win0_1.index t (2 : Fin 4) * 8 + 1 * ((ix4 (0 : Fin 1) ch r w) 2).val = (t.val % 135) * 8 + r.val; rw [e]; simp [ix4]
  | ⟨3, _⟩ => show win0_1.index t (3 : Fin 4) * 1920 + 1 * ((ix4 (0 : Fin 1) ch r w) 3).val = w.val; rw [e]; simp [ix4]

/-- The result block's index (0, ch, r, w) at point t is the result array's index (t / 135, ch, 8·(t % 135) + r, w). -/
theorem out_emb (t : Fin cfg0.N) (ch : Fin 3) (r : Fin 8) (w : Fin 1920) :
    (((cfg0.win 2).blk t).view.emb (ix4 0 ch r w) : S4x3x1080x1920.Idx)
      = ix4 ⟨t.val / 135, by have := t.isLt; have h : cfg0.N = 540 := (by decide); omega⟩ ch ⟨(t.val % 135) * 8 + r.val, by omega⟩ w := by
  funext a; apply Fin.ext
  have e := (idx_closed t).2.2
  match a with
  | ⟨0, _⟩ => show win0_2.index t (0 : Fin 4) * 1 + 1 * ((ix4 (0 : Fin 1) ch r w) 0).val = t.val / 135; rw [e]; simp [ix4]
  | ⟨1, _⟩ => show win0_2.index t (1 : Fin 4) * 3 + 1 * ((ix4 (0 : Fin 1) ch r w) 1).val = ch.val; rw [e]; simp [ix4]
  | ⟨2, _⟩ => show win0_2.index t (2 : Fin 4) * 8 + 1 * ((ix4 (0 : Fin 1) ch r w) 2).val = (t.val % 135) * 8 + r.val; rw [e]; simp [ix4]
  | ⟨3, _⟩ => show win0_2.index t (3 : Fin 4) * 1920 + 1 * ((ix4 (0 : Fin 1) ch r w) 3).val = w.val; rw [e]; simp [ix4]

/-- The interpolated image at an index given by its four coordinates. -/
theorem Gk_ix4 (A0 : Cert.Trilinear.SLut.Idx → Ideal .f32) (A1 : Cert.Trilinear.SImg.Idx → Ideal .f32) (b : Fin 4) (ch : Fin 3) (h : Fin 1080) (w : Fin 1920) :
    Cert.Trilinear.Gk A0 A1 (ix4 b ch h w) = Cert.Trilinear.kval A0 (A1 (ix4 b 0 h w)) (A1 (ix4 b 1 h w)) (A1 (ix4 b 2 h w)) ch := rfl

/-- THE BLOCK: what the fifteen stores of the body leave in the output block at point t is the interpolated image of
    the table and the image as the region finds them, read through the result's block at t. -/
theorem out_block (c : Dev nD) (t : Fin cfg0.N) (j : S1x3x8x1920.Idx) :
    VO0_2.read (Elt Ideal) (VO0_2.writes (Elt Ideal) VO0_2.junk (pieces (F := Ideal) (iblk m c 0 t) (iblk m c 1 t) k0_t1_loop.trips)) j
      = Cert.Trilinear.Gk (V m c main_arg0) (V m c main_arg1) (((cfg0.win 2).blk t).view.emb j) := by
  obtain ⟨u, ch, r, w, rfl⟩ : ∃ (u : Fin 1) (ch : Fin 3) (r : Fin 8) (w : Fin 1920), j = ix4 u ch r w := ⟨j 0, j 1, j 2, j 3, eq_ix4 j⟩
  obtain rfl : u = 0 := Subsingleton.elim _ _
  have hk : w.val / 128 < k0_t1_loop.trips := by rw [trips_eq]; have := w.isLt; omega
  obtain ⟨k, l, rfl⟩ : ∃ (k : Fin k0_t1_loop.trips) (l : Fin 128), w = ⟨128 * k.val + l.val, col_lt k l⟩ :=
    ⟨⟨w.val / 128, hk⟩, ⟨w.val % 128, Nat.mod_lt _ (by norm_num)⟩, Fin.ext (by show w.val = 128 * (w.val / 128) + w.val % 128; omega)⟩
  rw [out0_apply]
  show KPay.tripVal _ _ _ = _
  rw [KPay.tripVal_apply, chunk_apply, chunk_apply, chunk_apply, img_block, img_block, img_block, lut_block, out_emb, Gk_ix4]

end Cert.KernelIdeal.KBlockValue

end
-- ==== Proof.KBlocks.lean ====
/-
  From blocks to the array, for the interpolation kernel.

  The grid has 4 × 135 points; point t = 135·b + q writes back block (b, 0, q, 0) of the result: rows 8q … 8q+7 of
  the three channels of image b. Each point's block holds the interpolated image Trilinear.Gk of the table and the
  image read through that block, and the 540 blocks cover the result array — index (b, ch, h, w) lies in the block of
  point 135·b + h / 8 — so after the run the result array IS Gk of the two argument arrays, which the run leaves
  unchanged.
-/
import proofs.«419257_j71296457114367_4_alg».proof.Proof.KValue
import proofs.«419257_j71296457114367_4_alg».proof.Proof.KBlockValue

set_option maxRecDepth 16384

noncomputable section

namespace Cert.KernelIdeal.KBlocks

open Cert.KernelIdeal Cert.KernelIdeal.Gen Cert.KernelIdeal.GenP Cert.KernelIdeal.KTrip Cert.KernelIdeal.KBlockValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- WHAT POINT t WRITES BACK is block t of the interpolated image of the two arrays as the region finds them. -/
theorem flushed_eq (c : Dev nD) (t : Fin cfg0.N) :
    (dats m 0 c).flushed 2 t
      = ((cfg0.win 2).blk t).view.read (Elt Ideal) (Cert.Trilinear.Gk (V m c main_arg0) (V m c main_arg1)) := by
  rw [ValueP.flushed2_A]
  funext j
  exact out_block m c t j

/-- An index of the result array is in point t's block iff each coordinate is in the block's range on its axis. -/
theorem mem_blk (t : Fin cfg0.N) (i : S4x3x1080x1920.Idx) :
    i ∈ ((cfg0.win 2).blk t).view.set ↔ ∀ a : Fin 4, win0_2.index t a * S1x3x8x1920.size a ≤ (i a).val
      ∧ (i a).val < win0_2.index t a * S1x3x8x1920.size a + S1x3x8x1920.size a := by
  show i ∈ ((View.whole main_v0).slice (win0_2.rect t)).set ↔ _
  rw [View.set_slice_whole, Rect.mem_set_unit]
  exact Iff.rfl

/-- Every index of the result array lies in the block of the point 135·(image) + (row / 8). -/
theorem cover (i : S4x3x1080x1920.Idx) :
    ∃ t : Fin cfg0.N, (cfg0.win 2).flush t = true ∧ i ∈ ((cfg0.win 2).blk t).view.set := by
  have h0 : (i 0).val < 4 := (i 0).isLt
  have h1 : (i 1).val < 3 := (i 1).isLt
  have h2 : (i 2).val < 1080 := (i 2).isLt
  have h3 : (i 3).val < 1920 := (i 3).isLt
  have hN : cfg0.N = 540 := by decide
  refine ⟨⟨(i 0).val * 135 + (i 2).val / 8, by rw [hN]; omega⟩, flush0_2 _, ?_⟩
  rw [mem_blk]
  have e := (idx_closed ⟨(i 0).val * 135 + (i 2).val / 8, by rw [hN]; omega⟩).2.2
  intro a
  match a with
  | ⟨0, _⟩ =>
    show win0_2.index _ (0 : Fin 4) * 1 ≤ (i 0).val ∧ (i 0).val < win0_2.index _ (0 : Fin 4) * 1 + 1
    rw [e]; show ((i 0).val * 135 + (i 2).val / 8) / 135 * 1 ≤ (i 0).val ∧ (i 0).val < ((i 0).val * 135 + (i 2).val / 8) / 135 * 1 + 1; omega
  | ⟨1, _⟩ =>
    show win0_2.index _ (1 : Fin 4) * 3 ≤ (i 1).val ∧ (i 1).val < win0_2.index _ (1 : Fin 4) * 3 + 3
    rw [e]; show 0 * 3 ≤ (i 1).val ∧ (i 1).val < 0 * 3 + 3; omega
  | ⟨2, _⟩ =>
    show win0_2.index _ (2 : Fin 4) * 8 ≤ (i 2).val ∧ (i 2).val < win0_2.index _ (2 : Fin 4) * 8 + 8
    rw [e]; show ((i 0).val * 135 + (i 2).val / 8) % 135 * 8 ≤ (i 2).val ∧ (i 2).val < ((i 0).val * 135 + (i 2).val / 8) % 135 * 8 + 8; omega
  | ⟨3, _⟩ =>
    show win0_2.index _ (3 : Fin 4) * 1920 ≤ (i 3).val ∧ (i 3).val < win0_2.index _ (3 : Fin 4) * 1920 + 1920
    rw [e]; show 0 * 1920 ≤ (i 3).val ∧ (i 3).val < 0 * 1920 + 1920; omega

/-- THE ARRAY after the run: the interpolated image of the argument arrays. -/
theorem final (c : Dev nD) :
    (dats m 0 c).arrAt 2 cfg0.N
      = Cert.Trilinear.Gk (m ((c : Thread nD τ).loc main_arg0)) (m ((c : Thread nD τ).loc main_arg1)) :=
  (dats m 0 c).arrAt_eq_of_cover 2 (Cert.Trilinear.Gk (V m c main_arg0) (V m c main_arg1)) (fun t _ => flushed_eq m c t) cover

/-- The frame run re-posted: the result array at the interpolated image of the arguments, the arguments unchanged. -/
theorem run : θ_run defs (onTc (τ := τ) (main (F := Ideal))) ⟨m, fun _ => 0, ρ⟩ fun r => ∀ c : Dev nD,
      r.2.mem ((c : Thread nD τ).loc main_v0)
        = Cert.Trilinear.Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.KBlocks

end
-- ==== Proof.RefStages.lean ====
/-
  The reference program's stages as pure functions of array values.

  The jnp reference interpolates in the flattened 3 × 35937 colour table: the image is scaled by 32 and
  clamped to [0, 32] (`pos`); each of its three channels (`chan`) gives, per pixel, a floor, a fractional
  part (`frac`), a lower node (`cell0`: the floor as a 32-bit integer, clamped to 0 … 32) and an upper node
  (`cell1`: the lower plus one, clamped again); three nodes make a flat index (z · 33 + y) · 33 + x
  (`flat`); `take` reads the table's three channels at a flat index (a negative index wrapped by 35937,
  the read replaced by the NaN pattern where the index is outside 0 … 35936); `wt` is the product of three
  per-axis weights spread over the three channels; `corner` is one table read times its weight, and
  `refTerm` the eight corners summed from the left, then transposed to the image's layout.

  Each function below is the composition of the program's operations for that stage, in the program's
  own order of operands, so that the program's result is `refTerm` of its two arguments by unfolding.
-/
import proofs.«419257_j71296457114367_4_alg».proof.ReferenceIdeal

noncomputable section

namespace Cert.ReferenceIdeal.RefValue

open Idealize.ShloMosaic Cert.ReferenceIdeal Facts₀ Facts

variable {F : FTy → Type} [FloatOps F] [Facts]

/-- The image scaled by 32 and clamped: min(32, max(0, img · 32)). -/
def pos (img : FVec F S4x3x1080x1920 .f32) : FVec F S4x3x1080x1920 .f32 :=
  minimumf (broadcastInDim S4x3x1080x1920 ![] bcast_S_S4x3x1080x1920 (constant S_ .f32 0x42000000#32))
    (maximumf (broadcastInDim S4x3x1080x1920 ![] bcast_S_S4x3x1080x1920 (constant S_ .f32 0x00000000#32))
      (mulf img (broadcastInDim S4x3x1080x1920 ![] bcast_S_S4x3x1080x1920 (constant S_ .f32 0x42000000#32))))

/-- Channel `k` of a [4, 3, 1080, 1920] array as a [4, 1080, 1920] array: the slice at offset
    [0, k, 0, 0], its unit axis dropped. -/
def chan (k : Nat) (h : S4x3x1080x1920.Slices ![0, k, 0, 0] S4x1x1080x1920) (p : FVec F S4x3x1080x1920 .f32) :
    FVec F S4x1080x1920 .f32 :=
  shapeCast S4x1080x1920 (extractStridedSlice S4x1x1080x1920 ![0, k, 0, 0] p h) shapeCasts_S4x1x1080x1920_S4x1080x1920

/-- The floor of a position. -/
def flo (x : FVec F S4x1080x1920 .f32) : FVec F S4x1080x1920 .f32 := Host.floor x

/-- The fractional part of a position: x − ⌊x⌋. -/
def frac (x : FVec F S4x1080x1920 .f32) : FVec F S4x1080x1920 .f32 := subf x (flo x)

/-- An integer array clamped to 0 … 32: min(32, max(0, v)). -/
def clamp32 (v : IVec S4x1080x1920 32) : IVec S4x1080x1920 32 :=
  minsi (broadcastInDim S4x1080x1920 ![] bcast_S_S4x1080x1920 (constantI S_ 32 32#32))
    (maxsi (broadcastInDim S4x1080x1920 ![] bcast_S_S4x1080x1920 (constantI S_ 32 0#32)) v)

/-- The lower node of a position: its floor as a 32-bit integer, clamped to 0 … 32. -/
def cell0 (x : FVec F S4x1080x1920 .f32) : IVec S4x1080x1920 32 := clamp32 (fptosi 32 (flo x))

/-- The upper node: the lower node plus one, clamped to 0 … 32. -/
def cell1 (i0 : IVec S4x1080x1920 32) : IVec S4x1080x1920 32 :=
  clamp32 (addi i0 (broadcastInDim S4x1080x1920 ![] bcast_S_S4x1080x1920 (constantI S_ 32 1#32)))

/-- The weight of the lower node: 1 − f. -/
def one1 (f : FVec F S4x1080x1920 .f32) : FVec F S4x1080x1920 .f32 :=
  subf (broadcastInDim S4x1080x1920 ![] bcast_S_S4x1080x1920 (constant S_ .f32 0x3F800000#32)) f

/-- The flat index of three nodes: (z · 33 + y) · 33 + x. -/
def flat (z y x : IVec S4x1080x1920 32) : IVec S4x1080x1920 32 :=
  addi (muli (addi (muli z (broadcastInDim S4x1080x1920 ![] bcast_S_S4x1080x1920 (constantI S_ 32 33#32))) y)
    (broadcastInDim S4x1080x1920 ![] bcast_S_S4x1080x1920 (constantI S_ 32 33#32))) x

/-- The colour table with its three node axes flattened into one of length 35937. -/
def lutFlat (lut : FVec F S3x33x33x33 .f32) : FVec F S3x35937 .f32 :=
  shapeCast S3x35937 lut shapeCasts_S3x33x33x33_S3x35937

/-- A flat index with a negative value wrapped once: idx + 35937 where idx < 0. -/
def wrapIdx (idx : IVec S4x1080x1920 32) : IVec S4x1080x1920 32 :=
  select (cmpi .slt idx (broadcastInDim S4x1080x1920 ![] bcast_S_S4x1080x1920 (constantI S_ 32 0#32)))
    (addi idx (broadcastInDim S4x1080x1920 ![] bcast_S_S4x1080x1920 (constantI S_ 32 35937#32))) idx

/-- The wrapped index as a column of one-element index vectors. -/
def idxCol (idx : IVec S4x1080x1920 32) : IVec S4x1080x1920x1 32 :=
  broadcastInDim S4x1080x1920x1 ![0, 1, 2] bcast_S4x1080x1920_S4x1080x1920x1_0_1_2 (wrapIdx idx)

/-- Where an index column lies in 0 … 35936: both comparisons, and-ed, reduced (by and, from true) over
    the unit axis. -/
def inRange (col : IVec S4x1080x1920x1 32) : IVec S4x1080x1920 1 :=
  Host.reduce IntOp.andi
    (andi (cmpi .sge col (broadcastInDim S4x1080x1920x1 ![] bcast_S_S4x1080x1920x1 (constantI S_ 32 0#32)))
      (cmpi .sle col (broadcastInDim S4x1080x1920x1 ![0, 1, 2, 3] bcast_S1x1x1x1_S4x1080x1920x1_0_1_2_3
        (broadcastInDim S1x1x1x1 ![3] bcast_S1_S1x1x1x1_3 (constantI S1 32 35936#32)))))
    (constantI S_ 1 1#1) reducesTo_S4x1080x1920x1_S4x1080x1920_d3 h_S_

/-- The table's three channels read at a flat index per pixel: the gather at the wrapped index where that
    index is in range, the NaN pattern elsewhere. -/
def take (lutflat : FVec F S3x35937 .f32) (idx : IVec S4x1080x1920 32) : FVec F S3x4x1080x1920 .f32 :=
  select (broadcastInDim S3x4x1080x1920 ![1, 2, 3] bcast_S4x1080x1920_S3x4x1080x1920_1_2_3 (inRange (idxCol idx)))
    (Host.gather gather_S3x35937_S4x1080x1920x1_S3x4x1080x1920_0_1_n_n_1_3_31 lutflat (idxCol idx))
    (broadcastInDim S3x4x1080x1920 ![] bcast_S_S3x4x1080x1920 (constant S_ .f32 0x7FC00000#32))

/-- The product of three per-axis weights, (a · b) · c, spread over the three channels. -/
def wt (a b c : FVec F S4x1080x1920 .f32) : FVec F S3x4x1080x1920 .f32 :=
  broadcastInDim S3x4x1080x1920 ![0, 1, 2, 3] bcast_S1x4x1080x1920_S3x4x1080x1920_0_1_2_3
    (broadcastInDim S1x4x1080x1920 ![1, 2, 3] bcast_S4x1080x1920_S1x4x1080x1920_1_2_3 (mulf (mulf a b) c))

/-- One corner: the table read at the nodes (z, y, x) times the weight (a · b) · c. -/
def corner (lutflat : FVec F S3x35937 .f32) (z y x : IVec S4x1080x1920 32) (a b c : FVec F S4x1080x1920 .f32) :
    FVec F S3x4x1080x1920 .f32 :=
  mulf (take lutflat (flat z y x)) (wt a b c)

/-- The eight corners over the per-axis nodes (lower `x0 y0 z0`, upper `x1 y1 z1`) and weights (upper
    `fx fy fz`, lower `gx gy gz`), summed from the left in the order (z, y, x) = (lo, lo, lo), (lo, lo, hi),
    (lo, hi, lo), (lo, hi, hi), (hi, lo, lo), (hi, lo, hi), (hi, hi, lo), (hi, hi, hi). -/
def corners (lutflat : FVec F S3x35937 .f32) (x0 x1 y0 y1 z0 z1 : IVec S4x1080x1920 32)
    (fx gx fy gy fz gz : FVec F S4x1080x1920 .f32) : FVec F S3x4x1080x1920 .f32 :=
  addf (addf (addf (addf (addf (addf (addf
    (corner lutflat z0 y0 x0 gz gy gx)
    (corner lutflat z0 y0 x1 gz gy fx))
    (corner lutflat z0 y1 x0 gz fy gx))
    (corner lutflat z0 y1 x1 gz fy fx))
    (corner lutflat z1 y0 x0 fz gy gx))
    (corner lutflat z1 y0 x1 fz gy fx))
    (corner lutflat z1 y1 x0 fz fy gx))
    (corner lutflat z1 y1 x1 fz fy fx)

/-- The corner sum from the three channel positions `x y z` (each a [4, 1080, 1920] array). -/
def blend (lutflat : FVec F S3x35937 .f32) (x y z : FVec F S4x1080x1920 .f32) : FVec F S3x4x1080x1920 .f32 :=
  corners lutflat (cell0 x) (cell1 (cell0 x)) (cell0 y) (cell1 (cell0 y)) (cell0 z) (cell1 (cell0 z))
    (frac x) (one1 (frac x)) (frac y) (one1 (frac y)) (frac z) (one1 (frac z))

/-- The reference's result from the table and the image: the corner sum of the three channels of the
    clamped positions, transposed from [3, 4, 1080, 1920] to [4, 3, 1080, 1920]. -/
def refTerm (lut : FVec F S3x33x33x33 .f32) (img : FVec F S4x3x1080x1920 .f32) : FVec F S4x3x1080x1920 .f32 :=
  transpose S4x3x1080x1920 [1, 0, 2, 3]
    (blend (lutFlat lut)
      (chan 0 slices_S4x3x1080x1920_S4x1x1080x1920_0_0_0_0 (pos img))
      (chan 1 slices_S4x3x1080x1920_S4x1x1080x1920_0_1_0_0 (pos img))
      (chan 2 slices_S4x3x1080x1920_S4x1x1080x1920_0_2_0_0 (pos img)))
    transposes_S3x4x1080x1920_S4x3x1080x1920_1_0_2_3

end Cert.ReferenceIdeal.RefValue

end
-- ==== Proof.RefOpsTable.lean ====
/-
  The reference program's operations in order, the calls of its outlined functions unfolded: each statement of a
  window of @main that is a call is replaced by the callee's statements, its arguments put for the parameters and
  the call's record of buffers for the callee's own (and so again for a call inside a callee). One list per window
  of @main, and their concatenation.
-/
import proofs.«419257_j71296457114367_4_alg».proof.ReferenceIdeal
import Idealize.ShloMosaic.Lib.StableHlo.Run

noncomputable section

namespace Cert.ReferenceIdeal.RefRun

open Cert.ReferenceIdeal Facts₀ Facts Idealize.ShloMosaic Idealize.ShloMosaic.TcCoe Idealize.SL.Sem Idealize.ShloMosaic.StableHlo

variable {F : FTy → Type} [FloatOps F] [Facts]

set_option maxHeartbeats 4000000 in
/-- The operations of window main_part0: 95 operations. -/
abbrev ops0 : List (HloOp τ sig (Elt F)) :=
  [ StableHlo.nullary main_cst (constant S_ .f32 0x42000000#32),
    StableHlo.unary main_cst main_v0 (broadcastInDim S4x3x1080x1920 ![] bcast_S_S4x3x1080x1920 : (⟨S_, .f32⟩ : BufTy).Contents (Elt F) → (⟨S4x3x1080x1920, .f32⟩ : BufTy).Contents (Elt F)),
    StableHlo.binary main_arg1 main_v0 main_v1 (mulf : (⟨S4x3x1080x1920, .f32⟩ : BufTy).Contents (Elt F) → (⟨S4x3x1080x1920, .f32⟩ : BufTy).Contents (Elt F) → (⟨S4x3x1080x1920, .f32⟩ : BufTy).Contents (Elt F)),
    StableHlo.nullary main_cst_0 (constant S_ .f32 0x00000000#32),
    StableHlo.nullary main_cst_1 (constant S_ .f32 0x42000000#32),
    -- @clip over the record main_call0: 6 statements
      StableHlo.unary main_cst_0 main_call0_v0 (id : (⟨S_, .f32⟩ : BufTy).Contents (Elt F) → (⟨S_, .f32⟩ : BufTy).Contents (Elt F)),
      StableHlo.unary main_call0_v0 main_call0_v1 (broadcastInDim S4x3x1080x1920 ![] bcast_S_S4x3x1080x1920 : (⟨S_, .f32⟩ : BufTy).Contents (Elt F) → (⟨S4x3x1080x1920, .f32⟩ : BufTy).Contents (Elt F)),
      StableHlo.binary main_call0_v1 main_v1 main_call0_v2 (maximumf : (⟨S4x3x1080x1920, .f32⟩ : BufTy).Contents (Elt F) → (⟨S4x3x1080x1920, .f32⟩ : BufTy).Contents (Elt F) → (⟨S4x3x1080x1920, .f32⟩ : BufTy).Contents (Elt F)),
      StableHlo.unary main_cst_1 main_call0_v3 (id : (⟨S_, .f32⟩ : BufTy).Contents (Elt F) → (⟨S_, .f32⟩ : BufTy).Contents (Elt F)),
      StableHlo.unary main_call0_v3 main_call0_v4 (broadcastInDim S4x3x1080x1920 ![] bcast_S_S4x3x1080x1920 : (⟨S_, .f32⟩ : BufTy).Contents (Elt F) → (⟨S4x3x1080x1920, .f32⟩ : BufTy).Contents (Elt F)),
      StableHlo.binary main_call0_v4 main_call0_v2 main_v2 (minimumf : (⟨S4x3x1080x1920, .f32⟩ : BufTy).Contents (Elt F) → (⟨S4x3x1080x1920, .f32⟩ : BufTy).Contents (Elt F) → (⟨S4x3x1080x1920, .f32⟩ : BufTy).Contents (Elt F)),
    StableHlo.unary main_v2 main_v3 ((extractStridedSlice S4x1x1080x1920 ![0, 0, 0, 0] · slices_S4x3x1080x1920_S4x1x1080x1920_0_0_0_0) : (⟨S4x3x1080x1920, .f32⟩ : BufTy).Contents (Elt F) → (⟨S4x1x1080x1920, .f32⟩ : BufTy).Contents (Elt F)),
    StableHlo.reshape main_v3 main_v4 rfl shapeCasts_S4x1x1080x1920_S4x1080x1920,
    StableHlo.unary main_v2 main_v5 ((extractStridedSlice S4x1x1080x1920 ![0, 1, 0, 0] · slices_S4x3x1080x1920_S4x1x1080x1920_0_1_0_0) : (⟨S4x3x1080x1920, .f32⟩ : BufTy).Contents (Elt F) → (⟨S4x1x1080x1920, .f32⟩ : BufTy).Contents (Elt F)),
    StableHlo.reshape main_v5 main_v6 rfl shapeCasts_S4x1x1080x1920_S4x1080x1920,
    StableHlo.unary main_v2 main_v7 ((extractStridedSlice S4x1x1080x1920 ![0, 2, 0, 0] · slices_S4x3x1080x1920_S4x1x1080x1920_0_2_0_0) : (⟨S4x3x1080x1920, .f32⟩ : BufTy).Contents (Elt F) → (⟨S4x1x1080x1920, .f32⟩ : BufTy).Contents (Elt F)),
    StableHlo.reshape main_v7 main_v8 rfl shapeCasts_S4x1x1080x1920_S4x1080x1920,
    StableHlo.unary main_v4 main_v9 (Host.floor : (⟨S4x1080x1920, .f32⟩ : BufTy).Contents (Elt F) → (⟨S4x1080x1920, .f32⟩ : BufTy).Contents (Elt F)),
    StableHlo.binary main_v4 main_v9 main_v10 (subf : (⟨S4x1080x1920, .f32⟩ : BufTy).Contents (Elt F) → (⟨S4x1080x1920, .f32⟩ : BufTy).Contents (Elt F) → (⟨S4x1080x1920, .f32⟩ : BufTy).Contents (Elt F)),
    StableHlo.unary main_v9 main_v11 (fptosi 32 : (⟨S4x1080x1920, .f32⟩ : BufTy).Contents (Elt F) → (⟨S4x1080x1920, .i32⟩ : BufTy).Contents (Elt F)),
    StableHlo.nullary main_c (constantI S_ 32 0#32),
    StableHlo.nullary main_c_2 (constantI S_ 32 32#32),
    -- @clip_0 over the record main_call1: 6 statements
      StableHlo.unary main_c main_call1_v0 (id : (⟨S_, .i32⟩ : BufTy).Contents (Elt F) → (⟨S_, .i32⟩ : BufTy).Contents (Elt F)),
      StableHlo.unary main_call1_v0 main_call1_v1 (broadcastInDim S4x1080x1920 ![] bcast_S_S4x1080x1920 : (⟨S_, .i32⟩ : BufTy).Contents (Elt F) → (⟨S4x1080x1920, .i32⟩ : BufTy).Contents (Elt F)),
      StableHlo.binary main_call1_v1 main_v11 main_call1_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_2 main_call1_v3 (id : (⟨S_, .i32⟩ : BufTy).Contents (Elt F) → (⟨S_, .i32⟩ : BufTy).Contents (Elt F)),
      StableHlo.unary main_call1_v3 main_call1_v4 (broadcastInDim S4x1080x1920 ![] bcast_S_S4x1080x1920 : (⟨S_, .i32⟩ : BufTy).Contents (Elt F) → (⟨S4x1080x1920, .i32⟩ : BufTy).Contents (Elt F)),
      StableHlo.binary main_call1_v4 main_call1_v2 main_v12 (minsi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_3 (constantI S_ 32 1#32),
    StableHlo.unary main_c_3 main_v13 (broadcastInDim S4x1080x1920 ![] bcast_S_S4x1080x1920 : (⟨S_, .i32⟩ : BufTy).Contents (Elt F) → (⟨S4x1080x1920, .i32⟩ : BufTy).Contents (Elt F)),
    StableHlo.binary main_v12 main_v13 main_v14 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_4 (constantI S_ 32 0#32),
    StableHlo.nullary main_c_5 (constantI S_ 32 32#32),
    -- @clip_0 over the record main_call2: 6 statements
      StableHlo.unary main_c_4 main_call2_v0 (id : (⟨S_, .i32⟩ : BufTy).Contents (Elt F) → (⟨S_, .i32⟩ : BufTy).Contents (Elt F)),
      StableHlo.unary main_call2_v0 main_call2_v1 (broadcastInDim S4x1080x1920 ![] bcast_S_S4x1080x1920 : (⟨S_, .i32⟩ : BufTy).Contents (Elt F) → (⟨S4x1080x1920, .i32⟩ : BufTy).Contents (Elt F)),
      StableHlo.binary main_call2_v1 main_v14 main_call2_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_5 main_call2_v3 (id : (⟨S_, .i32⟩ : BufTy).Contents (Elt F) → (⟨S_, .i32⟩ : BufTy).Contents (Elt F)),
      StableHlo.unary main_call2_v3 main_call2_v4 (broadcastInDim S4x1080x1920 ![] bcast_S_S4x1080x1920 : (⟨S_, .i32⟩ : BufTy).Contents (Elt F) → (⟨S4x1080x1920, .i32⟩ : BufTy).Contents (Elt F)),
      StableHlo.binary main_call2_v4 main_call2_v2 main_v15 (minsi : (⟨S4x1080x1920, .i32⟩ : BufTy).Contents (Elt F) → (⟨S4x1080x1920, .i32⟩ : BufTy).Contents (Elt F) → (⟨S4x1080x1920, .i32⟩ : BufTy).Contents (Elt F)),
    StableHlo.unary main_v6 main_v16 (Host.floor : (⟨S4x1080x1920, .f32⟩ : BufTy).Contents (Elt F) → (⟨S4x1080x1920, .f32⟩ : BufTy).Contents (Elt F)),
    StableHlo.binary main_v6 main_v16 main_v17 (subf : (⟨S4x1080x1920, .f32⟩ : BufTy).Contents (Elt F) → (⟨S4x1080x1920, .f32⟩ : BufTy).Contents (Elt F) → (⟨S4x1080x1920, .f32⟩ : BufTy).Contents (Elt F)),
    StableHlo.unary main_v16 main_v18 (fptosi 32 : (⟨S4x1080x1920, .f32⟩ : BufTy).Contents (Elt F) → (⟨S4x1080x1920, .i32⟩ : BufTy).Contents (Elt F)),
    StableHlo.nullary main_c_6 (constantI S_ 32 0#32),
    StableHlo.nullary main_c_7 (constantI S_ 32 32#32),
    -- @clip_0 over the record main_call3: 6 statements
      StableHlo.unary main_c_6 main_call3_v0 (id : (⟨S_, .i32⟩ : BufTy).Contents (Elt F) → (⟨S_, .i32⟩ : BufTy).Contents (Elt F)),
      StableHlo.unary main_call3_v0 main_call3_v1 (broadcastInDim S4x1080x1920 ![] bcast_S_S4x1080x1920 : (⟨S_, .i32⟩ : BufTy).Contents (Elt F) → (⟨S4x1080x1920, .i32⟩ : BufTy).Contents (Elt F)),
      StableHlo.binary main_call3_v1 main_v18 main_call3_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_7 main_call3_v3 (id : (⟨S_, .i32⟩ : BufTy).Contents (Elt F) → (⟨S_, .i32⟩ : BufTy).Contents (Elt F)),
      StableHlo.unary main_call3_v3 main_call3_v4 (broadcastInDim S4x1080x1920 ![] bcast_S_S4x1080x1920 : (⟨S_, .i32⟩ : BufTy).Contents (Elt F) → (⟨S4x1080x1920, .i32⟩ : BufTy).Contents (Elt F)),
      StableHlo.binary main_call3_v4 main_call3_v2 main_v19 (minsi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_8 (constantI S_ 32 1#32),
    StableHlo.unary main_c_8 main_v20 (broadcastInDim S4x1080x1920 ![] bcast_S_S4x1080x1920 : (⟨S_, .i32⟩ : BufTy).Contents (Elt F) → (⟨S4x1080x1920, .i32⟩ : BufTy).Contents (Elt F)),
    StableHlo.binary main_v19 main_v20 main_v21 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_9 (constantI S_ 32 0#32),
    StableHlo.nullary main_c_10 (constantI S_ 32 32#32),
    -- @clip_0 over the record main_call4: 6 statements
      StableHlo.unary main_c_9 main_call4_v0 (id : (⟨S_, .i32⟩ : BufTy).Contents (Elt F) → (⟨S_, .i32⟩ : BufTy).Contents (Elt F)),
      StableHlo.unary main_call4_v0 main_call4_v1 (broadcastInDim S4x1080x1920 ![] bcast_S_S4x1080x1920 : (⟨S_, .i32⟩ : BufTy).Contents (Elt F) → (⟨S4x1080x1920, .i32⟩ : BufTy).Contents (Elt F)),
      StableHlo.binary main_call4_v1 main_v21 main_call4_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_10 main_call4_v3 (id : (⟨S_, .i32⟩ : BufTy).Contents (Elt F) → (⟨S_, .i32⟩ : BufTy).Contents (Elt F)),
      StableHlo.unary main_call4_v3 main_call4_v4 (broadcastInDim S4x1080x1920 ![] bcast_S_S4x1080x1920 : (⟨S_, .i32⟩ : BufTy).Contents (Elt F) → (⟨S4x1080x1920, .i32⟩ : BufTy).Contents (Elt F)),
      StableHlo.binary main_call4_v4 main_call4_v2 main_v22 (minsi : (⟨S4x1080x1920, .i32⟩ : BufTy).Contents (Elt F) → (⟨S4x1080x1920, .i32⟩ : BufTy).Contents (Elt F) → (⟨S4x1080x1920, .i32⟩ : BufTy).Contents (Elt F)),
    StableHlo.unary main_v8 main_v23 (Host.floor : (⟨S4x1080x1920, .f32⟩ : BufTy).Contents (Elt F) → (⟨S4x1080x1920, .f32⟩ : BufTy).Contents (Elt F)),
    StableHlo.binary main_v8 main_v23 main_v24 (subf : (⟨S4x1080x1920, .f32⟩ : BufTy).Contents (Elt F) → (⟨S4x1080x1920, .f32⟩ : BufTy).Contents (Elt F) → (⟨S4x1080x1920, .f32⟩ : BufTy).Contents (Elt F)),
    StableHlo.unary main_v23 main_v25 (fptosi 32 : (⟨S4x1080x1920, .f32⟩ : BufTy).Contents (Elt F) → (⟨S4x1080x1920, .i32⟩ : BufTy).Contents (Elt F)),
    StableHlo.nullary main_c_11 (constantI S_ 32 0#32),
    StableHlo.nullary main_c_12 (constantI S_ 32 32#32),
    -- @clip_0 over the record main_call5: 6 statements
      StableHlo.unary main_c_11 main_call5_v0 (id : (⟨S_, .i32⟩ : BufTy).Contents (Elt F) → (⟨S_, .i32⟩ : BufTy).Contents (Elt F)),
      StableHlo.unary main_call5_v0 main_call5_v1 (broadcastInDim S4x1080x1920 ![] bcast_S_S4x1080x1920 : (⟨S_, .i32⟩ : BufTy).Contents (Elt F) → (⟨S4x1080x1920, .i32⟩ : BufTy).Contents (Elt F)),
      StableHlo.binary main_call5_v1 main_v25 main_call5_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_12 main_call5_v3 (id : (⟨S_, .i32⟩ : BufTy).Contents (Elt F) → (⟨S_, .i32⟩ : BufTy).Contents (Elt F)),
      StableHlo.unary main_call5_v3 main_call5_v4 (broadcastInDim S4x1080x1920 ![] bcast_S_S4x1080x1920 : (⟨S_, .i32⟩ : BufTy).Contents (Elt F) → (⟨S4x1080x1920, .i32⟩ : BufTy).Contents (Elt F)),
      StableHlo.binary main_call5_v4 main_call5_v2 main_v26 (minsi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_13 (constantI S_ 32 1#32),
    StableHlo.unary main_c_13 main_v27 (broadcastInDim S4x1080x1920 ![] bcast_S_S4x1080x1920 : (⟨S_, .i32⟩ : BufTy).Contents (Elt F) → (⟨S4x1080x1920, .i32⟩ : BufTy).Contents (Elt F)),
    StableHlo.binary main_v26 main_v27 main_v28 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_14 (constantI S_ 32 0#32),
    StableHlo.nullary main_c_15 (constantI S_ 32 32#32),
    -- @clip_0 over the record main_call6: 6 statements
      StableHlo.unary main_c_14 main_call6_v0 (id : (⟨S_, .i32⟩ : BufTy).Contents (Elt F) → (⟨S_, .i32⟩ : BufTy).Contents (Elt F)),
      StableHlo.unary main_call6_v0 main_call6_v1 (broadcastInDim S4x1080x1920 ![] bcast_S_S4x1080x1920 : (⟨S_, .i32⟩ : BufTy).Contents (Elt F) → (⟨S4x1080x1920, .i32⟩ : BufTy).Contents (Elt F)),
      StableHlo.binary main_call6_v1 main_v28 main_call6_v2 (maxsi : (⟨S4x1080x1920, .i32⟩ : BufTy).Contents (Elt F) → (⟨S4x1080x1920, .i32⟩ : BufTy).Contents (Elt F) → (⟨S4x1080x1920, .i32⟩ : BufTy).Contents (Elt F)),
      StableHlo.unary main_c_15 main_call6_v3 (id : (⟨S_, .i32⟩ : BufTy).Contents (Elt F) → (⟨S_, .i32⟩ : BufTy).Contents (Elt F)),
      StableHlo.unary main_call6_v3 main_call6_v4 (broadcastInDim S4x1080x1920 ![] bcast_S_S4x1080x1920 : (⟨S_, .i32⟩ : BufTy).Contents (Elt F) → (⟨S4x1080x1920, .i32⟩ : BufTy).Contents (Elt F)),
      StableHlo.binary main_call6_v4 main_call6_v2 main_v29 (minsi : (⟨S4x1080x1920, .i32⟩ : BufTy).Contents (Elt F) → (⟨S4x1080x1920, .i32⟩ : BufTy).Contents (Elt F) → (⟨S4x1080x1920, .i32⟩ : BufTy).Contents (Elt F)),
    StableHlo.reshape main_arg0 main_v30 rfl shapeCasts_S3x33x33x33_S3x35937,
    StableHlo.nullary main_cst_16 (constant S_ .f32 0x3F800000#32),
    StableHlo.unary main_cst_16 main_v31 (broadcastInDim S4x1080x1920 ![] bcast_S_S4x1080x1920 : (⟨S_, .f32⟩ : BufTy).Contents (Elt F) → (⟨S4x1080x1920, .f32⟩ : BufTy).Contents (Elt F)),
    StableHlo.binary main_v31 main_v10 main_v32 (subf : (⟨S4x1080x1920, .f32⟩ : BufTy).Contents (Elt F) → (⟨S4x1080x1920, .f32⟩ : BufTy).Contents (Elt F) → (⟨S4x1080x1920, .f32⟩ : BufTy).Contents (Elt F)),
    StableHlo.nullary main_cst_17 (constant S_ .f32 0x3F800000#32),
    StableHlo.unary main_cst_17 main_v33 (broadcastInDim S4x1080x1920 ![] bcast_S_S4x1080x1920 : (⟨S_, .f32⟩ : BufTy).Contents (Elt F) → (⟨S4x1080x1920, .f32⟩ : BufTy).Contents (Elt F)),
    StableHlo.binary main_v33 main_v17 main_v34 (subf : (⟨S4x1080x1920, .f32⟩ : BufTy).Contents (Elt F) → (⟨S4x1080x1920, .f32⟩ : BufTy).Contents (Elt F) → (⟨S4x1080x1920, .f32⟩ : BufTy).Contents (Elt F)),
    StableHlo.nullary main_cst_18 (constant S_ .f32 0x3F800000#32),
    StableHlo.unary main_cst_18 main_v35 (broadcastInDim S4x1080x1920 ![] bcast_S_S4x1080x1920 : (⟨S_, .f32⟩ : BufTy).Contents (Elt F) → (⟨S4x1080x1920, .f32⟩ : BufTy).Contents (Elt F)),
    StableHlo.binary main_v35 main_v24 main_v36 (subf : (⟨S4x1080x1920, .f32⟩ : BufTy).Contents (Elt F) → (⟨S4x1080x1920, .f32⟩ : BufTy).Contents (Elt F) → (⟨S4x1080x1920, .f32⟩ : BufTy).Contents (Elt F)),
    StableHlo.nullary main_c_19 (constantI S_ 32 33#32),
    StableHlo.unary main_c_19 main_v37 (broadcastInDim S4x1080x1920 ![] bcast_S_S4x1080x1920 : (⟨S_, .i32⟩ : BufTy).Contents (Elt F) → (⟨S4x1080x1920, .i32⟩ : BufTy).Contents (Elt F)) ]

set_option maxHeartbeats 4000000 in
/-- Piece 1 of 4 of window main_part1: 34 operations. -/
abbrev ops1a : List (HloOp τ sig (Elt F)) :=
  [ StableHlo.binary main_v26 main_v37 main_v38 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v38 main_v19 main_v39 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_20 (constantI S_ 32 33#32),
    StableHlo.unary main_c_20 main_v40 (broadcastInDim S4x1080x1920 ![] bcast_S_S4x1080x1920 : (⟨S_, .i32⟩ : BufTy).Contents (Elt F) → (⟨S4x1080x1920, .i32⟩ : BufTy).Contents (Elt F)),
    StableHlo.binary main_v39 main_v40 main_v41 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v41 main_v12 main_v42 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call7: 23 statements
      StableHlo.nullary main_call7_c (constantI S_ 32 0#32),
      StableHlo.unary main_call7_c main_call7_v0 (broadcastInDim S4x1080x1920 ![] bcast_S_S4x1080x1920 : (⟨S_, .i32⟩ : BufTy).Contents (Elt F) → (⟨S4x1080x1920, .i32⟩ : BufTy).Contents (Elt F)),
      StableHlo.binary main_v42 main_call7_v0 main_call7_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call7_c_0 (constantI S_ 32 35937#32),
      StableHlo.unary main_call7_c_0 main_call7_v2 (broadcastInDim S4x1080x1920 ![] bcast_S_S4x1080x1920 : (⟨S_, .i32⟩ : BufTy).Contents (Elt F) → (⟨S4x1080x1920, .i32⟩ : BufTy).Contents (Elt F)),
      StableHlo.binary main_v42 main_call7_v2 main_call7_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call7_call0: 1 statements
        StableHlo.ternary main_call7_v1 main_call7_v3 main_v42 main_call7_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call7_v4 main_call7_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call7_c_1 (constantI S1 32 35936#32),
      StableHlo.nullary main_call7_c_2 (constantI S_ 32 0#32),
      StableHlo.unary main_call7_c_2 main_call7_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call7_v5 main_call7_v6 main_call7_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call7_c_1 main_call7_v8 (broadcastInDim S1x1x1x1 ![3] bcast_S1_S1x1x1x1_3 : (⟨S1, .i32⟩ : BufTy).Contents (Elt F) → (⟨S1x1x1x1, .i32⟩ : BufTy).Contents (Elt F)),
      StableHlo.unary main_call7_v8 main_call7_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call7_v5 main_call7_v9 main_call7_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call7_v7 main_call7_v10 main_call7_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call7_c_3 (constantI S_ 1 1#1),
      StableHlo.binary main_call7_v11 main_call7_c_3 main_call7_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call7_v5 main_call7_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call7_v12 main_call7_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call7_cst (constant S_ .f32 0x7FC00000#32),
      StableHlo.unary main_call7_cst main_call7_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call7_v14 main_call7_v13 main_call7_v15 main_v43 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v36 main_v34 main_v44 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v44 main_v32 main_v45 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v45 main_v46 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v46 main_v47 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v43 main_v47 main_v48 (mulf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 2 of 4 of window main_part1: 37 operations. -/
abbrev ops1b : List (HloOp τ sig (Elt F)) :=
  [ StableHlo.nullary main_c_21 (constantI S_ 32 33#32),
    StableHlo.unary main_c_21 main_v49 (broadcastInDim S4x1080x1920 ![] bcast_S_S4x1080x1920 : (⟨S_, .i32⟩ : BufTy).Contents (Elt F) → (⟨S4x1080x1920, .i32⟩ : BufTy).Contents (Elt F)),
    StableHlo.binary main_v26 main_v49 main_v50 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v50 main_v19 main_v51 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_22 (constantI S_ 32 33#32),
    StableHlo.unary main_c_22 main_v52 (broadcastInDim S4x1080x1920 ![] bcast_S_S4x1080x1920 : (⟨S_, .i32⟩ : BufTy).Contents (Elt F) → (⟨S4x1080x1920, .i32⟩ : BufTy).Contents (Elt F)),
    StableHlo.binary main_v51 main_v52 main_v53 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v53 main_v15 main_v54 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call8: 23 statements
      StableHlo.nullary main_call8_c (constantI S_ 32 0#32),
      StableHlo.unary main_call8_c main_call8_v0 (broadcastInDim S4x1080x1920 ![] bcast_S_S4x1080x1920 : (⟨S_, .i32⟩ : BufTy).Contents (Elt F) → (⟨S4x1080x1920, .i32⟩ : BufTy).Contents (Elt F)),
      StableHlo.binary main_v54 main_call8_v0 main_call8_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call8_c_0 (constantI S_ 32 35937#32),
      StableHlo.unary main_call8_c_0 main_call8_v2 (broadcastInDim S4x1080x1920 ![] bcast_S_S4x1080x1920 : (⟨S_, .i32⟩ : BufTy).Contents (Elt F) → (⟨S4x1080x1920, .i32⟩ : BufTy).Contents (Elt F)),
      StableHlo.binary main_v54 main_call8_v2 main_call8_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call8_call0: 1 statements
        StableHlo.ternary main_call8_v1 main_call8_v3 main_v54 main_call8_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call8_v4 main_call8_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call8_c_1 (constantI S1 32 35936#32),
      StableHlo.nullary main_call8_c_2 (constantI S_ 32 0#32),
      StableHlo.unary main_call8_c_2 main_call8_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call8_v5 main_call8_v6 main_call8_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call8_c_1 main_call8_v8 (broadcastInDim S1x1x1x1 ![3] bcast_S1_S1x1x1x1_3 : (⟨S1, .i32⟩ : BufTy).Contents (Elt F) → (⟨S1x1x1x1, .i32⟩ : BufTy).Contents (Elt F)),
      StableHlo.unary main_call8_v8 main_call8_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call8_v5 main_call8_v9 main_call8_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call8_v7 main_call8_v10 main_call8_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call8_c_3 (constantI S_ 1 1#1),
      StableHlo.binary main_call8_v11 main_call8_c_3 main_call8_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call8_v5 main_call8_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call8_v12 main_call8_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call8_cst (constant S_ .f32 0x7FC00000#32),
      StableHlo.unary main_call8_cst main_call8_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call8_v14 main_call8_v13 main_call8_v15 main_v55 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v36 main_v34 main_v56 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v56 main_v10 main_v57 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v57 main_v58 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v58 main_v59 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v55 main_v59 main_v60 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v48 main_v60 main_v61 (addf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 3 of 4 of window main_part1: 37 operations. -/
abbrev ops1c : List (HloOp τ sig (Elt F)) :=
  [ StableHlo.nullary main_c_23 (constantI S_ 32 33#32),
    StableHlo.unary main_c_23 main_v62 (broadcastInDim S4x1080x1920 ![] bcast_S_S4x1080x1920 : (⟨S_, .i32⟩ : BufTy).Contents (Elt F) → (⟨S4x1080x1920, .i32⟩ : BufTy).Contents (Elt F)),
    StableHlo.binary main_v26 main_v62 main_v63 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v63 main_v22 main_v64 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_24 (constantI S_ 32 33#32),
    StableHlo.unary main_c_24 main_v65 (broadcastInDim S4x1080x1920 ![] bcast_S_S4x1080x1920 : (⟨S_, .i32⟩ : BufTy).Contents (Elt F) → (⟨S4x1080x1920, .i32⟩ : BufTy).Contents (Elt F)),
    StableHlo.binary main_v64 main_v65 main_v66 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v66 main_v12 main_v67 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call9: 23 statements
      StableHlo.nullary main_call9_c (constantI S_ 32 0#32),
      StableHlo.unary main_call9_c main_call9_v0 (broadcastInDim S4x1080x1920 ![] bcast_S_S4x1080x1920 : (⟨S_, .i32⟩ : BufTy).Contents (Elt F) → (⟨S4x1080x1920, .i32⟩ : BufTy).Contents (Elt F)),
      StableHlo.binary main_v67 main_call9_v0 main_call9_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call9_c_0 (constantI S_ 32 35937#32),
      StableHlo.unary main_call9_c_0 main_call9_v2 (broadcastInDim S4x1080x1920 ![] bcast_S_S4x1080x1920 : (⟨S_, .i32⟩ : BufTy).Contents (Elt F) → (⟨S4x1080x1920, .i32⟩ : BufTy).Contents (Elt F)),
      StableHlo.binary main_v67 main_call9_v2 main_call9_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call9_call0: 1 statements
        StableHlo.ternary main_call9_v1 main_call9_v3 main_v67 main_call9_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call9_v4 main_call9_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call9_c_1 (constantI S1 32 35936#32),
      StableHlo.nullary main_call9_c_2 (constantI S_ 32 0#32),
      StableHlo.unary main_call9_c_2 main_call9_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call9_v5 main_call9_v6 main_call9_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call9_c_1 main_call9_v8 (broadcastInDim S1x1x1x1 ![3] bcast_S1_S1x1x1x1_3 : (⟨S1, .i32⟩ : BufTy).Contents (Elt F) → (⟨S1x1x1x1, .i32⟩ : BufTy).Contents (Elt F)),
      StableHlo.unary main_call9_v8 main_call9_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call9_v5 main_call9_v9 main_call9_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call9_v7 main_call9_v10 main_call9_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call9_c_3 (constantI S_ 1 1#1),
      StableHlo.binary main_call9_v11 main_call9_c_3 main_call9_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call9_v5 main_call9_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call9_v12 main_call9_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call9_cst (constant S_ .f32 0x7FC00000#32),
      StableHlo.unary main_call9_cst main_call9_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call9_v14 main_call9_v13 main_call9_v15 main_v68 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v36 main_v17 main_v69 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v69 main_v32 main_v70 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v70 main_v71 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v71 main_v72 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v68 main_v72 main_v73 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v61 main_v73 main_v74 (addf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 4 of 4 of window main_part1: 40 operations. -/
abbrev ops1d : List (HloOp τ sig (Elt F)) :=
  [ StableHlo.nullary main_c_25 (constantI S_ 32 33#32),
    StableHlo.unary main_c_25 main_v75 (broadcastInDim S4x1080x1920 ![] bcast_S_S4x1080x1920 : (⟨S_, .i32⟩ : BufTy).Contents (Elt F) → (⟨S4x1080x1920, .i32⟩ : BufTy).Contents (Elt F)),
    StableHlo.binary main_v26 main_v75 main_v76 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v76 main_v22 main_v77 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_26 (constantI S_ 32 33#32),
    StableHlo.unary main_c_26 main_v78 (broadcastInDim S4x1080x1920 ![] bcast_S_S4x1080x1920 : (⟨S_, .i32⟩ : BufTy).Contents (Elt F) → (⟨S4x1080x1920, .i32⟩ : BufTy).Contents (Elt F)),
    StableHlo.binary main_v77 main_v78 main_v79 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v79 main_v15 main_v80 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call10: 23 statements
      StableHlo.nullary main_call10_c (constantI S_ 32 0#32),
      StableHlo.unary main_call10_c main_call10_v0 (broadcastInDim S4x1080x1920 ![] bcast_S_S4x1080x1920 : (⟨S_, .i32⟩ : BufTy).Contents (Elt F) → (⟨S4x1080x1920, .i32⟩ : BufTy).Contents (Elt F)),
      StableHlo.binary main_v80 main_call10_v0 main_call10_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call10_c_0 (constantI S_ 32 35937#32),
      StableHlo.unary main_call10_c_0 main_call10_v2 (broadcastInDim S4x1080x1920 ![] bcast_S_S4x1080x1920 : (⟨S_, .i32⟩ : BufTy).Contents (Elt F) → (⟨S4x1080x1920, .i32⟩ : BufTy).Contents (Elt F)),
      StableHlo.binary main_v80 main_call10_v2 main_call10_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call10_call0: 1 statements
        StableHlo.ternary main_call10_v1 main_call10_v3 main_v80 main_call10_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call10_v4 main_call10_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call10_c_1 (constantI S1 32 35936#32),
      StableHlo.nullary main_call10_c_2 (constantI S_ 32 0#32),
      StableHlo.unary main_call10_c_2 main_call10_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call10_v5 main_call10_v6 main_call10_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call10_c_1 main_call10_v8 (broadcastInDim S1x1x1x1 ![3] bcast_S1_S1x1x1x1_3 : (⟨S1, .i32⟩ : BufTy).Contents (Elt F) → (⟨S1x1x1x1, .i32⟩ : BufTy).Contents (Elt F)),
      StableHlo.unary main_call10_v8 main_call10_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call10_v5 main_call10_v9 main_call10_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call10_v7 main_call10_v10 main_call10_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call10_c_3 (constantI S_ 1 1#1),
      StableHlo.binary main_call10_v11 main_call10_c_3 main_call10_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call10_v5 main_call10_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call10_v12 main_call10_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call10_cst (constant S_ .f32 0x7FC00000#32),
      StableHlo.unary main_call10_cst main_call10_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call10_v14 main_call10_v13 main_call10_v15 main_v81 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v36 main_v17 main_v82 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v82 main_v10 main_v83 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v83 main_v84 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v84 main_v85 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v81 main_v85 main_v86 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v74 main_v86 main_v87 (addf : (⟨S3x4x1080x1920, .f32⟩ : BufTy).Contents (Elt F) → (⟨S3x4x1080x1920, .f32⟩ : BufTy).Contents (Elt F) → (⟨S3x4x1080x1920, .f32⟩ : BufTy).Contents (Elt F)),
    StableHlo.nullary main_c_27 (constantI S_ 32 33#32),
    StableHlo.unary main_c_27 main_v88 (broadcastInDim S4x1080x1920 ![] bcast_S_S4x1080x1920 : (⟨S_, .i32⟩ : BufTy).Contents (Elt F) → (⟨S4x1080x1920, .i32⟩ : BufTy).Contents (Elt F)),
    StableHlo.binary main_v29 main_v88 main_v89 (muli : (⟨S4x1080x1920, .i32⟩ : BufTy).Contents (Elt F) → (⟨S4x1080x1920, .i32⟩ : BufTy).Contents (Elt F) → (⟨S4x1080x1920, .i32⟩ : BufTy).Contents (Elt F)) ]

/-- The operations of window main_part1: its pieces in order. -/
abbrev ops1 : List (HloOp τ sig (Elt F)) := ops1a ++ ops1b ++ ops1c ++ ops1d

set_option maxHeartbeats 4000000 in
/-- Piece 1 of 4 of window main_part2: 34 operations. -/
abbrev ops2a : List (HloOp τ sig (Elt F)) :=
  [ StableHlo.binary main_v89 main_v19 main_v90 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_28 (constantI S_ 32 33#32),
    StableHlo.unary main_c_28 main_v91 (broadcastInDim S4x1080x1920 ![] bcast_S_S4x1080x1920 : (⟨S_, .i32⟩ : BufTy).Contents (Elt F) → (⟨S4x1080x1920, .i32⟩ : BufTy).Contents (Elt F)),
    StableHlo.binary main_v90 main_v91 main_v92 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v92 main_v12 main_v93 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call11: 23 statements
      StableHlo.nullary main_call11_c (constantI S_ 32 0#32),
      StableHlo.unary main_call11_c main_call11_v0 (broadcastInDim S4x1080x1920 ![] bcast_S_S4x1080x1920 : (⟨S_, .i32⟩ : BufTy).Contents (Elt F) → (⟨S4x1080x1920, .i32⟩ : BufTy).Contents (Elt F)),
      StableHlo.binary main_v93 main_call11_v0 main_call11_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call11_c_0 (constantI S_ 32 35937#32),
      StableHlo.unary main_call11_c_0 main_call11_v2 (broadcastInDim S4x1080x1920 ![] bcast_S_S4x1080x1920 : (⟨S_, .i32⟩ : BufTy).Contents (Elt F) → (⟨S4x1080x1920, .i32⟩ : BufTy).Contents (Elt F)),
      StableHlo.binary main_v93 main_call11_v2 main_call11_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call11_call0: 1 statements
        StableHlo.ternary main_call11_v1 main_call11_v3 main_v93 main_call11_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call11_v4 main_call11_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call11_c_1 (constantI S1 32 35936#32),
      StableHlo.nullary main_call11_c_2 (constantI S_ 32 0#32),
      StableHlo.unary main_call11_c_2 main_call11_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call11_v5 main_call11_v6 main_call11_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call11_c_1 main_call11_v8 (broadcastInDim S1x1x1x1 ![3] bcast_S1_S1x1x1x1_3 : (⟨S1, .i32⟩ : BufTy).Contents (Elt F) → (⟨S1x1x1x1, .i32⟩ : BufTy).Contents (Elt F)),
      StableHlo.unary main_call11_v8 main_call11_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call11_v5 main_call11_v9 main_call11_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call11_v7 main_call11_v10 main_call11_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call11_c_3 (constantI S_ 1 1#1),
      StableHlo.binary main_call11_v11 main_call11_c_3 main_call11_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call11_v5 main_call11_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call11_v12 main_call11_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call11_cst (constant S_ .f32 0x7FC00000#32),
      StableHlo.unary main_call11_cst main_call11_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call11_v14 main_call11_v13 main_call11_v15 main_v94 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v24 main_v34 main_v95 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v95 main_v32 main_v96 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v96 main_v97 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v97 main_v98 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v94 main_v98 main_v99 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v87 main_v99 main_v100 (addf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 2 of 4 of window main_part2: 37 operations. -/
abbrev ops2b : List (HloOp τ sig (Elt F)) :=
  [ StableHlo.nullary main_c_29 (constantI S_ 32 33#32),
    StableHlo.unary main_c_29 main_v101 (broadcastInDim S4x1080x1920 ![] bcast_S_S4x1080x1920 : (⟨S_, .i32⟩ : BufTy).Contents (Elt F) → (⟨S4x1080x1920, .i32⟩ : BufTy).Contents (Elt F)),
    StableHlo.binary main_v29 main_v101 main_v102 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v102 main_v19 main_v103 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_30 (constantI S_ 32 33#32),
    StableHlo.unary main_c_30 main_v104 (broadcastInDim S4x1080x1920 ![] bcast_S_S4x1080x1920 : (⟨S_, .i32⟩ : BufTy).Contents (Elt F) → (⟨S4x1080x1920, .i32⟩ : BufTy).Contents (Elt F)),
    StableHlo.binary main_v103 main_v104 main_v105 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v105 main_v15 main_v106 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call12: 23 statements
      StableHlo.nullary main_call12_c (constantI S_ 32 0#32),
      StableHlo.unary main_call12_c main_call12_v0 (broadcastInDim S4x1080x1920 ![] bcast_S_S4x1080x1920 : (⟨S_, .i32⟩ : BufTy).Contents (Elt F) → (⟨S4x1080x1920, .i32⟩ : BufTy).Contents (Elt F)),
      StableHlo.binary main_v106 main_call12_v0 main_call12_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call12_c_0 (constantI S_ 32 35937#32),
      StableHlo.unary main_call12_c_0 main_call12_v2 (broadcastInDim S4x1080x1920 ![] bcast_S_S4x1080x1920 : (⟨S_, .i32⟩ : BufTy).Contents (Elt F) → (⟨S4x1080x1920, .i32⟩ : BufTy).Contents (Elt F)),
      StableHlo.binary main_v106 main_call12_v2 main_call12_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call12_call0: 1 statements
        StableHlo.ternary main_call12_v1 main_call12_v3 main_v106 main_call12_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call12_v4 main_call12_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call12_c_1 (constantI S1 32 35936#32),
      StableHlo.nullary main_call12_c_2 (constantI S_ 32 0#32),
      StableHlo.unary main_call12_c_2 main_call12_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call12_v5 main_call12_v6 main_call12_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call12_c_1 main_call12_v8 (broadcastInDim S1x1x1x1 ![3] bcast_S1_S1x1x1x1_3 : (⟨S1, .i32⟩ : BufTy).Contents (Elt F) → (⟨S1x1x1x1, .i32⟩ : BufTy).Contents (Elt F)),
      StableHlo.unary main_call12_v8 main_call12_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call12_v5 main_call12_v9 main_call12_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call12_v7 main_call12_v10 main_call12_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call12_c_3 (constantI S_ 1 1#1),
      StableHlo.binary main_call12_v11 main_call12_c_3 main_call12_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call12_v5 main_call12_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call12_v12 main_call12_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call12_cst (constant S_ .f32 0x7FC00000#32),
      StableHlo.unary main_call12_cst main_call12_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call12_v14 main_call12_v13 main_call12_v15 main_v107 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v24 main_v34 main_v108 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v108 main_v10 main_v109 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v109 main_v110 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v110 main_v111 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v107 main_v111 main_v112 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v100 main_v112 main_v113 (addf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 3 of 4 of window main_part2: 37 operations. -/
abbrev ops2c : List (HloOp τ sig (Elt F)) :=
  [ StableHlo.nullary main_c_31 (constantI S_ 32 33#32),
    StableHlo.unary main_c_31 main_v114 (broadcastInDim S4x1080x1920 ![] bcast_S_S4x1080x1920 : (⟨S_, .i32⟩ : BufTy).Contents (Elt F) → (⟨S4x1080x1920, .i32⟩ : BufTy).Contents (Elt F)),
    StableHlo.binary main_v29 main_v114 main_v115 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v115 main_v22 main_v116 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_32 (constantI S_ 32 33#32),
    StableHlo.unary main_c_32 main_v117 (broadcastInDim S4x1080x1920 ![] bcast_S_S4x1080x1920 : (⟨S_, .i32⟩ : BufTy).Contents (Elt F) → (⟨S4x1080x1920, .i32⟩ : BufTy).Contents (Elt F)),
    StableHlo.binary main_v116 main_v117 main_v118 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v118 main_v12 main_v119 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call13: 23 statements
      StableHlo.nullary main_call13_c (constantI S_ 32 0#32),
      StableHlo.unary main_call13_c main_call13_v0 (broadcastInDim S4x1080x1920 ![] bcast_S_S4x1080x1920 : (⟨S_, .i32⟩ : BufTy).Contents (Elt F) → (⟨S4x1080x1920, .i32⟩ : BufTy).Contents (Elt F)),
      StableHlo.binary main_v119 main_call13_v0 main_call13_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call13_c_0 (constantI S_ 32 35937#32),
      StableHlo.unary main_call13_c_0 main_call13_v2 (broadcastInDim S4x1080x1920 ![] bcast_S_S4x1080x1920 : (⟨S_, .i32⟩ : BufTy).Contents (Elt F) → (⟨S4x1080x1920, .i32⟩ : BufTy).Contents (Elt F)),
      StableHlo.binary main_v119 main_call13_v2 main_call13_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call13_call0: 1 statements
        StableHlo.ternary main_call13_v1 main_call13_v3 main_v119 main_call13_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call13_v4 main_call13_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call13_c_1 (constantI S1 32 35936#32),
      StableHlo.nullary main_call13_c_2 (constantI S_ 32 0#32),
      StableHlo.unary main_call13_c_2 main_call13_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call13_v5 main_call13_v6 main_call13_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call13_c_1 main_call13_v8 (broadcastInDim S1x1x1x1 ![3] bcast_S1_S1x1x1x1_3 : (⟨S1, .i32⟩ : BufTy).Contents (Elt F) → (⟨S1x1x1x1, .i32⟩ : BufTy).Contents (Elt F)),
      StableHlo.unary main_call13_v8 main_call13_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call13_v5 main_call13_v9 main_call13_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call13_v7 main_call13_v10 main_call13_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call13_c_3 (constantI S_ 1 1#1),
      StableHlo.binary main_call13_v11 main_call13_c_3 main_call13_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call13_v5 main_call13_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call13_v12 main_call13_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call13_cst (constant S_ .f32 0x7FC00000#32),
      StableHlo.unary main_call13_cst main_call13_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call13_v14 main_call13_v13 main_call13_v15 main_v120 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v24 main_v17 main_v121 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v121 main_v32 main_v122 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v122 main_v123 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v123 main_v124 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v120 main_v124 main_v125 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v113 main_v125 main_v126 (addf : (⟨S3x4x1080x1920, .f32⟩ : BufTy).Contents (Elt F) → (⟨S3x4x1080x1920, .f32⟩ : BufTy).Contents (Elt F) → (⟨S3x4x1080x1920, .f32⟩ : BufTy).Contents (Elt F)) ]

set_option maxHeartbeats 4000000 in
/-- Piece 4 of 4 of window main_part2: 38 operations. -/
abbrev ops2d : List (HloOp τ sig (Elt F)) :=
  [ StableHlo.nullary main_c_33 (constantI S_ 32 33#32),
    StableHlo.unary main_c_33 main_v127 (broadcastInDim S4x1080x1920 ![] bcast_S_S4x1080x1920 : (⟨S_, .i32⟩ : BufTy).Contents (Elt F) → (⟨S4x1080x1920, .i32⟩ : BufTy).Contents (Elt F)),
    StableHlo.binary main_v29 main_v127 main_v128 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v128 main_v22 main_v129 (addi : (⟨S4x1080x1920, .i32⟩ : BufTy).Contents (Elt F) → (⟨S4x1080x1920, .i32⟩ : BufTy).Contents (Elt F) → (⟨S4x1080x1920, .i32⟩ : BufTy).Contents (Elt F)),
    StableHlo.nullary main_c_34 (constantI S_ 32 33#32),
    StableHlo.unary main_c_34 main_v130 (broadcastInDim S4x1080x1920 ![] bcast_S_S4x1080x1920 : (⟨S_, .i32⟩ : BufTy).Contents (Elt F) → (⟨S4x1080x1920, .i32⟩ : BufTy).Contents (Elt F)),
    StableHlo.binary main_v129 main_v130 main_v131 (muli : (⟨S4x1080x1920, .i32⟩ : BufTy).Contents (Elt F) → (⟨S4x1080x1920, .i32⟩ : BufTy).Contents (Elt F) → (⟨S4x1080x1920, .i32⟩ : BufTy).Contents (Elt F)),
    StableHlo.binary main_v131 main_v15 main_v132 (addi : (⟨S4x1080x1920, .i32⟩ : BufTy).Contents (Elt F) → (⟨S4x1080x1920, .i32⟩ : BufTy).Contents (Elt F) → (⟨S4x1080x1920, .i32⟩ : BufTy).Contents (Elt F)),
    -- @take over the record main_call14: 23 statements
      StableHlo.nullary main_call14_c (constantI S_ 32 0#32),
      StableHlo.unary main_call14_c main_call14_v0 (broadcastInDim S4x1080x1920 ![] bcast_S_S4x1080x1920 : (⟨S_, .i32⟩ : BufTy).Contents (Elt F) → (⟨S4x1080x1920, .i32⟩ : BufTy).Contents (Elt F)),
      StableHlo.binary main_v132 main_call14_v0 main_call14_v1 (cmpi .slt : (⟨S4x1080x1920, .i32⟩ : BufTy).Contents (Elt F) → (⟨S4x1080x1920, .i32⟩ : BufTy).Contents (Elt F) → (⟨S4x1080x1920, .i1⟩ : BufTy).Contents (Elt F)),
      StableHlo.nullary main_call14_c_0 (constantI S_ 32 35937#32),
      StableHlo.unary main_call14_c_0 main_call14_v2 (broadcastInDim S4x1080x1920 ![] bcast_S_S4x1080x1920 : (⟨S_, .i32⟩ : BufTy).Contents (Elt F) → (⟨S4x1080x1920, .i32⟩ : BufTy).Contents (Elt F)),
      StableHlo.binary main_v132 main_call14_v2 main_call14_v3 (addi : (⟨S4x1080x1920, .i32⟩ : BufTy).Contents (Elt F) → (⟨S4x1080x1920, .i32⟩ : BufTy).Contents (Elt F) → (⟨S4x1080x1920, .i32⟩ : BufTy).Contents (Elt F)),
      -- @where over the record main_call14_call0: 1 statements
        StableHlo.ternary main_call14_v1 main_call14_v3 main_v132 main_call14_v4 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
      StableHlo.unary main_call14_v4 main_call14_v5 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
      StableHlo.nullary main_call14_c_1 (constantI S1 32 35936#32),
      StableHlo.nullary main_call14_c_2 (constantI S_ 32 0#32),
      StableHlo.unary main_call14_c_2 main_call14_v6 (broadcastInDim S4x1080x1920x1 ![] bcast_S_S4x1080x1920x1 : (⟨S_, .i32⟩ : BufTy).Contents (Elt F) → (⟨S4x1080x1920x1, .i32⟩ : BufTy).Contents (Elt F)),
      StableHlo.binary main_call14_v5 main_call14_v6 main_call14_v7 (cmpi .sge : (⟨S4x1080x1920x1, .i32⟩ : BufTy).Contents (Elt F) → (⟨S4x1080x1920x1, .i32⟩ : BufTy).Contents (Elt F) → (⟨S4x1080x1920x1, .i1⟩ : BufTy).Contents (Elt F)),
      StableHlo.unary main_call14_c_1 main_call14_v8 (broadcastInDim S1x1x1x1 ![3] bcast_S1_S1x1x1x1_3 : (⟨S1, .i32⟩ : BufTy).Contents (Elt F) → (⟨S1x1x1x1, .i32⟩ : BufTy).Contents (Elt F)),
      StableHlo.unary main_call14_v8 main_call14_v9 (broadcastInDim S4x1080x1920x1 ![0, 1, 2, 3] bcast_S1x1x1x1_S4x1080x1920x1_0_1_2_3 : (⟨S1x1x1x1, .i32⟩ : BufTy).Contents (Elt F) → (⟨S4x1080x1920x1, .i32⟩ : BufTy).Contents (Elt F)),
      StableHlo.binary main_call14_v5 main_call14_v9 main_call14_v10 (cmpi .sle : (⟨S4x1080x1920x1, .i32⟩ : BufTy).Contents (Elt F) → (⟨S4x1080x1920x1, .i32⟩ : BufTy).Contents (Elt F) → (⟨S4x1080x1920x1, .i1⟩ : BufTy).Contents (Elt F)),
      StableHlo.binary main_call14_v7 main_call14_v10 main_call14_v11 (andi : (⟨S4x1080x1920x1, .i1⟩ : BufTy).Contents (Elt F) → (⟨S4x1080x1920x1, .i1⟩ : BufTy).Contents (Elt F) → (⟨S4x1080x1920x1, .i1⟩ : BufTy).Contents (Elt F)),
      StableHlo.nullary main_call14_c_3 (constantI S_ 1 1#1),
      StableHlo.binary main_call14_v11 main_call14_c_3 main_call14_v12 ((fun x v => Host.reduce IntOp.andi x v reducesTo_S4x1080x1920x1_S4x1080x1920_d3 h_S_) : (⟨S4x1080x1920x1, .i1⟩ : BufTy).Contents (Elt F) → (⟨S_, .i1⟩ : BufTy).Contents (Elt F) → (⟨S4x1080x1920, .i1⟩ : BufTy).Contents (Elt F)),
      StableHlo.binary main_v30 main_call14_v5 main_call14_v13 ((fun x i => Host.gather gather_S3x35937_S4x1080x1920x1_S3x4x1080x1920_0_1_n_n_1_3_31 x i) : (⟨S3x35937, .f32⟩ : BufTy).Contents (Elt F) → (⟨S4x1080x1920x1, .i32⟩ : BufTy).Contents (Elt F) → (⟨S3x4x1080x1920, .f32⟩ : BufTy).Contents (Elt F)),
      StableHlo.unary main_call14_v12 main_call14_v14 (broadcastInDim S3x4x1080x1920 ![1, 2, 3] bcast_S4x1080x1920_S3x4x1080x1920_1_2_3 : (⟨S4x1080x1920, .i1⟩ : BufTy).Contents (Elt F) → (⟨S3x4x1080x1920, .i1⟩ : BufTy).Contents (Elt F)),
      StableHlo.nullary main_call14_cst (constant S_ .f32 0x7FC00000#32),
      StableHlo.unary main_call14_cst main_call14_v15 (broadcastInDim S3x4x1080x1920 ![] bcast_S_S3x4x1080x1920 : (⟨S_, .f32⟩ : BufTy).Contents (Elt F) → (⟨S3x4x1080x1920, .f32⟩ : BufTy).Contents (Elt F)),
      StableHlo.ternary main_call14_v14 main_call14_v13 main_call14_v15 main_v133 (select : (⟨S3x4x1080x1920, .i1⟩ : BufTy).Contents (Elt F) → (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v24 main_v17 main_v134 (mulf : (⟨S4x1080x1920, .f32⟩ : BufTy).Contents (Elt F) → (⟨S4x1080x1920, .f32⟩ : BufTy).Contents (Elt F) → (⟨S4x1080x1920, .f32⟩ : BufTy).Contents (Elt F)),
    StableHlo.binary main_v134 main_v10 main_v135 (mulf : (⟨S4x1080x1920, .f32⟩ : BufTy).Contents (Elt F) → (⟨S4x1080x1920, .f32⟩ : BufTy).Contents (Elt F) → (⟨S4x1080x1920, .f32⟩ : BufTy).Contents (Elt F)),
    StableHlo.unary main_v135 main_v136 (broadcastInDim S1x4x1080x1920 ![1, 2, 3] bcast_S4x1080x1920_S1x4x1080x1920_1_2_3 : (⟨S4x1080x1920, .f32⟩ : BufTy).Contents (Elt F) → (⟨S1x4x1080x1920, .f32⟩ : BufTy).Contents (Elt F)),
    StableHlo.unary main_v136 main_v137 (broadcastInDim S3x4x1080x1920 ![0, 1, 2, 3] bcast_S1x4x1080x1920_S3x4x1080x1920_0_1_2_3 : (⟨S1x4x1080x1920, .f32⟩ : BufTy).Contents (Elt F) → (⟨S3x4x1080x1920, .f32⟩ : BufTy).Contents (Elt F)),
    StableHlo.binary main_v133 main_v137 main_v138 (mulf : (⟨S3x4x1080x1920, .f32⟩ : BufTy).Contents (Elt F) → (⟨S3x4x1080x1920, .f32⟩ : BufTy).Contents (Elt F) → (⟨S3x4x1080x1920, .f32⟩ : BufTy).Contents (Elt F)),
    StableHlo.binary main_v126 main_v138 main_v139 (addf : (⟨S3x4x1080x1920, .f32⟩ : BufTy).Contents (Elt F) → (⟨S3x4x1080x1920, .f32⟩ : BufTy).Contents (Elt F) → (⟨S3x4x1080x1920, .f32⟩ : BufTy).Contents (Elt F)),
    StableHlo.unary main_v139 main_v140 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)) ]

/-- The operations of window main_part2: its pieces in order. -/
abbrev ops2 : List (HloOp τ sig (Elt F)) := ops2a ++ ops2b ++ ops2c ++ ops2d

/-- All of @main's operations. -/
abbrev ops : List (HloOp τ sig (Elt F)) := ops0 ++ ops1 ++ ops2

end Cert.ReferenceIdeal.RefRun

end
-- ==== Proof.RefOps.lean ====
/-
  The reference program's run, as a straight line of operations.

  @main of the reference is, window by window, the sequence of its operations once the bodies of the outlined
  functions (the float clamp, the integer clamp, the table read and the select inside it) are put at their calls:
  the lists `ops0 ops1 ops2` and their concatenation `ops`. Every operation touches buffers of the TensorCore
  only and determines what it writes, and the program's signature scopes no buffer and no semaphore; so every
  weakly fair execution terminates, and each buffer ends at the fold of the operations' results over the launch
  contents.
-/
import proofs.«419257_j71296457114367_4_alg».proof.Proof.RefOpsTable

noncomputable section

namespace Cert.ReferenceIdeal.RefRun

open Cert.ReferenceIdeal Facts₀ Facts Idealize.ShloMosaic Idealize.ShloMosaic.TcCoe Idealize.SL.Sem Idealize.ShloMosaic.StableHlo

variable {F : FTy → Type} [FloatOps F] [Facts]

-- the two heavy host functions stay folded while two operation lists are compared
attribute [local irreducible] Host.reduce Host.gather

/-- The three windows of @main are straight lines: the functions' bodies unfolded at their calls, what is
    left is one chain of steps once the sequencing is reassociated. The listed operations of a callee are the plain
    builders over the literal buffers; the printed ones differ from them by transports along equations between equal
    buffer types, the identity, which the comparison step by step sees through. -/
theorem main_part0_eq (c : Dev nD) : main_part0 (F := F) c = seq ops0 := by
  simp only [main_part0, fn_clip.body, fn_clip_0.body, seq, bind_assoc, pure_bind]
  rfl

theorem main_part1_eq (c : Dev nD) : main_part1 (F := F) c = seq ops1 := by
  simp only [main_part1, fn_take.body, fn_where.body, ops1, ops1a, ops1b, ops1c, ops1d, List.cons_append, List.nil_append, seq, bind_assoc, pure_bind]
  rfl

theorem main_part2_eq (c : Dev nD) : main_part2 (F := F) c = seq ops2 := by
  simp only [main_part2, fn_take.body, fn_where.body, ops2, ops2a, ops2b, ops2c, ops2d, List.cons_append, List.nil_append, seq, bind_assoc, pure_bind]
  rfl

/-- @main is the straight line of all its operations: its three windows one after the other. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

section Fresh

variable {τ : Topo} {sig : RefSig} {Val : EltTy → Type} (x a b c y : Ref sig .tc)

/-- Each builder's operation determines everything it writes: it marks no buffer as of unknown contents. -/
theorem nullary_fresh (v : y.ty.Contents Val) (hy) : (nullary (τ := τ) y v hy).fresh = ∅ := rfl
theorem unary_fresh (f : x.ty.Contents Val → y.ty.Contents Val) (hx hy) : (unary (τ := τ) x y f hx hy).fresh = ∅ := rfl
theorem binary_fresh (f : a.ty.Contents Val → b.ty.Contents Val → y.ty.Contents Val) (ha hb hy) :
    (binary (τ := τ) a b y f ha hb hy).fresh = ∅ := rfl
theorem ternary_fresh (f : c.ty.Contents Val → a.ty.Contents Val → b.ty.Contents Val → y.ty.Contents Val) (hc ha hb hy) :
    (ternary (τ := τ) c a b y f hc ha hb hy).fresh = ∅ := rfl
theorem reshape_fresh (he hn hx hy) : (reshape (τ := τ) (Val := Val) x y he hn hx hy).fresh = ∅ := rfl

end Fresh

/-- Every operation of a window touches TensorCore references only: operation by operation, each by its
    builder's own fact. -/
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]

theorem ops0_fresh : (ops0 : List (HloOp τ sig (Elt F))).Forall fun op => op.fresh = ∅ := by
  simp only [ops0, List.Forall, nullary_fresh, unary_fresh, binary_fresh, ternary_fresh, reshape_fresh, and_self]

theorem ops1_sub : (ops1 : List (HloOp τ sig (Elt F))).Forall fun op => op.bufs ⊆ tcRefs τ sig := by
  simp only [ops1, ops1a, ops1b, ops1c, ops1d, List.cons_append, List.nil_append, List.Forall, nullary_bufs_sub, unary_bufs_sub, binary_bufs_sub, ternary_bufs_sub, reshape_bufs_sub, and_self]

theorem ops1_fresh : (ops1 : List (HloOp τ sig (Elt F))).Forall fun op => op.fresh = ∅ := by
  simp only [ops1, ops1a, ops1b, ops1c, ops1d, List.cons_append, List.nil_append, List.Forall, nullary_fresh, unary_fresh, binary_fresh, ternary_fresh, reshape_fresh, and_self]

theorem ops2_sub : (ops2 : List (HloOp τ sig (Elt F))).Forall fun op => op.bufs ⊆ tcRefs τ sig := by
  simp only [ops2, ops2a, ops2b, ops2c, ops2d, List.cons_append, List.nil_append, List.Forall, nullary_bufs_sub, unary_bufs_sub, binary_bufs_sub, ternary_bufs_sub, reshape_bufs_sub, and_self]

theorem ops2_fresh : (ops2 : List (HloOp τ sig (Elt F))).Forall fun op => op.fresh = ∅ := by
  simp only [ops2, ops2a, ops2b, ops2c, ops2d, List.cons_append, List.nil_append, List.Forall, nullary_fresh, unary_fresh, binary_fresh, ternary_fresh, reshape_fresh, and_self]

/-- What holds of every operation of each window holds of every operation of @main. -/
theorem forall_ops {p : HloOp τ sig (Elt F) → Prop} (h0 : (ops0 (F := F)).Forall p) (h1 : (ops1 (F := F)).Forall p)
    (h2 : (ops2 (F := F)).Forall p) : (ops (F := F)).Forall p :=
  List.forall_iff_forall_mem.mpr fun op h => by
    rcases List.mem_append.mp (show op ∈ (ops0 ++ ops1) ++ ops2 from h) with h | h
    · rcases List.mem_append.mp h with h | h
      · exact List.forall_iff_forall_mem.mp h0 op h
      · exact List.forall_iff_forall_mem.mp h1 op h
    · exact List.forall_iff_forall_mem.mp h2 op h

theorem ops_sub : (ops : List (HloOp τ sig (Elt F))).Forall fun op => op.bufs ⊆ tcRefs τ sig :=
  forall_ops ops0_sub ops1_sub ops2_sub

theorem ops_fresh : (ops : List (HloOp τ sig (Elt F))).Forall fun op => op.fresh = ∅ :=
  forall_ops ops0_fresh ops1_fresh ops2_fresh

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefRun.lean ====
/-
  What the reference program's run leaves in its result buffer: `RefValue.refTerm` of the two arguments.

  The run's final contents are the fold of the operations' results over the launch contents (RefOps.lean). The
  fold is read window by window: after the first window the per-axis fractions, nodes and lower weights and
  the flattened table are the stage functions of the arguments; after the second the first four corners are
  summed; after the third all eight are, and transposed. Composing the three readings gives the result as
  `refTerm` of the arguments' contents, and the arguments themselves are written by no operation.
-/
import proofs.«419257_j71296457114367_4_alg».proof.Proof.RefStages
import proofs.«419257_j71296457114367_4_alg».proof.Proof.RefOps

noncomputable section

namespace Cert.ReferenceIdeal.RefRun

open Cert.ReferenceIdeal Facts₀ Facts Idealize.ShloMosaic Idealize.ShloMosaic.TcCoe Idealize.SL.Sem Idealize.ShloMosaic.StableHlo
open Cert.ReferenceIdeal.RefValue

variable {F : FTy → Type} [FloatOps F] [Facts]

/-- The fold over two lists one after the other is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after ops2 (after ops1 (after ops0 V)) := by
  show after ((ops0 ++ ops1) ++ ops2) V = _
  rw [after_app (ops0 ++ ops1) ops2, after_app ops0 ops1]

attribute [local irreducible] Host.reduce Host.gather

/-- The three channels of the clamped positions of an image: the positions along the table's x, y and z axes. -/
abbrev posX (img : FVec F S4x3x1080x1920 .f32) : FVec F S4x1080x1920 .f32 := chan 0 slices_S4x3x1080x1920_S4x1x1080x1920_0_0_0_0 (pos img)
abbrev posY (img : FVec F S4x3x1080x1920 .f32) : FVec F S4x1080x1920 .f32 := chan 1 slices_S4x3x1080x1920_S4x1x1080x1920_0_1_0_0 (pos img)
abbrev posZ (img : FVec F S4x3x1080x1920 .f32) : FVec F S4x1080x1920 .f32 := chan 2 slices_S4x3x1080x1920_S4x1x1080x1920_0_2_0_0 (pos img)

/-! ## After the first window

The arguments are kept; the fractions, the nodes, the lower weights and the flattened table are the stage
functions of the arguments; one broadcast of the constant 33 is left for the second window's first product. -/

theorem w0_arg0 (V : Valuation τ sig (Elt F)) : after ops0 V (main_arg0 : DevRef τ sig) = V (main_arg0 : DevRef τ sig) := by
  after_results_simp

theorem w0_arg1 (V : Valuation τ sig (Elt F)) : after ops0 V (main_arg1 : DevRef τ sig) = V (main_arg1 : DevRef τ sig) := by
  after_results_simp

theorem w0_v10 (V : Valuation τ sig (Elt F)) : after ops0 V (main_v10 : DevRef τ sig)
    = frac (posX (V (main_arg1 : DevRef τ sig))) := by
  after_results_simp
  rfl

theorem w0_v12 (V : Valuation τ sig (Elt F)) : after ops0 V (main_v12 : DevRef τ sig)
    = cell0 (posX (V (main_arg1 : DevRef τ sig))) := by
  after_results_simp
  rfl

theorem w0_v15 (V : Valuation τ sig (Elt F)) : after ops0 V (main_v15 : DevRef τ sig)
    = cell1 (cell0 (posX (V (main_arg1 : DevRef τ sig)))) := by
  after_results_simp
  rfl

theorem w0_v17 (V : Valuation τ sig (Elt F)) : after ops0 V (main_v17 : DevRef τ sig)
    = frac (posY (V (main_arg1 : DevRef τ sig))) := by
  after_results_simp
  rfl

theorem w0_v19 (V : Valuation τ sig (Elt F)) : after ops0 V (main_v19 : DevRef τ sig)
    = cell0 (posY (V (main_arg1 : DevRef τ sig))) := by
  after_results_simp
  rfl

theorem w0_v22 (V : Valuation τ sig (Elt F)) : after ops0 V (main_v22 : DevRef τ sig)
    = cell1 (cell0 (posY (V (main_arg1 : DevRef τ sig)))) := by
  after_results_simp
  rfl

theorem w0_v24 (V : Valuation τ sig (Elt F)) : after ops0 V (main_v24 : DevRef τ sig)
    = frac (posZ (V (main_arg1 : DevRef τ sig))) := by
  after_results_simp
  rfl

theorem w0_v26 (V : Valuation τ sig (Elt F)) : after ops0 V (main_v26 : DevRef τ sig)
    = cell0 (posZ (V (main_arg1 : DevRef τ sig))) := by
  after_results_simp
  rfl

theorem w0_v29 (V : Valuation τ sig (Elt F)) : after ops0 V (main_v29 : DevRef τ sig)
    = cell1 (cell0 (posZ (V (main_arg1 : DevRef τ sig)))) := by
  after_results_simp
  rfl

theorem w0_v30 (V : Valuation τ sig (Elt F)) : after ops0 V (main_v30 : DevRef τ sig)
    = lutFlat (V (main_arg0 : DevRef τ sig)) := by
  after_results_simp
  rfl

theorem w0_v32 (V : Valuation τ sig (Elt F)) : after ops0 V (main_v32 : DevRef τ sig)
    = one1 (frac (posX (V (main_arg1 : DevRef τ sig)))) := by
  after_results_simp
  rfl

theorem w0_v34 (V : Valuation τ sig (Elt F)) : after ops0 V (main_v34 : DevRef τ sig)
    = one1 (frac (posY (V (main_arg1 : DevRef τ sig)))) := by
  after_results_simp
  rfl

theorem w0_v36 (V : Valuation τ sig (Elt F)) : after ops0 V (main_v36 : DevRef τ sig)
    = one1 (frac (posZ (V (main_arg1 : DevRef τ sig)))) := by
  after_results_simp
  rfl

theorem w0_v37 (V : Valuation τ sig (Elt F)) : after ops0 V (main_v37 : DevRef τ sig)
    = broadcastInDim S4x1080x1920 ![] bcast_S_S4x1080x1920 (constantI S_ 32 33#32) := by
  after_results_simp

/-! ## The buffers the later windows read and do not write

The arguments and what the first window computed per axis. Each piece of the second and third windows writes none of
them. -/

/-- The arguments, the fractions, the nodes, the flattened table and the lower weights. -/
abbrev live : List (Ref sig .tc) :=
  [main_arg0, main_arg1, main_v10, main_v12, main_v15, main_v17, main_v19, main_v22, main_v24, main_v26, main_v29, main_v30, main_v32, main_v34, main_v36]

/-- A piece keeps every buffer of `live`: buffer by buffer, none of the piece's operations writes it. -/
local macro "keeps_live" : tactic =>
  `(tactic| (intro r hr; simp only [live, List.mem_cons, List.mem_nil_iff, or_false] at hr; rcases hr with h | h | h | h | h | h | h | h | h | h | h | h | h | h | h; all_goals (subst h; after_results_simp)))

/-- Rewrites every read of a `live` buffer through a piece (or a window) to the read before it. -/
local macro "through" k:term : tactic => `(tactic| repeat (rw [$k:term] <;> try decide))

set_option maxHeartbeats 4000000 in
theorem keep1a (W : Valuation τ sig (Elt F)) : ∀ r ∈ live, after ops1a W (r : DevRef τ sig) = W (r : DevRef τ sig) := by
  keeps_live

set_option maxHeartbeats 4000000 in
theorem keep1b (W : Valuation τ sig (Elt F)) : ∀ r ∈ live, after ops1b W (r : DevRef τ sig) = W (r : DevRef τ sig) := by
  keeps_live

set_option maxHeartbeats 4000000 in
theorem keep1c (W : Valuation τ sig (Elt F)) : ∀ r ∈ live, after ops1c W (r : DevRef τ sig) = W (r : DevRef τ sig) := by
  keeps_live

set_option maxHeartbeats 4000000 in
theorem keep1d (W : Valuation τ sig (Elt F)) : ∀ r ∈ live, after ops1d W (r : DevRef τ sig) = W (r : DevRef τ sig) := by
  keeps_live

set_option maxHeartbeats 4000000 in
theorem keep2a (W : Valuation τ sig (Elt F)) : ∀ r ∈ live, after ops2a W (r : DevRef τ sig) = W (r : DevRef τ sig) := by
  keeps_live

set_option maxHeartbeats 4000000 in
theorem keep2b (W : Valuation τ sig (Elt F)) : ∀ r ∈ live, after ops2b W (r : DevRef τ sig) = W (r : DevRef τ sig) := by
  keeps_live

set_option maxHeartbeats 4000000 in
theorem keep2c (W : Valuation τ sig (Elt F)) : ∀ r ∈ live, after ops2c W (r : DevRef τ sig) = W (r : DevRef τ sig) := by
  keeps_live

set_option maxHeartbeats 4000000 in
theorem keep2d (W : Valuation τ sig (Elt F)) : ∀ r ∈ live, after ops2d W (r : DevRef τ sig) = W (r : DevRef τ sig) := by
  keeps_live

/-! ## The second window, piece by piece

Each piece adds one corner to the sum (the first piece starts it): the flat index of the corner's three nodes, the
table read there, the product of the three weights spread over the channels, their product. The first corner's flat
index uses the broadcast 33 the first window left; the last piece also multiplies the upper z node by 33. -/

theorem p1a_v48 (W : Valuation τ sig (Elt F)) : after ops1a W (main_v48 : DevRef τ sig)
    = (mulf (take (W (main_v30 : DevRef τ sig)) (addi (muli (addi (muli (W (main_v26 : DevRef τ sig)) (W (main_v37 : DevRef τ sig))) (W (main_v19 : DevRef τ sig))) (broadcastInDim S4x1080x1920 ![] bcast_S_S4x1080x1920 (constantI S_ 32 33#32))) (W (main_v12 : DevRef τ sig))))
          (wt (W (main_v36 : DevRef τ sig)) (W (main_v34 : DevRef τ sig)) (W (main_v32 : DevRef τ sig)))) := by
  after_results_simp
  rfl

theorem p1b_v61 (W : Valuation τ sig (Elt F)) : after ops1b W (main_v61 : DevRef τ sig)
    = addf (W (main_v48 : DevRef τ sig)) (corner (W (main_v30 : DevRef τ sig)) (W (main_v26 : DevRef τ sig)) (W (main_v19 : DevRef τ sig)) (W (main_v15 : DevRef τ sig)) (W (main_v36 : DevRef τ sig)) (W (main_v34 : DevRef τ sig)) (W (main_v10 : DevRef τ sig))) := by
  after_results_simp
  rfl

theorem p1c_v74 (W : Valuation τ sig (Elt F)) : after ops1c W (main_v74 : DevRef τ sig)
    = addf (W (main_v61 : DevRef τ sig)) (corner (W (main_v30 : DevRef τ sig)) (W (main_v26 : DevRef τ sig)) (W (main_v22 : DevRef τ sig)) (W (main_v12 : DevRef τ sig)) (W (main_v36 : DevRef τ sig)) (W (main_v17 : DevRef τ sig)) (W (main_v32 : DevRef τ sig))) := by
  after_results_simp
  rfl

theorem p1d_v87 (W : Valuation τ sig (Elt F)) : after ops1d W (main_v87 : DevRef τ sig)
    = addf (W (main_v74 : DevRef τ sig)) (corner (W (main_v30 : DevRef τ sig)) (W (main_v26 : DevRef τ sig)) (W (main_v22 : DevRef τ sig)) (W (main_v15 : DevRef τ sig)) (W (main_v36 : DevRef τ sig)) (W (main_v17 : DevRef τ sig)) (W (main_v10 : DevRef τ sig))) := by
  after_results_simp
  rfl

theorem p1d_v89 (W : Valuation τ sig (Elt F)) : after ops1d W (main_v89 : DevRef τ sig) = muli (W (main_v29 : DevRef τ sig)) (broadcastInDim S4x1080x1920 ![] bcast_S_S4x1080x1920 (constantI S_ 32 33#32)) := by
  after_results_simp

theorem after_ops1 (W : Valuation τ sig (Elt F)) : after ops1 W = after ops1d (after ops1c (after ops1b (after ops1a W))) := by
  rw [ops1, after_app, after_app, after_app]

/-- The second window keeps every buffer of `live`. -/
theorem w1_keep (W : Valuation τ sig (Elt F)) : ∀ r ∈ live, after ops1 W (r : DevRef τ sig) = W (r : DevRef τ sig) := fun r hr => by
  rw [after_ops1, keep1d _ r hr, keep1c _ r hr, keep1b _ r hr, keep1a _ r hr]

theorem w1_v89 (W : Valuation τ sig (Elt F)) : after ops1 W (main_v89 : DevRef τ sig) = muli (W (main_v29 : DevRef τ sig)) (broadcastInDim S4x1080x1920 ![] bcast_S_S4x1080x1920 (constantI S_ 32 33#32)) := by
  rw [after_ops1, p1d_v89]
  through keep1c
  through keep1b
  through keep1a

/-- After the second window the first four corners are summed. -/
theorem w1_v87 (W : Valuation τ sig (Elt F)) : after ops1 W (main_v87 : DevRef τ sig)
    = addf (addf (addf
        (mulf (take (W (main_v30 : DevRef τ sig)) (addi (muli (addi (muli (W (main_v26 : DevRef τ sig)) (W (main_v37 : DevRef τ sig))) (W (main_v19 : DevRef τ sig))) (broadcastInDim S4x1080x1920 ![] bcast_S_S4x1080x1920 (constantI S_ 32 33#32))) (W (main_v12 : DevRef τ sig))))
          (wt (W (main_v36 : DevRef τ sig)) (W (main_v34 : DevRef τ sig)) (W (main_v32 : DevRef τ sig))))
        (corner (W (main_v30 : DevRef τ sig)) (W (main_v26 : DevRef τ sig)) (W (main_v19 : DevRef τ sig)) (W (main_v15 : DevRef τ sig)) (W (main_v36 : DevRef τ sig)) (W (main_v34 : DevRef τ sig)) (W (main_v10 : DevRef τ sig))))
        (corner (W (main_v30 : DevRef τ sig)) (W (main_v26 : DevRef τ sig)) (W (main_v22 : DevRef τ sig)) (W (main_v12 : DevRef τ sig)) (W (main_v36 : DevRef τ sig)) (W (main_v17 : DevRef τ sig)) (W (main_v32 : DevRef τ sig))))
        (corner (W (main_v30 : DevRef τ sig)) (W (main_v26 : DevRef τ sig)) (W (main_v22 : DevRef τ sig)) (W (main_v15 : DevRef τ sig)) (W (main_v36 : DevRef τ sig)) (W (main_v17 : DevRef τ sig)) (W (main_v10 : DevRef τ sig))) := by
  rw [after_ops1, p1d_v87, p1c_v74]
  through keep1c
  rw [p1b_v61]
  through keep1b
  rw [p1a_v48]
  through keep1a

/-! ## The third window, piece by piece

Each piece adds one corner (the fifth corner's flat index from the product the second window left); the last piece
transposes the sum. -/

theorem p2a_v100 (W : Valuation τ sig (Elt F)) : after ops2a W (main_v100 : DevRef τ sig)
    = addf (W (main_v87 : DevRef τ sig)) (mulf (take (W (main_v30 : DevRef τ sig)) (addi (muli (addi (W (main_v89 : DevRef τ sig)) (W (main_v19 : DevRef τ sig))) (broadcastInDim S4x1080x1920 ![] bcast_S_S4x1080x1920 (constantI S_ 32 33#32))) (W (main_v12 : DevRef τ sig))))
          (wt (W (main_v24 : DevRef τ sig)) (W (main_v34 : DevRef τ sig)) (W (main_v32 : DevRef τ sig)))) := by
  after_results_simp
  rfl

theorem p2b_v113 (W : Valuation τ sig (Elt F)) : after ops2b W (main_v113 : DevRef τ sig)
    = addf (W (main_v100 : DevRef τ sig)) (corner (W (main_v30 : DevRef τ sig)) (W (main_v29 : DevRef τ sig)) (W (main_v19 : DevRef τ sig)) (W (main_v15 : DevRef τ sig)) (W (main_v24 : DevRef τ sig)) (W (main_v34 : DevRef τ sig)) (W (main_v10 : DevRef τ sig))) := by
  after_results_simp
  rfl

theorem p2c_v126 (W : Valuation τ sig (Elt F)) : after ops2c W (main_v126 : DevRef τ sig)
    = addf (W (main_v113 : DevRef τ sig)) (corner (W (main_v30 : DevRef τ sig)) (W (main_v29 : DevRef τ sig)) (W (main_v22 : DevRef τ sig)) (W (main_v12 : DevRef τ sig)) (W (main_v24 : DevRef τ sig)) (W (main_v17 : DevRef τ sig)) (W (main_v32 : DevRef τ sig))) := by
  after_results_simp
  rfl

theorem p2d_v140 (W : Valuation τ sig (Elt F)) : after ops2d W (main_v140 : DevRef τ sig)
    = transpose S4x3x1080x1920 [1, 0, 2, 3] (addf (W (main_v126 : DevRef τ sig)) (corner (W (main_v30 : DevRef τ sig)) (W (main_v29 : DevRef τ sig)) (W (main_v22 : DevRef τ sig)) (W (main_v15 : DevRef τ sig)) (W (main_v24 : DevRef τ sig)) (W (main_v17 : DevRef τ sig)) (W (main_v10 : DevRef τ sig))))
        transposes_S3x4x1080x1920_S4x3x1080x1920_1_0_2_3 := by
  after_results_simp
  rfl

theorem after_ops2 (W : Valuation τ sig (Elt F)) : after ops2 W = after ops2d (after ops2c (after ops2b (after ops2a W))) := by
  rw [ops2, after_app, after_app, after_app]

/-- The third window keeps every buffer of `live`. -/
theorem w2_keep (W : Valuation τ sig (Elt F)) : ∀ r ∈ live, after ops2 W (r : DevRef τ sig) = W (r : DevRef τ sig) := fun r hr => by
  rw [after_ops2, keep2d _ r hr, keep2c _ r hr, keep2b _ r hr, keep2a _ r hr]

/-- After the third window all eight corners are summed and the sum is transposed. -/
theorem w2_v140 (W : Valuation τ sig (Elt F)) : after ops2 W (main_v140 : DevRef τ sig)
    = transpose S4x3x1080x1920 [1, 0, 2, 3] (addf (addf (addf (addf (W (main_v87 : DevRef τ sig))
        (mulf (take (W (main_v30 : DevRef τ sig)) (addi (muli (addi (W (main_v89 : DevRef τ sig)) (W (main_v19 : DevRef τ sig))) (broadcastInDim S4x1080x1920 ![] bcast_S_S4x1080x1920 (constantI S_ 32 33#32))) (W (main_v12 : DevRef τ sig))))
          (wt (W (main_v24 : DevRef τ sig)) (W (main_v34 : DevRef τ sig)) (W (main_v32 : DevRef τ sig)))))
        (corner (W (main_v30 : DevRef τ sig)) (W (main_v29 : DevRef τ sig)) (W (main_v19 : DevRef τ sig)) (W (main_v15 : DevRef τ sig)) (W (main_v24 : DevRef τ sig)) (W (main_v34 : DevRef τ sig)) (W (main_v10 : DevRef τ sig))))
        (corner (W (main_v30 : DevRef τ sig)) (W (main_v29 : DevRef τ sig)) (W (main_v22 : DevRef τ sig)) (W (main_v12 : DevRef τ sig)) (W (main_v24 : DevRef τ sig)) (W (main_v17 : DevRef τ sig)) (W (main_v32 : DevRef τ sig))))
        (corner (W (main_v30 : DevRef τ sig)) (W (main_v29 : DevRef τ sig)) (W (main_v22 : DevRef τ sig)) (W (main_v15 : DevRef τ sig)) (W (main_v24 : DevRef τ sig)) (W (main_v17 : DevRef τ sig)) (W (main_v10 : DevRef τ sig))))
      transposes_S3x4x1080x1920_S4x3x1080x1920_1_0_2_3 := by
  rw [after_ops2, p2d_v140, p2c_v126]
  through keep2c
  rw [p2b_v113]
  through keep2b
  rw [p2a_v100]
  through keep2a

/-! ## The whole run -/

/-- The arguments are written by no operation. -/
theorem arg0_eq (V : Valuation τ sig (Elt F)) : after ops V (main_arg0 : DevRef τ sig) = V (main_arg0 : DevRef τ sig) := by
  rw [after_ops, w2_keep _ main_arg0 (by decide), w1_keep _ main_arg0 (by decide), w0_arg0]

theorem arg1_eq (V : Valuation τ sig (Elt F)) : after ops V (main_arg1 : DevRef τ sig) = V (main_arg1 : DevRef τ sig) := by
  rw [after_ops, w2_keep _ main_arg1 (by decide), w1_keep _ main_arg1 (by decide), w0_arg1]

/-- The result buffer ends at `refTerm` of the arguments' contents: the third window's reading, in it the second's,
    in that the first's; what is left differs from `refTerm` by the folding of `corner` and `flat` only. -/
theorem result_eq (V : Valuation τ sig (Elt F)) : after ops V (main_v140 : DevRef τ sig)
    = refTerm (V (main_arg0 : DevRef τ sig)) (V (main_arg1 : DevRef τ sig)) := by
  rw [after_ops, w2_v140, w1_v87, w1_v89]
  through w1_keep
  rw [w0_v10, w0_v12, w0_v15, w0_v17, w0_v19, w0_v22, w0_v24, w0_v26, w0_v29, w0_v30, w0_v32, w0_v34, w0_v36, w0_v37]
  rfl

/-- On every device, for any float values, from any memory with zero counters: every weakly fair execution of
    @main terminates with the result at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140)
          = RefValue.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v140).trans (result_eq (launchContents m c)),
      (h c main_arg0).trans (arg0_eq (launchContents m c)),
      (h c main_arg1).trans (arg1_eq (launchContents m c))⟩)
    (run_main m ρ)

end Cert.ReferenceIdeal.RefRun

end
-- ==== Proof.RefRead.lean ====
/-
  The reference's result read at an index.

  The reference's stages (RefStages.lean) are whole-array functions. Read at one index (b, c, h, w) of the
  result, at the extended reals, they come down to the eight-corner interpolation of pixel (b, h, w):

  * the pointwise front end is definitional: the clamped position of a colour value is `coord`, its floor,
    fraction, lower and upper node and lower weight are `cellFrac`, `cellLo`, `cellHi`, `wLo` of that position;
  * channel k of the position array at (b, h, w) is the position array at (b, k, h, w) (a slice along the
    channel axis, then the unit axis dropped: the same row-major position);
  * the flattened table at (c, n) is the table at (c, z, y, x) for n = (z · 33 + y) · 33 + x;
  * three nodes at most 32 give the flat index (z · 33 + y) · 33 + x ≤ 35936 with no wrap of the 32-bit
    arithmetic; such an index is not negative, so the wrap by 35937 leaves it alone, both range comparisons
    hold, their conjunction reduced by and over the unit axis from 1 is 1, and the final select takes the
    gathered entry, never the NaN pattern;
  * the gather at (c, b, h, w) reads channel c of the flattened table at the start index of pixel (b, h, w),
    read signed and clamped into 0 … 35936: for an index in range, at the index itself;
  * the weight arrays, broadcast over a new leading axis and then over the three channels, read at
    (c, b, h, w) their value at (b, h, w); the transpose [1, 0, 2, 3] at (b, c, h, w) reads (c, b, h, w);
  * the eight corners are summed from the left in `rval`'s order, each weight (a · b) · c.

  `refTerm_eq_Gr`: the reference's result is `Trilinear.Gr` of the table and the image.
-/
import proofs.«419257_j71296457114367_4_alg».proof.Proof.RefStages
import proofs.«419257_j71296457114367_4_alg».proof.Proof.Trilinear
import proofs.«419257_j71296457114367_4_alg».proof.Proof.Gen.ReferenceIdeal
import Idealize.ShloMosaic.Lib.ValueIdx
import Idealize.ShloMosaic.Lib.Pipeline.Value
import Idealize.ShloMosaic.Lib.ValueLayout
import Idealize.ShloMosaic.Lib.WordArith
import Idealize.ShloMosaic.PureOps.Reduce

noncomputable section

namespace Cert.ReferenceIdeal.RefRead

open Idealize.ShloMosaic Idealize.ShloMosaic.ValueIdx Cert.ReferenceIdeal Cert.ReferenceIdeal.RefValue Facts₀ Facts

variable [Facts]

variable {α : Type}

/-! ## Words -/

/-- A word clamped to 0 … 32 (as a signed integer) has value at most 32. -/
theorem clamp_le (v : BitVec 32) : (IntOp.minsi 32#32 (IntOp.maxsi 0#32 v)).toNat ≤ 32 := by
  have h1 : (IntOp.maxsi 0#32 v).toNat < 2 ^ 31 := by
    rw [WordArith.toNat_maxsi_zero]
    have := BitVec.toInt_lt (x := v)
    omega
  rw [WordArith.toNat_minsi_of_lt _ _ (by decide) h1]
  exact Nat.min_le_left _ _

/-- Three nodes at most 32 give the flat index (z · 33 + y) · 33 + x without wrapping. -/
theorem flat_toNat (z y x : BitVec 32) (hz : z.toNat ≤ 32) (hy : y.toNat ≤ 32) (hx : x.toNat ≤ 32) :
    ((z * 33#32 + y) * 33#32 + x).toNat = (z.toNat * 33 + y.toNat) * 33 + x.toNat := by
  bv_omega

/-- A small word read as a signed integer is its value. -/
theorem toInt_toNat_small (v : BitVec 32) (hv : v.toNat ≤ 35936) : v.toInt.toNat = v.toNat := by
  rw [BitVec.toInt_eq_toNat_of_lt (by omega)]
  simp

/-- A small word is not negative: the wrap by 35937 leaves it alone. -/
theorem wrap_eq (v : BitVec 32) (hv : v.toNat ≤ 35936) :
    Scalar.select (IntOp.cmpi .slt v 0#32) (IntOp.addi v 35937#32) v = v := by
  have h : IntOp.cmpi .slt v 0#32 = 0#1 := by
    have h0 : ¬ ((v.toNat : ℤ) < 0) := by omega
    simp only [IntOp.cmpi, BitVec.slt, BitVec.toInt_eq_toNat_of_lt (show 2 * v.toNat < 2 ^ 32 by omega)]
    simp [h0]
  rw [h, select_zero]

/-- A word at most 35936 passes both range comparisons. -/
theorem inrange_eq (v : BitVec 32) (hv : v.toNat ≤ 35936) :
    IntOp.andi (IntOp.cmpi .sge v 0#32) (IntOp.cmpi .sle v 35936#32) = 1#1 := by
  have h1 : (0#32).sle v = true := by
    simp only [BitVec.sle, BitVec.toInt_eq_toNat_of_lt (show 2 * v.toNat < 2 ^ 32 by omega)]
    simp
  have h2 : v.sle 35936#32 = true := by
    simp only [BitVec.sle, BitVec.toInt_eq_toNat_of_lt (show 2 * v.toNat < 2 ^ 32 by omega)]
    simp
    omega
  simp only [IntOp.cmpi, IntOp.andi, h1, h2]
  decide

/-- A left fold by and, from 1, over words that are all 1, is 1. -/
theorem foldl_andi_one {ι : Type} (f : ι → BitVec 1) (hf : ∀ n, f n = 1#1) :
    ∀ (l : List ι), l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_one f hf l

/-- A reduction by and, from 1, of an array whose every entry is 1, is 1 at every result index. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-! ## The front end at a pixel: pointwise operations -/

theorem pos_apply (img : FVec Ideal S4x3x1080x1920 .f32) (i : S4x3x1080x1920.Idx) :
    pos img i = Cert.Trilinear.coord (img i) := rfl

theorem frac_apply (x : FVec Ideal S4x1080x1920 .f32) (i : S4x1080x1920.Idx) :
    frac x i = Cert.Trilinear.cellFrac (x i) := rfl

theorem cell0_apply (x : FVec Ideal S4x1080x1920 .f32) (i : S4x1080x1920.Idx) :
    cell0 x i = Cert.Trilinear.cellLo (x i) := rfl

theorem cell1_apply (x : FVec Ideal S4x1080x1920 .f32) (i : S4x1080x1920.Idx) :
    cell1 (cell0 x) i = Cert.Trilinear.cellHi (x i) := rfl

theorem one1_apply (x : FVec Ideal S4x1080x1920 .f32) (i : S4x1080x1920.Idx) :
    one1 (frac x) i = Cert.Trilinear.wLo (x i) := rfl

theorem flat_apply (z y x : IVec S4x1080x1920 32) (i : S4x1080x1920.Idx) :
    flat z y x i = (z i * 33#32 + y i) * 33#32 + x i := rfl

theorem cell0_le (x : FVec Ideal S4x1080x1920 .f32) (i : S4x1080x1920.Idx) : (cell0 x i).toNat ≤ 32 :=
  clamp_le _

theorem cell1_le (v : IVec S4x1080x1920 32) (i : S4x1080x1920.Idx) : (cell1 v i).toNat ≤ 32 :=
  clamp_le _

/-! ## Layout operations at a pixel -/

/-- Channel k of an array at a pixel. -/
theorem chan_apply (k : Nat) (hs : S4x3x1080x1920.Slices ![0, k, 0, 0] S4x1x1080x1920)
    (p : FVec Ideal S4x3x1080x1920 .f32) (b : Fin 4) (h : Fin 1080) (w : Fin 1920) (kk : Fin 3) (hk : kk.val = k) :
    chan k hs p (ix3 b h w) = p (ix4 b kk h w) := by
  unfold chan
  refine (shapeCast_apply _ shapeCasts_S4x1x1080x1920_S4x1080x1920 (ix3 b h w) (ix4 b (0 : Fin 1) h w) ?_).trans ?_
  · rw [Shape.rowMajor_val_four, Shape.rowMajor_val_three]
    show ((b.val * 1 + 0) * 1080 + h.val) * 1920 + w.val = (b.val * 1080 + h.val) * 1920 + w.val
    omega
  · exact slice4_axis1_apply k p hs b (0 : Fin 1) h w kk (by simp [hk])

/-- The flattened table at (c, n) is the table at the three nodes n splits into. -/
theorem lutFlat_apply (lut : FVec Ideal S3x33x33x33 .f32) (c : Fin 3) (n : Fin 35937) (z y x : Fin 33)
    (hn : n.val = (z.val * 33 + y.val) * 33 + x.val) :
    lutFlat lut (ix2 c n) = lut (ix4 c z y x) := by
  unfold lutFlat
  refine shapeCast_apply _ shapeCasts_S3x33x33x33_S3x35937 (ix2 c n) (ix4 c z y x) ?_
  rw [Shape.rowMajor_val_four, Shape.rowMajor_val_two]
  show ((c.val * 33 + z.val) * 33 + y.val) * 33 + x.val = c.val * 35937 + n.val
  omega

theorem idxCol_apply (idx : IVec S4x1080x1920 32) (b : Fin 4) (h : Fin 1080) (w : Fin 1920) (u : Fin 1) :
    idxCol idx (ix4 b h w u) = wrapIdx idx (ix3 b h w) := by
  unfold idxCol
  refine broadcastInDim_apply _ bcast_S4x1080x1920_S4x1080x1920x1_0_1_2 _ (ix4 b h w u) (ix3 b h w) (fun a => ?_)
  match a with
  | ⟨0, _⟩ => rfl
  | ⟨1, _⟩ => rfl
  | ⟨2, _⟩ => rfl

/-- The weight (a · b) · c, spread over the channels, at a pixel. -/
theorem wt_apply (a b c : FVec Ideal S4x1080x1920 .f32) (ch : Fin 3) (bb : Fin 4) (h : Fin 1080) (w : Fin 1920) :
    wt a b c (ix4 ch bb h w) = (a (ix3 bb h w) * b (ix3 bb h w)) * c (ix3 bb h w) := by
  unfold wt
  refine (broadcastInDim_apply _ bcast_S1x4x1080x1920_S3x4x1080x1920_0_1_2_3 _ (ix4 ch bb h w) (ix4 (0 : Fin 1) bb h w) (fun a => ?_)).trans ?_
  · match a with
    | ⟨0, _⟩ => rfl
    | ⟨1, _⟩ => rfl
    | ⟨2, _⟩ => rfl
    | ⟨3, _⟩ => rfl
  refine (broadcastInDim_apply _ bcast_S4x1080x1920_S1x4x1080x1920_1_2_3 _ (ix4 (0 : Fin 1) bb h w) (ix3 bb h w) (fun a => ?_)).trans ?_
  · match a with
    | ⟨0, _⟩ => rfl
    | ⟨1, _⟩ => rfl
    | ⟨2, _⟩ => rfl
  rfl

/-- The transpose [1, 0, 2, 3] at (b, c, h, w) is the operand at (c, b, h, w). -/
theorem transpose_apply' (x : S3x4x1080x1920.Idx → α) (b : Fin 4) (c : Fin 3) (h : Fin 1080) (w : Fin 1920) :
    transpose S4x3x1080x1920 [1, 0, 2, 3] x transposes_S3x4x1080x1920_S4x3x1080x1920_1_0_2_3 (ix4 b c h w) = x (ix4 c b h w) := by
  refine transpose_apply _ x _ (ix4 b c h w) (ix4 c b h w) (fun a => ?_)
  match a with
  | ⟨0, _⟩ => rfl
  | ⟨1, _⟩ => rfl
  | ⟨2, _⟩ => rfl
  | ⟨3, _⟩ => rfl

/-! ## The table read -/

/-- The gather at (c, b, h, w): the operand's channel c at the start index of pixel (b, h, w), read signed and
    clamped into 0 … 35936. -/
theorem gather_apply (x : S3x35937.Idx → α) (idx : IVec S4x1080x1920x1 32) (c : Fin 3) (b : Fin 4) (h : Fin 1080) (w : Fin 1920) :
    Host.gather gather_S3x35937_S4x1080x1920x1_S3x4x1080x1920_0_1_n_n_1_3_31 x idx (ix4 c b h w)
      = x (ix2 c ⟨min (idx (ix4 b h w (0 : Fin 1))).toInt.toNat 35936, by omega⟩) := by
  unfold Host.gather
  congr 1
  funext a
  refine Fin.ext ?_
  match a with
  | ⟨0, _⟩ =>
    show gather_S3x35937_S4x1080x1920x1_S3x4x1080x1920_0_1_n_n_1_3_31.start (ix4 c b h w) idx 0
      + gather_S3x35937_S4x1080x1920x1_S3x4x1080x1920_0_1_n_n_1_3_31.batchCoord (ix4 c b h w) 0
      + gather_S3x35937_S4x1080x1920x1_S3x4x1080x1920_0_1_n_n_1_3_31.offCoord (ix4 c b h w) 0 = c.val
    rw [GatherDims.batchCoord_eq_zero _ _ _ List.not_mem_nil]
    unfold GatherDims.start GatherDims.offCoord
    rw [dif_neg (by decide), dif_pos (by decide)]
    simp only [Nat.add_zero, Nat.zero_add]
    rfl
  | ⟨1, _⟩ =>
    show gather_S3x35937_S4x1080x1920x1_S3x4x1080x1920_0_1_n_n_1_3_31.start (ix4 c b h w) idx 1
      + gather_S3x35937_S4x1080x1920x1_S3x4x1080x1920_0_1_n_n_1_3_31.batchCoord (ix4 c b h w) 1
      + gather_S3x35937_S4x1080x1920x1_S3x4x1080x1920_0_1_n_n_1_3_31.offCoord (ix4 c b h w) 1 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ gather_S3x35937_S4x1080x1920x1_S3x4x1080x1920_0_1_n_n_1_3_31.startIndexMap from List.mem_singleton.mpr rfl)]
    have hsi : gather_S3x35937_S4x1080x1920x1_S3x4x1080x1920_0_1_n_n_1_3_31.siIdx (ix4 c b h w)
        ⟨List.idxOf (1 : Fin 2) gather_S3x35937_S4x1080x1920x1_S3x4x1080x1920_0_1_n_n_1_3_31.startIndexMap,
          List.idxOf_lt_length_iff.2 (List.mem_singleton.mpr rfl)⟩ = ix4 b h w (0 : Fin 1) := by
      funext e; refine Fin.ext ?_
      match e with
      | ⟨0, _⟩ => rfl
      | ⟨1, _⟩ => rfl
      | ⟨2, _⟩ => rfl
      | ⟨3, _⟩ => rfl
    rw [hsi]
    rfl

/-- An index that is in range everywhere is not wrapped. -/
theorem wrapIdx_apply (idx : IVec S4x1080x1920 32) (hidx : ∀ p, (idx p).toNat ≤ 35936) (p : S4x1080x1920.Idx) :
    wrapIdx idx p = idx p := by
  show Scalar.select (IntOp.cmpi .slt (idx p) 0#32) (IntOp.addi (idx p) 35937#32) (idx p) = idx p
  exact wrap_eq _ (hidx p)

/-- An index that is in range everywhere passes the range mask at every pixel. -/
theorem inRange_idxCol (idx : IVec S4x1080x1920 32) (hidx : ∀ p, (idx p).toNat ≤ 35936) (j : S4x1080x1920.Idx) :
    inRange (idxCol idx) j = 1#1 := by
  unfold inRange
  refine reduce_andi_one _ _ _ _ (fun _ => rfl) (fun i => ?_) j
  obtain ⟨b, h, w, u, rfl⟩ : ∃ (b : Fin 4) (h : Fin 1080) (w : Fin 1920) (u : Fin 1), i = ix4 b h w u :=
    ⟨i 0, i 1, i 2, i 3, eq_ix4 i⟩
  show IntOp.andi (IntOp.cmpi .sge (idxCol idx (ix4 b h w u)) 0#32) (IntOp.cmpi .sle (idxCol idx (ix4 b h w u)) 35936#32) = 1#1
  rw [idxCol_apply, wrapIdx_apply idx hidx]
  exact inrange_eq _ (hidx _)

/-- The table read at an index that is in range everywhere: the flattened table at that index. -/
theorem take_apply (lutflat : FVec Ideal S3x35937 .f32) (idx : IVec S4x1080x1920 32) (hidx : ∀ p, (idx p).toNat ≤ 35936)
    (c : Fin 3) (b : Fin 4) (h : Fin 1080) (w : Fin 1920) :
    take lutflat idx (ix4 c b h w)
      = lutflat (ix2 c ⟨(idx (ix3 b h w)).toNat, Nat.lt_succ_of_le (hidx (ix3 b h w))⟩) := by
  unfold take
  rw [select_apply]
  have hm : broadcastInDim S3x4x1080x1920 ![1, 2, 3] bcast_S4x1080x1920_S3x4x1080x1920_1_2_3 (inRange (idxCol idx)) (ix4 c b h w) = 1#1 := by
    refine (broadcastInDim_apply _ bcast_S4x1080x1920_S3x4x1080x1920_1_2_3 _ (ix4 c b h w) (ix3 b h w) (fun a => ?_)).trans
      (inRange_idxCol idx hidx _)
    match a with
    | ⟨0, _⟩ => rfl
    | ⟨1, _⟩ => rfl
    | ⟨2, _⟩ => rfl
  rw [hm, select_one, gather_apply]
  refine congrArg (fun n : Fin 35937 => lutflat (ix2 c n)) (Fin.ext ?_)
  show min (idxCol idx (ix4 b h w (0 : Fin 1))).toInt.toNat 35936 = (idx (ix3 b h w)).toNat
  rw [idxCol_apply, wrapIdx_apply idx hidx, toInt_toNat_small _ (hidx _)]
  exact Nat.min_eq_left (hidx _)

/-! ## A corner, the corner sum, the result -/

/-- The flat index of three arrays of nodes at most 32 is in range everywhere. -/
theorem flat_le (z y x : IVec S4x1080x1920 32) (hz : ∀ p, (z p).toNat ≤ 32) (hy : ∀ p, (y p).toNat ≤ 32)
    (hx : ∀ p, (x p).toNat ≤ 32) (p : S4x1080x1920.Idx) : (flat z y x p).toNat ≤ 35936 := by
  rw [flat_apply, flat_toNat _ _ _ (hz p) (hy p) (hx p)]
  have := hz p; have := hy p; have := hx p
  omega

/-- One corner at (ch, b, h, w): the table entry at the pixel's three nodes times the pixel's weight. -/
theorem corner_apply (lut : FVec Ideal S3x33x33x33 .f32) (z y x : IVec S4x1080x1920 32)
    (hz : ∀ p, (z p).toNat ≤ 32) (hy : ∀ p, (y p).toNat ≤ 32) (hx : ∀ p, (x p).toNat ≤ 32)
    (a b c : FVec Ideal S4x1080x1920 .f32) (ch : Fin 3) (bb : Fin 4) (h : Fin 1080) (w : Fin 1920) :
    corner (lutFlat lut) z y x a b c (ix4 ch bb h w)
      = Cert.Trilinear.lutAt lut ch (z (ix3 bb h w)) (y (ix3 bb h w)) (x (ix3 bb h w))
        * ((a (ix3 bb h w) * b (ix3 bb h w)) * c (ix3 bb h w)) := by
  unfold corner
  rw [mulf_apply, wt_apply, take_apply _ _ (flat_le z y x hz hy hx)]
  congr 1
  unfold Cert.Trilinear.lutAt
  refine lutFlat_apply lut ch _ _ _ _ ?_
  show (flat z y x (ix3 bb h w)).toNat = _
  rw [flat_apply, flat_toNat _ _ _ (hz _) (hy _) (hx _)]
  show _ = (((z (ix3 bb h w)).toNat % 33) * 33 + (y (ix3 bb h w)).toNat % 33) * 33 + (x (ix3 bb h w)).toNat % 33
  have := hz (ix3 bb h w); have := hy (ix3 bb h w); have := hx (ix3 bb h w)
  omega

/-- The corner sum at (ch, b, h, w), over any nodes at most 32 and any weights: the eight table entries, each times
    its weight, summed from the left. -/
theorem corners_apply (lut : FVec Ideal S3x33x33x33 .f32) (x0 x1 y0 y1 z0 z1 : IVec S4x1080x1920 32)
    (hx0 : ∀ p, (x0 p).toNat ≤ 32) (hx1 : ∀ p, (x1 p).toNat ≤ 32) (hy0 : ∀ p, (y0 p).toNat ≤ 32)
    (hy1 : ∀ p, (y1 p).toNat ≤ 32) (hz0 : ∀ p, (z0 p).toNat ≤ 32) (hz1 : ∀ p, (z1 p).toNat ≤ 32)
    (fx gx fy gy fz gz : FVec Ideal S4x1080x1920 .f32) (ch : Fin 3) (bb : Fin 4) (h : Fin 1080) (w : Fin 1920) :
    corners (lutFlat lut) x0 x1 y0 y1 z0 z1 fx gx fy gy fz gz (ix4 ch bb h w)
      = Cert.Trilinear.lutAt lut ch (z0 (ix3 bb h w)) (y0 (ix3 bb h w)) (x0 (ix3 bb h w)) * ((gz (ix3 bb h w) * gy (ix3 bb h w)) * gx (ix3 bb h w))
      + Cert.Trilinear.lutAt lut ch (z0 (ix3 bb h w)) (y0 (ix3 bb h w)) (x1 (ix3 bb h w)) * ((gz (ix3 bb h w) * gy (ix3 bb h w)) * fx (ix3 bb h w))
      + Cert.Trilinear.lutAt lut ch (z0 (ix3 bb h w)) (y1 (ix3 bb h w)) (x0 (ix3 bb h w)) * ((gz (ix3 bb h w) * fy (ix3 bb h w)) * gx (ix3 bb h w))
      + Cert.Trilinear.lutAt lut ch (z0 (ix3 bb h w)) (y1 (ix3 bb h w)) (x1 (ix3 bb h w)) * ((gz (ix3 bb h w) * fy (ix3 bb h w)) * fx (ix3 bb h w))
      + Cert.Trilinear.lutAt lut ch (z1 (ix3 bb h w)) (y0 (ix3 bb h w)) (x0 (ix3 bb h w)) * ((fz (ix3 bb h w) * gy (ix3 bb h w)) * gx (ix3 bb h w))
      + Cert.Trilinear.lutAt lut ch (z1 (ix3 bb h w)) (y0 (ix3 bb h w)) (x1 (ix3 bb h w)) * ((fz (ix3 bb h w) * gy (ix3 bb h w)) * fx (ix3 bb h w))
      + Cert.Trilinear.lutAt lut ch (z1 (ix3 bb h w)) (y1 (ix3 bb h w)) (x0 (ix3 bb h w)) * ((fz (ix3 bb h w) * fy (ix3 bb h w)) * gx (ix3 bb h w))
      + Cert.Trilinear.lutAt lut ch (z1 (ix3 bb h w)) (y1 (ix3 bb h w)) (x1 (ix3 bb h w)) * ((fz (ix3 bb h w) * fy (ix3 bb h w)) * fx (ix3 bb h w)) := by
  unfold corners
  rw [addf_apply, addf_apply, addf_apply, addf_apply, addf_apply, addf_apply, addf_apply,
    corner_apply lut z0 y0 x0 hz0 hy0 hx0 gz gy gx, corner_apply lut z0 y0 x1 hz0 hy0 hx1 gz gy fx,
    corner_apply lut z0 y1 x0 hz0 hy1 hx0 gz fy gx, corner_apply lut z0 y1 x1 hz0 hy1 hx1 gz fy fx,
    corner_apply lut z1 y0 x0 hz1 hy0 hx0 fz gy gx, corner_apply lut z1 y0 x1 hz1 hy0 hx1 fz gy fx,
    corner_apply lut z1 y1 x0 hz1 hy1 hx0 fz fy gx, corner_apply lut z1 y1 x1 hz1 hy1 hx1 fz fy fx]

/-- The eight-corner blend of three axis positions. -/
def rvalAt (lut : Cert.Trilinear.SLut.Idx → Ideal .f32) (px py pz : Ideal .f32) (c : Fin 3) : Ideal .f32 :=
  Cert.Trilinear.lutAt lut c (Cert.Trilinear.cellLo pz) (Cert.Trilinear.cellLo py) (Cert.Trilinear.cellLo px) * ((Cert.Trilinear.wLo pz * Cert.Trilinear.wLo py) * Cert.Trilinear.wLo px)
  + Cert.Trilinear.lutAt lut c (Cert.Trilinear.cellLo pz) (Cert.Trilinear.cellLo py) (Cert.Trilinear.cellHi px) * ((Cert.Trilinear.wLo pz * Cert.Trilinear.wLo py) * Cert.Trilinear.cellFrac px)
  + Cert.Trilinear.lutAt lut c (Cert.Trilinear.cellLo pz) (Cert.Trilinear.cellHi py) (Cert.Trilinear.cellLo px) * ((Cert.Trilinear.wLo pz * Cert.Trilinear.cellFrac py) * Cert.Trilinear.wLo px)
  + Cert.Trilinear.lutAt lut c (Cert.Trilinear.cellLo pz) (Cert.Trilinear.cellHi py) (Cert.Trilinear.cellHi px) * ((Cert.Trilinear.wLo pz * Cert.Trilinear.cellFrac py) * Cert.Trilinear.cellFrac px)
  + Cert.Trilinear.lutAt lut c (Cert.Trilinear.cellHi pz) (Cert.Trilinear.cellLo py) (Cert.Trilinear.cellLo px) * ((Cert.Trilinear.cellFrac pz * Cert.Trilinear.wLo py) * Cert.Trilinear.wLo px)
  + Cert.Trilinear.lutAt lut c (Cert.Trilinear.cellHi pz) (Cert.Trilinear.cellLo py) (Cert.Trilinear.cellHi px) * ((Cert.Trilinear.cellFrac pz * Cert.Trilinear.wLo py) * Cert.Trilinear.cellFrac px)
  + Cert.Trilinear.lutAt lut c (Cert.Trilinear.cellHi pz) (Cert.Trilinear.cellHi py) (Cert.Trilinear.cellLo px) * ((Cert.Trilinear.cellFrac pz * Cert.Trilinear.cellFrac py) * Cert.Trilinear.wLo px)
  + Cert.Trilinear.lutAt lut c (Cert.Trilinear.cellHi pz) (Cert.Trilinear.cellHi py) (Cert.Trilinear.cellHi px) * ((Cert.Trilinear.cellFrac pz * Cert.Trilinear.cellFrac py) * Cert.Trilinear.cellFrac px)

theorem rval_eq_rvalAt (lut : Cert.Trilinear.SLut.Idx → Ideal .f32) (ax ay az : Ideal .f32) (c : Fin 3) :
    Cert.Trilinear.rval lut ax ay az c
      = rvalAt lut (Cert.Trilinear.coord ax) (Cert.Trilinear.coord ay) (Cert.Trilinear.coord az) c := rfl

/-- The corner sum at (ch, b, h, w) is the eight-corner blend of the pixel's three positions. -/
theorem blend_apply (lut : FVec Ideal S3x33x33x33 .f32) (X Y Z : FVec Ideal S4x1080x1920 .f32)
    (ch : Fin 3) (bb : Fin 4) (h : Fin 1080) (w : Fin 1920) :
    blend (lutFlat lut) X Y Z (ix4 ch bb h w) = rvalAt lut (X (ix3 bb h w)) (Y (ix3 bb h w)) (Z (ix3 bb h w)) ch := by
  unfold blend
  rw [corners_apply lut (cell0 X) (cell1 (cell0 X)) (cell0 Y) (cell1 (cell0 Y)) (cell0 Z) (cell1 (cell0 Z))
    (cell0_le X) (cell1_le (cell0 X)) (cell0_le Y) (cell1_le (cell0 Y)) (cell0_le Z) (cell1_le (cell0 Z))
    (frac X) (one1 (frac X)) (frac Y) (one1 (frac Y)) (frac Z) (one1 (frac Z)) ch bb h w]
  rw [cell1_apply X, cell1_apply Y, cell1_apply Z, cell0_apply X, cell0_apply Y, cell0_apply Z,
    one1_apply X, one1_apply Y, one1_apply Z, frac_apply X, frac_apply Y, frac_apply Z]
  unfold rvalAt
  rfl

/-- The reference's result is the eight-corner interpolation of every pixel. -/
theorem refTerm_eq_Gr (lut : FVec Ideal S3x33x33x33 .f32) (img : FVec Ideal S4x3x1080x1920 .f32) :
    RefValue.refTerm (F := Ideal) lut img = Cert.Trilinear.Gr lut img := by
  funext i
  obtain ⟨b, c, h, w, rfl⟩ : ∃ (b : Fin 4) (c : Fin 3) (h : Fin 1080) (w : Fin 1920), i = ix4 b c h w :=
    ⟨i 0, i 1, i 2, i 3, eq_ix4 i⟩
  unfold refTerm
  rw [transpose_apply', blend_apply,
    chan_apply 0 _ (pos img) b h w (0 : Fin 3) rfl, chan_apply 1 _ (pos img) b h w (1 : Fin 3) rfl,
    chan_apply 2 _ (pos img) b h w (2 : Fin 3) rfl, pos_apply, pos_apply, pos_apply]
  show _ = Cert.Trilinear.rval lut (img (ix4 b 0 h w)) (img (ix4 b 1 h w)) (img (ix4 b 2 h w)) c
  rw [rval_eq_rvalAt]

end Cert.ReferenceIdeal.RefRead

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.TrilinearMath.lean ====
/-
  The mathematics of trilinear interpolation in a 33 × 33 × 33 table: the contraction of the table with
  the three per-axis weight vectors equals the blend of the eight corner entries.

  A position on an axis is 32 · a clamped to [0, 32], hence a real number p whatever the colour value a is.
  Its two nodes ⌊p⌋ and ⌊p⌋ + 1, clamped to 0 … 32, are nodes of the axis; the weight vector of the axis is
  (1 - (p - ⌊p⌋)) at the lower node plus (p - ⌊p⌋) at the upper one, and zero elsewhere. Contracting a vector
  with such a weight picks its two entries (also when the two nodes coincide). Doing this on the x axis,
  then y, then z, turns the triple sum into the eight corner terms. All of this is an identity between real
  numbers when the table's entries are finite; the embedding of the reals into the extended reals passes
  through the finite sums and products.
-/
import proofs.«419257_j71296457114367_4_alg».proof.Proof.Trilinear
import proofs.«419257_j71296457114367_4_alg».proof.Proof.LibSums
import Mathlib.Data.EReal.Operations
import Mathlib.Tactic.Ring
import Mathlib.Tactic.NormNum
import Mathlib.Algebra.BigOperators.Group.Finset.Basic
import Mathlib.Algebra.BigOperators.Ring.Finset

noncomputable section

namespace Cert.Trilinear

open Idealize.ShloMosaic Idealize.ShloMosaic.ValueIdx

/-! ## The three constants -/

theorem c32_eq : c32 = ((32 : ℝ) : EReal) := by
  show Ideal.ofBits .f32 0x42000000#32 = _
  simp [Ideal.ofBits, Ideal.ieee, -EReal.coe_mul]; norm_num

theorem c0_eq : c0 = ((0 : ℝ) : EReal) := by
  show Ideal.ofBits .f32 0x00000000#32 = _
  simp [Ideal.ofBits, Ideal.ieee]

theorem c1_eq : c1 = ((1 : ℝ) : EReal) := by
  show Ideal.ofBits .f32 0x3F800000#32 = _
  simp [Ideal.ofBits, Ideal.ieee, -EReal.coe_mul]; norm_num

/-! ## A position on an axis is a real number between 0 and 32 -/

theorem coord_real (a : Ideal .f32) : ∃ p : ℝ, coord a = ((p : ℝ) : EReal) := by
  have h0 : ((0 : ℝ) : EReal) ≤ coord a := by
    change ((0 : ℝ) : EReal) ≤ min c32 (max c0 (a * c32))
    rw [c32_eq, c0_eq]
    exact le_min (by exact_mod_cast (by norm_num : (0 : ℝ) ≤ 32)) (le_max_left _ _)
  have h1 : coord a ≤ ((32 : ℝ) : EReal) := by
    change min c32 (max c0 (a * c32)) ≤ _
    rw [c32_eq]
    exact min_le_left _ _
  refine ⟨(coord a).toReal, (EReal.coe_toReal ?_ ?_).symm⟩
  · exact ne_of_lt (lt_of_le_of_lt h1 (EReal.coe_lt_top _))
  · exact ne_of_gt (lt_of_lt_of_le (EReal.bot_lt_coe _) h0)

theorem cellFrac_coe (p : ℝ) : cellFrac ((p : ℝ) : EReal) = ((p - ⌊p⌋ : ℝ) : EReal) := by
  unfold cellFrac
  rw [Ideal.subf_def, Ideal.floor_def, Ideal.liftRound_coe, ← EReal.coe_sub]

theorem wLo_coe (p : ℝ) : wLo ((p : ℝ) : EReal) = ((1 - (p - ⌊p⌋) : ℝ) : EReal) := by
  unfold wLo
  rw [Ideal.subf_def, cellFrac_coe, c1_eq, ← EReal.coe_sub]

/-! ## The clamped nodes lie in 0 … 32 -/

/-- A 32-bit integer clamped, as a signed number, to 0 … 32. -/
def clamp (v : BitVec 32) : BitVec 32 := IntOp.minsi 32#32 (IntOp.maxsi 0#32 v)

theorem clamp_toNat_le (v : BitVec 32) : (clamp v).toNat ≤ 32 := by
  unfold clamp IntOp.minsi IntOp.maxsi
  simp only [BitVec.slt_eq_decide]
  split_ifs <;> simp_all [BitVec.toInt_eq_toNat_cond] <;> omega

theorem cellLo_le (p : Ideal .f32) : (cellLo p).toNat ≤ 32 := clamp_toNat_le _
theorem cellHi_le (p : Ideal .f32) : (cellHi p).toNat ≤ 32 := clamp_toNat_le _

theorem ofBool_eq_one (b : Bool) : BitVec.ofBool b = (1 : BitVec 1) ↔ b = true := by cases b <;> decide

theorem cmpi_eq_node (k : Fin 33) (w : BitVec 32) (hw : w.toNat ≤ 32) :
    IntOp.cmpi .eq (BitVec.ofNat 32 k.val) w = (1 : BitVec 1) ↔ k = node w := by
  have hk := k.isLt
  unfold IntOp.cmpi node
  rw [Fin.ext_iff]
  simp only [ofBool_eq_one, beq_iff_eq]
  rw [Nat.mod_eq_of_lt (by omega)]
  constructor
  · intro h; rw [← h, BitVec.toNat_ofNat]; omega
  · intro h; rw [h, BitVec.ofNat_toNat, BitVec.setWidth_eq]

/-! ## The weight of a node, as a real number -/

/-- The weight `g` at node `lo` plus the weight `f` at node `hi`, as a function of the node. -/
def blend (lo hi : Fin 33) (g f : ℝ) (k : Fin 33) : ℝ := (if k = lo then g else 0) + (if k = hi then f else 0)

/-- A choice between a real and zero, under an equivalent condition. -/
theorem ite_coe_of_iff {P Q : Prop} [Decidable P] [Decidable Q] (h : P ↔ Q) (g : ℝ) :
    (if P then ((g : ℝ) : EReal) else ((0 : ℝ) : EReal)) = (((if Q then g else 0) : ℝ) : EReal) := by
  by_cases hq : Q
  · rw [if_pos (h.2 hq), if_pos hq]
  · rw [if_neg (mt h.1 hq), if_neg hq]

theorem weight_coe (p : ℝ) (k : Fin 33) :
    weight ((p : ℝ) : EReal) (BitVec.ofNat 32 k.val)
      = ((blend (node (cellLo ((p : ℝ) : EReal))) (node (cellHi ((p : ℝ) : EReal))) (1 - (p - ⌊p⌋)) (p - ⌊p⌋) k : ℝ) : EReal) := by
  unfold weight Scalar.select blend
  rw [Ideal.addf_def, EReal.coe_add, wLo_coe, cellFrac_coe, c0_eq,
    ite_coe_of_iff (cmpi_eq_node k _ (cellLo_le _)), ite_coe_of_iff (cmpi_eq_node k _ (cellHi_le _))]

theorem cellFrac_of {q : Ideal .f32} {p : ℝ} (hq : q = ((p : ℝ) : EReal)) :
    cellFrac q = ((p - ⌊p⌋ : ℝ) : EReal) := by rw [hq, cellFrac_coe]

theorem wLo_of {q : Ideal .f32} {p : ℝ} (hq : q = ((p : ℝ) : EReal)) :
    wLo q = ((1 - (p - ⌊p⌋) : ℝ) : EReal) := by rw [hq, wLo_coe]

theorem weight_of {q : Ideal .f32} {p : ℝ} (hq : q = ((p : ℝ) : EReal)) (k : Fin 33) :
    weight q (BitVec.ofNat 32 k.val)
      = ((blend (node (cellLo q)) (node (cellHi q)) (1 - (p - ⌊p⌋)) (p - ⌊p⌋) k : ℝ) : EReal) := by
  subst hq; exact weight_coe p k

/-- Contracting a vector with the two-node weight picks the two entries. -/
theorem sum_blend (a : Fin 33 → ℝ) (lo hi : Fin 33) (g f : ℝ) :
    ∑ k, a k * blend lo hi g f k = a lo * g + a hi * f := by
  unfold blend
  simp only [mul_add, mul_ite, mul_zero, Finset.sum_add_distrib, Finset.sum_ite_eq', Finset.mem_univ, if_true]

/-- The contraction of a real table with three real weight vectors, x first, then y, then z. -/
def kvalR (L : Fin 33 → Fin 33 → Fin 33 → ℝ) (wx wy wz : Fin 33 → ℝ) : ℝ :=
  ∑ z, (∑ y, (∑ x, L z y x * wx x) * wy y) * wz z

/-- With two-node weights on every axis the contraction is the sum over the eight corners. -/
theorem kvalR_blend (L : Fin 33 → Fin 33 → Fin 33 → ℝ) (lx hx ly hy lz hz : Fin 33) (gx fx gy fy gz fz : ℝ) :
    kvalR L (blend lx hx gx fx) (blend ly hy gy fy) (blend lz hz gz fz)
      = L lz ly lx * ((gz * gy) * gx) + L lz ly hx * ((gz * gy) * fx)
        + L lz hy lx * ((gz * fy) * gx) + L lz hy hx * ((gz * fy) * fx)
        + L hz ly lx * ((fz * gy) * gx) + L hz ly hx * ((fz * gy) * fx)
        + L hz hy lx * ((fz * fy) * gx) + L hz hy hx * ((fz * fy) * fx) := by
  unfold kvalR
  simp only [sum_blend]
  ring

/-! ## The two ways of writing the interpolated value agree -/

/-- The contraction of a table of reals with real weights is the real contraction. -/
theorem kval_coe (lut : SLut.Idx → Ideal .f32) (ax ay az : Ideal .f32) (c : Fin 3)
    (L : Fin 33 → Fin 33 → Fin 33 → ℝ) (wx wy wz : Fin 33 → ℝ)
    (hL : ∀ z y x : Fin 33, lut (ix4 c z y x) = ((L z y x : ℝ) : EReal))
    (hx : ∀ k : Fin 33, weight (coord ax) (BitVec.ofNat 32 k.val) = ((wx k : ℝ) : EReal))
    (hy : ∀ k : Fin 33, weight (coord ay) (BitVec.ofNat 32 k.val) = ((wy k : ℝ) : EReal))
    (hz : ∀ k : Fin 33, weight (coord az) (BitVec.ofNat 32 k.val) = ((wz k : ℝ) : EReal)) :
    kval lut ax ay az c = ((kvalR L wx wy wz : ℝ) : EReal) := by
  unfold kval kvalR
  simp only [hL, hx, hy, hz, ← EReal.coe_mul, LibSums.sum_coe]

theorem rval_eq_kval (lut : SLut.Idx → Ideal .f32) (hlut : ∀ i, lut i ≠ ⊥ ∧ lut i ≠ ⊤)
    (ax ay az : Ideal .f32) (c : Fin 3) : rval lut ax ay az c = kval lut ax ay az c := by
  obtain ⟨px, hpx⟩ := coord_real ax
  obtain ⟨py, hpy⟩ := coord_real ay
  obtain ⟨pz, hpz⟩ := coord_real az
  obtain ⟨L, hL⟩ : ∃ L : Fin 33 → Fin 33 → Fin 33 → ℝ,
      ∀ z y x : Fin 33, lut (ix4 c z y x) = ((L z y x : ℝ) : EReal) :=
    ⟨fun z y x => (lut (ix4 c z y x)).toReal, fun z y x => (EReal.coe_toReal (hlut _).2 (hlut _).1).symm⟩
  rw [kval_coe lut ax ay az c L _ _ _ hL (weight_of hpx) (weight_of hpy) (weight_of hpz), kvalR_blend]
  unfold rval lutAt
  simp only [hL, wLo_of hpx, wLo_of hpy, wLo_of hpz, cellFrac_of hpx, cellFrac_of hpy, cellFrac_of hpz,
    ← EReal.coe_mul, ← EReal.coe_add]

theorem Gr_eq_Gk (lut : SLut.Idx → Ideal .f32) (img : SImg.Idx → Ideal .f32)
    (hlut : ∀ i, lut i ≠ ⊥ ∧ lut i ≠ ⊤) : Gr lut img = Gk lut img := by
  funext i
  exact rval_eq_kval lut hlut _ _ _ _

end Cert.Trilinear

end
-- ==== Proof.FiniteTable.lean ====
/-
  From the precondition to the finiteness of the colour table.

  The precondition is the conjunction of two statements, each "for every index, |x| < +∞", one over the
  colour table and one over the image. On the extended reals |x| is max x (-x), and max x (-x) < ⊤ says
  exactly that x is neither ⊥ nor ⊤: x is a real number. Here the first conjunct is read back at an
  arbitrary index of the table.
-/
import proofs.«419257_j71296457114367_4_alg».proof.Defs
import proofs.«419257_j71296457114367_4_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Idealize.SL.Sem

/-- The rank-0 shape has exactly one index. -/
instance : Subsingleton Cert.Pre_finite_inputs.S_.Idx := ⟨fun a b => funext fun d => d.elim0⟩

/-- An extended real whose absolute value is strictly below +∞ is a real number. -/
theorem ne_bot_top_of_abs_lt (x : EReal)
    (h : Ideal.cmp .olt (max x (-x)) (Ideal.ofBits .f32 0x7F800000#32) = 1#1) : x ≠ ⊥ ∧ x ≠ ⊤ := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨EReal.coe_ne_bot r, EReal.coe_ne_top r⟩

/-- If the precondition function evaluates to 1, every entry of the colour table is a real number. -/
theorem table_finite_of_fn (lut : FVec Ideal Cert.Pre_finite_inputs.S3x33x33x33 .f32)
    (img : FVec Ideal Cert.Pre_finite_inputs.S4x3x1080x1920 .f32)
    (h : Cert.Pre_finite_inputs.fn (F := Ideal) lut img = fun _ => 1#1)
    (i : Cert.Pre_finite_inputs.S3x33x33x33.Idx) : lut i ≠ ⊥ ∧ lut i ≠ ⊤ := by
  have h0 := congrFun h ValueIdx.ix0
  dsimp only [Cert.Pre_finite_inputs.fn, andi] at h0
  obtain ⟨hl, -⟩ := IntOp.andi_eq_one.1 h0
  have hi := Host.reduce_andi_all _ _ _ _ _ hl i
  exact ne_bot_top_of_abs_lt (lut i) hi

/-- At the claim's hypothesis: on every device, every entry of the colour table in memory is a real number. -/
theorem table_finite
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (i : Cert.Pre_finite_inputs.S3x33x33x33.Idx) :
    m ((c.tc : Thread Cert.KernelIdeal.nD Cert.KernelIdeal.τ).loc Cert.KernelIdeal.main_arg0) i ≠ (⊥ : EReal)
      ∧ m ((c.tc : Thread Cert.KernelIdeal.nD Cert.KernelIdeal.τ).loc Cert.KernelIdeal.main_arg0) i ≠ (⊤ : EReal) :=
  table_finite_of_fn _ _ (h c) i

end Cert.Proof.Finite

end
-- ==== Proof.lean ====
/-
  The claim: a colour table of 33 × 33 × 33 nodes per channel interpolated trilinearly at every pixel of an image.

  Each pixel's three colour values, scaled by 32 and clamped to [0, 32], are a position in the table; on each axis the
  position has a lower node, an upper node (both clamped to 0 … 32) and a fractional part f, and gives the lower node
  the weight 1 - f and the upper node the weight f. The kernel contracts the table with the three weight vectors, one
  axis after the other (x by a matrix product, then y and z by sums); the reference takes the eight corner entries and
  adds them up, each times the product of its three weights. A weight vector is zero off its two nodes, so a
  contraction with it is the two-term blend, also where the two nodes coincide at the upper border; with every table
  entry a real number the three nested blends multiply out to the eight-corner sum (`Trilinear.Gr_eq_Gk`). The table's
  entries are real because the precondition makes every input finite; the colour values need no hypothesis, since the
  clamped position is real whatever they are.

  The kernel's run leaves the result array at `Trilinear.Gk` of the argument arrays (`KBlocks.run`: the body's fifteen
  stores per grid point read back as one function, the 540 blocks covering the array), the reference's run leaves its
  result at `Trilinear.Gr` of its arguments (`RefRun.run` and `RefRead.refTerm_eq_Gr`); the three frames are those runs
  with the result dropped, and the idealization rewrote nothing.
-/
import proofs.«419257_j71296457114367_4_alg».proof.Defs
import proofs.«419257_j71296457114367_4_alg».proof.Proof.Gen.Kernel
import proofs.«419257_j71296457114367_4_alg».proof.Proof.Gen.KernelIdeal
import proofs.«419257_j71296457114367_4_alg».proof.Proof.Gen.ReferenceIdeal
import proofs.«419257_j71296457114367_4_alg».proof.Proof.Gen.Pre_finite_inputs
import proofs.«419257_j71296457114367_4_alg».proof.Proof.BFrame
import proofs.«419257_j71296457114367_4_alg».proof.Proof.KBlocks
import proofs.«419257_j71296457114367_4_alg».proof.Proof.RefRun
import proofs.«419257_j71296457114367_4_alg».proof.Proof.RefRead
import proofs.«419257_j71296457114367_4_alg».proof.Proof.TrilinearMath
import proofs.«419257_j71296457114367_4_alg».proof.Proof.FiniteTable
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both idealized programs end at the interpolated image: the kernel at the contraction form, the reference at the
    eight-corner form of the same arguments, equal because the table is finite. -/
theorem algebraic : Cert.algebraic_KernelIdeal_ReferenceIdeal := by
  intro m ρ m' ρ' hpre hagree
  refine ⟨fun c => Cert.Trilinear.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KBlocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefRead.refTerm_eq_Gr]
  exact Cert.Trilinear.Gr_eq_Gk _ _ (Cert.Proof.Finite.table_finite m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
